-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3 : Shape := ⟨2, ![32, 3]⟩
abbrev S14541x400 : Shape := ⟨2, ![14541, 400]⟩
abbrev S237x200 : Shape := ⟨2, ![237, 200]⟩
abbrev S_ : Shape := ⟨0, ![]⟩
abbrev S32x1 : Shape := ⟨2, ![32, 1]⟩
abbrev S32 : Shape := ⟨1, ![32]⟩

class Facts : Prop where
  bcast_S_S14541x400 : S_.BroadcastsInDim S14541x400 (![] : Fin 0 → Fin S14541x400.rank)
  reducesTo_S14541x400_S_d0_1 : S14541x400.ReducesTo [0, 1] S_
  h_S_ : 0 < S_.numel
  bcast_S_S237x200 : S_.BroadcastsInDim S237x200 (![] : Fin 0 → Fin S237x200.rank)
  reducesTo_S237x200_S_d0_1 : S237x200.ReducesTo [0, 1] S_
  bcast_S_S32x3 : S_.BroadcastsInDim S32x3 (![] : Fin 0 → Fin S32x3.rank)
  reducesTo_S32x3_S_d0_1 : S32x3.ReducesTo [0, 1] S_
  slices_S32x3_S32x1_0_0 : S32x3.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_
  slices_S32x3_S32x1_0_1 : S32x3.Slices ![0, 1] S32x1
  slices_S32x3_S32x1_0_2 : S32x3.Slices ![0, 2] S32x1

variable [Facts]

def fn_part1 {F : FTy → Type} [FloatOps F] (main_arg0 : IVec S32x3 32) (main_v12 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v12 main_v17
  let main_v19 : IVec S32x1 32 := (extractStridedSlice S32x1 ![0, 1] · slices_S32x3_S32x1_0_1) main_arg0
  let main_v20 : IVec S32 32 := shapeCast S32 main_v19 shapeCasts_S32x1_S32
  let main_c_6 : IVec S_ 32 := constantI S_ 32 237#32
  let main_v21 : IVec S32 32 := broadcastInDim S32 ![] bcast_S_S32 main_c_6
  let main_v22 : IVec S32 1 := cmpi .slt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v18 main_v23
  let main_v25 : IVec S32x1 32 := (extractStridedSlice S32x1 ![0, 2] · slices_S32x3_S32x1_0_2) main_arg0
  let main_v26 : IVec S32 32 := shapeCast S32 main_v25 shapeCasts_S32x1_S32
  let main_c_8 : IVec S_ 32 := constantI S_ 32 14541#32
  let main_v27 : IVec S32 32 := broadcastInDim S32 ![] bcast_S_S32 main_c_8
  let main_v28 : IVec S32 1 := cmpi .slt main_v26 main_v27
  let main_c_9 : IVec S_ 1 := constantI S_ 1 1#1
  let main_v29 : IVec S_ 1 := (fun x v => Host.reduce IntOp.andi x v reducesTo_S32_S_d0 h_S_) main_v28 main_c_9
  let main_v30 : IVec S_ 1 := andi main_v24 main_v29
  main_v30

def fn {F : FTy → Type} [FloatOps F] (main_arg0 : IVec S32x3 32) (main_arg1 : FVec F S14541x400 .f32) (main_arg2 : FVec F S237x200 .f32) : IVec S_ 1 :=
  let main_v0 : FVec F S14541x400 .f32 := Host.absf main_arg1
  let main_cst : FVec F S_ .f32 := constant S_ .f32 0x7F800000#32
  let main_v1 : FVec F S14541x400 .f32 := broadcastInDim S14541x400 ![] bcast_S_S14541x400 main_cst
  let main_v2 : IVec S14541x400 1 := cmpf .olt main_v0 main_v1
  let main_c : IVec S_ 1 := constantI S_ 1 1#1
  let main_v3 : IVec S_ 1 := (fun x v => Host.reduce IntOp.andi x v reducesTo_S14541x400_S_d0_1 h_S_) main_v2 main_c
  let main_v4 : FVec F S237x200 .f32 := Host.absf main_arg2
  let main_cst_0 : FVec F S_ .f32 := constant S_ .f32 0x7F800000#32
  let main_v5 : FVec F S237x200 .f32 := broadcastInDim S237x200 ![] bcast_S_S237x200 main_cst_0
  let main_v6 : IVec S237x200 1 := cmpf .olt main_v4 main_v5
  let main_c_1 : IVec S_ 1 := constantI S_ 1 1#1
  let main_v7 : IVec S_ 1 := (fun x v => Host.reduce IntOp.andi x v reducesTo_S237x200_S_d0_1 h_S_) main_v6 main_c_1
  let main_v8 : IVec S_ 1 := andi main_v3 main_v7
  let main_c_2 : IVec S_ 32 := constantI S_ 32 0#32
  let main_v9 : IVec S32x3 32 := broadcastInDim S32x3 ![] bcast_S_S32x3 main_c_2
  let main_v10 : IVec S32x3 1 := cmpi .sge main_arg0 main_v9
  let main_c_3 : IVec S_ 1 := constantI S_ 1 1#1
  let main_v11 : IVec S_ 1 := (fun x v => Host.reduce IntOp.andi x v reducesTo_S32x3_S_d0_1 h_S_) main_v10 main_c_3
  let main_v12 : IVec S_ 1 := andi main_v8 main_v11
  let main_v13 : IVec S32x1 32 := (extractStridedSlice S32x1 ![0, 0] · slices_S32x3_S32x1_0_0) main_arg0
  let main_v14 : IVec S32 32 := shapeCast S32 main_v13 shapeCasts_S32x1_S32
  let main_c_4 : IVec S_ 32 := constantI S_ 32 14541#32
  let main_v15 : IVec S32 32 := broadcastInDim S32 ![] bcast_S_S32 main_c_4
  let main_v16 : IVec S32 1 := cmpi .slt main_v14 main_v15
  fn_part1 (F := F) main_arg0 main_v12 main_v16
-- ==== Kernel.lean ====
abbrev S32x3 : Shape := ⟨2, ![32, 3]⟩
abbrev S14541x400 : Shape := ⟨2, ![14541, 400]⟩
abbrev S237x200 : Shape := ⟨2, ![237, 200]⟩
abbrev S32x1 : Shape := ⟨2, ![32, 1]⟩
abbrev S32 : Shape := ⟨1, ![32]⟩
abbrev S_ : Shape := ⟨0, ![]⟩
abbrev S1 : Shape := ⟨1, ![1]⟩
abbrev S1x1 : Shape := ⟨2, ![1, 1]⟩
abbrev S32x400 : Shape := ⟨2, ![32, 400]⟩
abbrev S32x200 : Shape := ⟨2, ![32, 200]⟩
abbrev S200x32 : Shape := ⟨2, ![200, 32]⟩
abbrev S400x14541 : Shape := ⟨2, ![400, 14541]⟩
abbrev S32x14541 : Shape := ⟨2, ![32, 14541]⟩
abbrev S400x512 : Shape := ⟨2, ![400, 512]⟩
abbrev S32x512 : Shape := ⟨2, ![32, 512]⟩
abbrev S200x512 : Shape := ⟨2, ![200, 512]⟩
abbrev S200x1 : Shape := ⟨2, ![200, 1]⟩
abbrev S512 : Shape := ⟨1, ![512]⟩
abbrev S1x512 : Shape := ⟨2, ![1, 512]⟩

abbrev nBuf : Space → Nat
  | .hbm => 122
  | .vmem => 12
  | .smem => 0
  | _ => 0

abbrev bufTy : (tb : Table) → Fin (tcTables nBuf tb) → BufTy
  | .hbm, ⟨0, _⟩ => ⟨S32x3, .i32⟩
  | .hbm, ⟨1, _⟩ => ⟨S14541x400, .f32⟩
  | .hbm, ⟨2, _⟩ => ⟨S237x200, .f32⟩
  | .hbm, ⟨3, _⟩ => ⟨S32x1, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x400, .f32⟩
  | .hbm, ⟨24, _⟩ => ⟨S32x400, .i1⟩
  | .hbm, ⟨25, _⟩ => ⟨S_, .f32⟩
  | .hbm, ⟨26, _⟩ => ⟨S32x400, .f32⟩
  | .hbm, ⟨27, _⟩ => ⟨S32x400, .f32⟩
  | .hbm, ⟨28, _⟩ => ⟨S32x1, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S1, .i32⟩
  | .hbm, ⟨39, _⟩ => ⟨S_, .i32⟩
  | .hbm, ⟨40, _⟩ => ⟨S32x1, .i32⟩
  | .hbm, ⟨41, _⟩ => ⟨S32x1, .i1⟩
  | .hbm, ⟨42, _⟩ => ⟨S1x1, .i32⟩
  | .hbm, ⟨43, _⟩ => ⟨S32x1, .i32⟩
  | .hbm, ⟨44, _⟩ => ⟨S32x1, .i1⟩
  | .hbm, ⟨45, _⟩ => ⟨S32x1, .i1⟩
  | .hbm, ⟨46, _⟩ => ⟨S_, .i1⟩
  | .hbm, ⟨47, _⟩ => ⟨S32, .i1⟩
  | .hbm, ⟨48, _⟩ => ⟨S32x200, .f32⟩
  | .hbm, ⟨49, _⟩ => ⟨S32x200, .i1⟩
  | .hbm, ⟨50, _⟩ => ⟨S_, .f32⟩
  | .hbm, ⟨51, _⟩ => ⟨S32x200, .f32⟩
  | .hbm, ⟨52, _⟩ => ⟨S32x200, .f32⟩
  | .hbm, ⟨53, _⟩ => ⟨S_, .f32⟩
  | .hbm, ⟨54, _⟩ => ⟨S32x200, .f32⟩
  | .hbm, ⟨55, _⟩ => ⟨S32x200, .f32⟩
  | .hbm, ⟨56, _⟩ => ⟨S32x1, .i32⟩
  | .hbm, ⟨57, _⟩ => ⟨S32, .i32⟩
  | .hbm, ⟨58, _⟩ => ⟨S_, .i32⟩
  | .hbm, ⟨59, _⟩ => ⟨S32, .i32⟩
  | .hbm, ⟨60, _⟩ => ⟨S32, .i1⟩
  | .hbm, ⟨61, _⟩ => ⟨S_, .i32⟩
  | .hbm, ⟨62, _⟩ => ⟨S32, .i32⟩
  | .hbm, ⟨63, _⟩ => ⟨S32, .i32⟩
  | .hbm, ⟨64, _⟩ => ⟨S32, .i32⟩
  | .hbm, ⟨65, _⟩ => ⟨S32x1, .i32⟩
  | .hbm, ⟨66, _⟩ => ⟨S1, .i32⟩
  | .hbm, ⟨67, _⟩ => ⟨S_, .i32⟩
  | .hbm, ⟨68, _⟩ => ⟨S32x1, .i32⟩
  | .hbm, ⟨69, _⟩ => ⟨S32x1, .i1⟩
  | .hbm, ⟨70, _⟩ => ⟨S1x1, .i32⟩
  | .hbm, ⟨71, _⟩ => ⟨S32x1, .i32⟩
  | .hbm, ⟨72, _⟩ => ⟨S32x1, .i1⟩
  | .hbm, ⟨73, _⟩ => ⟨S32x1, .i1⟩
  | .hbm, ⟨74, _⟩ => ⟨S_, .i1⟩
  | .hbm, ⟨75, _⟩ => ⟨S32, .i1⟩
  | .hbm, ⟨76, _⟩ => ⟨S32x400, .f32⟩
  | .hbm, ⟨77, _⟩ => ⟨S32x400, .i1⟩
  | .hbm, ⟨78, _⟩ => ⟨S_, .f32⟩
  | .hbm, ⟨79, _⟩ => ⟨S32x400, .f32⟩
  | .hbm, ⟨80, _⟩ => ⟨S32x400, .f32⟩
  | .hbm, ⟨81, _⟩ => ⟨S32x200, .f32⟩
  | .hbm, ⟨82, _⟩ => ⟨S32x200, .f32⟩
  | .hbm, ⟨83, _⟩ => ⟨S32x200, .f32⟩
  | .hbm, ⟨84, _⟩ => ⟨S32x200, .f32⟩
  | .hbm, ⟨85, _⟩ => ⟨S32x200, .f32⟩
  | .hbm, ⟨86, _⟩ => ⟨S32x200, .f32⟩
  | .hbm, ⟨87, _⟩ => ⟨S32x200, .f32⟩
  | .hbm, ⟨88, _⟩ => ⟨S32x200, .f32⟩
  | .hbm, ⟨89, _⟩ => ⟨S32x200, .f32⟩
  | .hbm, ⟨90, _⟩ => ⟨S32x200, .f32⟩
  | .hbm, ⟨91, _⟩ => ⟨S32x200, .f32⟩
  | .hbm, ⟨92, _⟩ => ⟨S32x200, .f32⟩
  | .hbm, ⟨93, _⟩ => ⟨S32x200, .f32⟩
  | .hbm, ⟨94, _⟩ => ⟨S32x200, .f32⟩
  | .hbm, ⟨95, _⟩ => ⟨S32x200, .f32⟩
  | .hbm, ⟨96, _⟩ => ⟨S32x200, .f32⟩
  | .hbm, ⟨97, _⟩ => ⟨S32x200, .f32⟩
  | .hbm, ⟨98, _⟩ => ⟨S32x200, .f32⟩
  | .hbm, ⟨99, _⟩ => ⟨S32x200, .f32⟩
  | .hbm, ⟨100, _⟩ => ⟨S32x200, .f32⟩
  | .hbm, ⟨101, _⟩ => ⟨S32x200, .f32⟩
  | .hbm, ⟨102, _⟩ => ⟨S32x200, .f32⟩
  | .hbm, ⟨103, _⟩ => ⟨S32x200, .f32⟩
  | .hbm, ⟨104, _⟩ => ⟨S32x200, .f32⟩
  | .hbm, ⟨105, _⟩ => ⟨S32x200, .f32⟩
  | .hbm, ⟨106, _⟩ => ⟨S32x200, .f32⟩
  | .hbm, ⟨107, _⟩ => ⟨S32x200, .f32⟩
  | .hbm, ⟨108, _⟩ => ⟨S32x200, .f32⟩
  | .hbm, ⟨109, _⟩ => ⟨S32x200, .f32⟩
  | .hbm, ⟨110, _⟩ => ⟨S32x200, .f32⟩
  | .hbm, ⟨111, _⟩ => ⟨S32x200, .f32⟩
  | .hbm, ⟨112, _⟩ => ⟨S32x200, .f32⟩
  | .hbm, ⟨113, _⟩ => ⟨S200x32, .f32⟩
  | .hbm, ⟨114, _⟩ => ⟨S200x32, .f32⟩
  | .hbm, ⟨115, _⟩ => ⟨S200x32, .f32⟩
  | .hbm, ⟨116, _⟩ => ⟨S200x32, .f32⟩
  | .hbm, ⟨117, _⟩ => ⟨S200x32, .f32⟩
  | .hbm, ⟨118, _⟩ => ⟨S200x32, .f32⟩
  | .hbm, ⟨119, _⟩ => ⟨S400x14541, .f32⟩
  | .hbm, ⟨120, _⟩ => ⟨S32x14541, .f32⟩
  | .hbm, ⟨121, _⟩ => ⟨S32x14541, .f32⟩
  | .local _ .vmem, ⟨0, _⟩ => ⟨S400x512, .f32⟩
  | .local _ .vmem, ⟨1, _⟩ => ⟨S400x512, .f32⟩
  | .local _ .vmem, ⟨2, _⟩ => ⟨S200x32, .f32⟩
  | .local _ .vmem, ⟨3, _⟩ => ⟨S200x32, .f32⟩
  | .local _ .vmem, ⟨4, _⟩ => ⟨S200x32, .f32⟩
  | .local _ .vmem, ⟨5, _⟩ => ⟨S200x32, .f32⟩
  | .local _ .vmem, ⟨6, _⟩ => ⟨S200x32, .f32⟩
  | .local _ .vmem, ⟨7, _⟩ => ⟨S200x32, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | _, _ => ⟨S32x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v10 : Ref sig .tc := ⟨.hbm, 80, rfl⟩
abbrev main_v11 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50_0 : Ref sig .tc := ⟨.hbm, 120, rfl⟩
abbrev main_v50_1 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S200x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S32x3_S32x1_0_0 : S32x3.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x400_0 : S32.BroadcastsInDim S32x400 (![0] : Fin 1 → Fin S32x400.rank)
  bcast_S_S32x400 : S_.BroadcastsInDim S32x400 (![] : Fin 0 → Fin S32x400.rank)
  slices_S32x3_S32x1_0_1 : S32x3.Slices ![0, 1] S32x1
  bcast_S32_S32x200_0 : S32.BroadcastsInDim S32x200 (![0] : Fin 1 → Fin S32x200.rank)
  bcast_S_S32x200 : S_.BroadcastsInDim S32x200 (![] : Fin 0 → Fin S32x200.rank)
  slices_S32x3_S32x1_0_2 : S32x3.Slices ![0, 2] S32x1
  slices_S32x400_S32x200_0_0 : S32x400.Slices ![0, 0] S32x200
  slices_S32x400_S32x200_0_200 : S32x400.Slices ![0, 200] S32x200
  transposes_S32x200_S200x32_1_0 : S32x200.Transposes [1, 0] S200x32
  transposes_S14541x400_S400x14541_1_0 : S14541x400.Transposes [1, 0] S400x14541
  inb_S400x512_S200x512_0_0 : ∀ a, (![0, 0] : Fin 2 → Nat) a + S200x512.size a ≤ S400x512.size a
  h_S200x512 : 0 < S200x512.numel
  shapeCasts_S200x512_S200x512 : S200x512.ShapeCasts S200x512
  inb_S400x512_S200x512_200_0 : ∀ a, (![200, 0] : Fin 2 → Nat) a + S200x512.size a ≤ S400x512.size a
  inb_S200x32_S200x1_0_0 : ∀ a, (![0, 0] : Fin 2 → Nat) a + S200x1.size a ≤ S200x32.size a
  h_S200x1 : 0 < S200x1.numel
  shapeCasts_S200x1_S200x1 : S200x1.ShapeCasts S200x1
  broadcasts_S200x1_S200x512 : S200x1.Broadcasts S200x512
  reduces_S200x512_S512 : S200x512.Reduces [0] S512
  inb_S200x32_S200x1_0_1 : ∀ a, (![0, 1] : Fin 2 → Nat) a + S200x1.size a ≤ S200x32.size a
  inb_S200x32_S200x1_0_2 : ∀ a, (![0, 2] : Fin 2 → Nat) a + S200x1.size a ≤ S200x32.size a
  inb_S200x32_S200x1_0_3 : ∀ a, (![0, 3] : Fin 2 → Nat) a + S200x1.size a ≤ S200x32.size a
  inb_S200x32_S200x1_0_4 : ∀ a, (![0, 4] : Fin 2 → Nat) a + S200x1.size a ≤ S200x32.size a
  inb_S200x32_S200x1_0_5 : ∀ a, (![0, 5] : Fin 2 → Nat) a + S200x1.size a ≤ S200x32.size a
  inb_S200x32_S200x1_0_6 : ∀ a, (![0, 6] : Fin 2 → Nat) a + S200x1.size a ≤ S200x32.size a
  inb_S200x32_S200x1_0_7 : ∀ a, (![0, 7] : Fin 2 → Nat) a + S200x1.size a ≤ S200x32.size a
  inb_S200x32_S200x1_0_8 : ∀ a, (![0, 8] : Fin 2 → Nat) a + S200x1.size a ≤ S200x32.size a
  inb_S200x32_S200x1_0_9 : ∀ a, (![0, 9] : Fin 2 → Nat) a + S200x1.size a ≤ S200x32.size a
  inb_S200x32_S200x1_0_10 : ∀ a, (![0, 10] : Fin 2 → Nat) a + S200x1.size a ≤ S200x32.size a
  inb_S200x32_S200x1_0_11 : ∀ a, (![0, 11] : Fin 2 → Nat) a + S200x1.size a ≤ S200x32.size a
  inb_S200x32_S200x1_0_12 : ∀ a, (![0, 12] : Fin 2 → Nat) a + S200x1.size a ≤ S200x32.size a
  inb_S200x32_S200x1_0_13 : ∀ a, (![0, 13] : Fin 2 → Nat) a + S200x1.size a ≤ S200x32.size a
  inb_S200x32_S200x1_0_14 : ∀ a, (![0, 14] : Fin 2 → Nat) a + S200x1.size a ≤ S200x32.size a
  inb_S200x32_S200x1_0_15 : ∀ a, (![0, 15] : Fin 2 → Nat) a + S200x1.size a ≤ S200x32.size a
  inb_S200x32_S200x1_0_16 : ∀ a, (![0, 16] : Fin 2 → Nat) a + S200x1.size a ≤ S200x32.size a
  inb_S200x32_S200x1_0_17 : ∀ a, (![0, 17] : Fin 2 → Nat) a + S200x1.size a ≤ S200x32.size a
  inb_S200x32_S200x1_0_18 : ∀ a, (![0, 18] : Fin 2 → Nat) a + S200x1.size a ≤ S200x32.size a
  inb_S200x32_S200x1_0_19 : ∀ a, (![0, 19] : Fin 2 → Nat) a + S200x1.size a ≤ S200x32.size a
  inb_S200x32_S200x1_0_20 : ∀ a, (![0, 20] : Fin 2 → Nat) a + S200x1.size a ≤ S200x32.size a
  inb_S200x32_S200x1_0_21 : ∀ a, (![0, 21] : Fin 2 → Nat) a + S200x1.size a ≤ S200x32.size a
  inb_S200x32_S200x1_0_22 : ∀ a, (![0, 22] : Fin 2 → Nat) a + S200x1.size a ≤ S200x32.size a
  inb_S200x32_S200x1_0_23 : ∀ a, (![0, 23] : Fin 2 → Nat) a + S200x1.size a ≤ S200x32.size a
  inb_S200x32_S200x1_0_24 : ∀ a, (![0, 24] : Fin 2 → Nat) a + S200x1.size a ≤ S200x32.size a
  inb_S200x32_S200x1_0_25 : ∀ a, (![0, 25] : Fin 2 → Nat) a + S200x1.size a ≤ S200x32.size a
  inb_S200x32_S200x1_0_26 : ∀ a, (![0, 26] : Fin 2 → Nat) a + S200x1.size a ≤ S200x32.size a
  inb_S200x32_S200x1_0_27 : ∀ a, (![0, 27] : Fin 2 → Nat) a + S200x1.size a ≤ S200x32.size a
  inb_S200x32_S200x1_0_28 : ∀ a, (![0, 28] : Fin 2 → Nat) a + S200x1.size a ≤ S200x32.size a
  inb_S200x32_S200x1_0_29 : ∀ a, (![0, 29] : Fin 2 → Nat) a + S200x1.size a ≤ S200x32.size a
  inb_S200x32_S200x1_0_30 : ∀ a, (![0, 30] : Fin 2 → Nat) a + S200x1.size a ≤ S200x32.size a
  inb_S200x32_S200x1_0_31 : ∀ a, (![0, 31] : Fin 2 → Nat) a + S200x1.size a ≤ S200x32.size a
  shapeCasts_S512_S1x512 : S512.ShapeCasts S1x512
  concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0 : Shape.Concatenates [S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512] S32x512 0
  inb_S32x512_S32x512_0_0 : ∀ a, (![0, 0] : Fin 2 → Nat) a + S32x512.size a ≤ S32x512.size a
  h_S32x512 : 0 < S32x512.numel
  gather_S14541x400_S32x1_S32x400_1_0_n_n_0_1_1400_wf : GatherDims.WF S14541x400 S32x1 S32x400 [1] [0] [] [0] [] 1 ![1, 400]
  gather_S237x200_S32x1_S32x200_1_0_n_n_0_1_1200_wf : GatherDims.WF S237x200 S32x1 S32x200 [1] [0] [] [0] [] 1 ![1, 200]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S400x512.size a < S400x14541.size a
  hwx0_0 : ∀ i : grid0.Coords, EltTy.bits .f32 = 32 ∨ (Rect.unit (s := S400x14541) (fun a => cc0_transform_0 i a * S400x512.size a) (fun a => (Pipeline.Clip.of (cc0_transform_0 i a) (S400x512.size a) (S400x14541.size a)).extent (S400x512.size a)) fun a => Pipeline.Clip.inb (Pipeline.Clip.ok_of (hstart0_0 i a))).WholeWords (EltTy.packing .f32)
  hwxs0_0 : ∀ i : grid0.Coords, EltTy.bits .f32 = 32 ∨ (Rect.unit (s := S400x512) (fun _ => 0) (fun a => (Pipeline.Clip.of (cc0_transform_0 i a) (S400x512.size a) (S400x14541.size a)).extent (S400x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x32.size a ≤ S200x32.size a
  hwx0_1 : ∀ i : grid0.Coords, EltTy.bits .f32 = 32 ∨ (Rect.block (s := S200x32) S200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S200x32.size a
  hwx0_2 : ∀ i : grid0.Coords, EltTy.bits .f32 = 32 ∨ (Rect.block (s := S200x32) S200x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x32.size a ≤ S200x32.size a
  hwx0_3 : ∀ i : grid0.Coords, EltTy.bits .f32 = 32 ∨ (Rect.block (s := S200x32) S200x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x32.size a ≤ S200x32.size a
  hwx0_4 : ∀ i : grid0.Coords, EltTy.bits .f32 = 32 ∨ (Rect.block (s := S200x32) S200x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x32.size a ≤ S200x32.size a
  hwx0_5 : ∀ i : grid0.Coords, EltTy.bits .f32 = 32 ∨ (Rect.block (s := S200x32) S200x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x32.size a ≤ S200x32.size a
  hwx0_6 : ∀ i : grid0.Coords, EltTy.bits .f32 = 32 ∨ (Rect.block (s := S200x32) S200x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S32x512.size a < S32x14541.size a
  hwx0_7 : ∀ i : grid0.Coords, EltTy.bits .f32 = 32 ∨ (Rect.unit (s := S32x14541) (fun a => cc0_transform_7 i a * S32x512.size a) (fun a => (Pipeline.Clip.of (cc0_transform_7 i a) (S32x512.size a) (S32x14541.size a)).extent (S32x512.size a)) fun a => Pipeline.Clip.inb (Pipeline.Clip.ok_of (hstart0_7 i a))).WholeWords (EltTy.packing .f32)
  hwxs0_7 : ∀ i : grid0.Coords, EltTy.bits .f32 = 32 ∨ (Rect.unit (s := S32x512) (fun _ => 0) (fun a => (Pipeline.Clip.of (cc0_transform_7 i a) (S32x512.size a) (S32x14541.size a)).extent (S32x512.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S32x512.size a < S32x14541.size a
  hwx0_8 : ∀ i : grid0.Coords, EltTy.bits .f32 = 32 ∨ (Rect.unit (s := S32x14541) (fun a => cc0_transform_8 i a * S32x512.size a) (fun a => (Pipeline.Clip.of (cc0_transform_8 i a) (S32x512.size a) (S32x14541.size a)).extent (S32x512.size a)) fun a => Pipeline.Clip.inb (Pipeline.Clip.ok_of (hstart0_8 i a))).WholeWords (EltTy.packing .f32)
  hwxs0_8 : ∀ i : grid0.Coords, EltTy.bits .f32 = 32 ∨ (Rect.unit (s := S32x512) (fun _ => 0) (fun a => (Pipeline.Clip.of (cc0_transform_8 i a) (S32x512.size a) (S32x14541.size a)).extent (S32x512.size a)) fun a => (Nat.zero_add _).trans_le (Pipeline.Clip.extent_le (Pipeline.Clip.ok_of (hstart0_8 i a)))).WholeWords (EltTy.packing .f32)

variable [Facts₀]

def gather_S14541x400_S32x1_S32x400_1_0_n_n_0_1_1400 : GatherDims S14541x400 S32x1 S32x400 where
  offsetDims := [1]
  collapsedSliceDims := [0]
  operandBatchingDims := []
  startIndicesBatchingDims := []
  startIndexMap := [0]
  indexVectorDim := 1
  sliceSizes := ![1, 400]
  wf := gather_S14541x400_S32x1_S32x400_1_0_n_n_0_1_1400_wf
def gather_S237x200_S32x1_S32x200_1_0_n_n_0_1_1200 : GatherDims S237x200 S32x1 S32x200 where
  offsetDims := [1]
  collapsedSliceDims := [0]
  operandBatchingDims := []
  startIndicesBatchingDims := []
  startIndexMap := [0]
  indexVectorDim := 1
  sliceSizes := ![1, 200]
  wf := gather_S237x200_S32x1_S32x200_1_0_n_n_0_1_1200_wf

abbrev win0_0 : Pipeline.Window sig grid0 :=
  Pipeline.Window.ofSpecClip (Memref.whole main_v49) S400x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v43) S200x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S200x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S200x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S200x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S200x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S200x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v50_0) S32x512.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v50_1) S32x512.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x3 : Shape := ⟨2, ![32, 3]⟩
abbrev S14541x400 : Shape := ⟨2, ![14541, 400]⟩
abbrev S237x200 : Shape := ⟨2, ![237, 200]⟩
abbrev S32x1 : Shape := ⟨2, ![32, 1]⟩
abbrev S32 : Shape := ⟨1, ![32]⟩
abbrev S_ : Shape := ⟨0, ![]⟩
abbrev S32x400 : Shape := ⟨2, ![32, 400]⟩
abbrev S32x200 : Shape := ⟨2, ![32, 200]⟩
abbrev S14541x200 : Shape := ⟨2, ![14541, 200]⟩
abbrev S32x1x200 : Shape := ⟨3, ![32, 1, 200]⟩
abbrev S1x14541x200 : Shape := ⟨3, ![1, 14541, 200]⟩
abbrev S32x14541x200 : Shape := ⟨3, ![32, 14541, 200]⟩
abbrev S32x14541 : Shape := ⟨2, ![32, 14541]⟩
abbrev S14541x1x200 : Shape := ⟨3, ![14541, 1, 200]⟩
abbrev S1x32x200 : Shape := ⟨3, ![1, 32, 200]⟩
abbrev S14541x32x200 : Shape := ⟨3, ![14541, 32, 200]⟩
abbrev S14541x32 : Shape := ⟨2, ![14541, 32]⟩

abbrev nBuf : Space → Nat
  | .hbm => 114
  | .vmem => 0
  | .smem => 0
  | _ => 0

abbrev bufTy : (tb : Table) → Fin (tcTables nBuf tb) → BufTy
  | .hbm, ⟨0, _⟩ => ⟨S32x3, .i32⟩
  | .hbm, ⟨1, _⟩ => ⟨S14541x400, .f32⟩
  | .hbm, ⟨2, _⟩ => ⟨S237x200, .f32⟩
  | .hbm, ⟨3, _⟩ => ⟨S32x1, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x400, .f32⟩
  | .hbm, ⟨14, _⟩ => ⟨S32x1, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x200, .f32⟩
  | .hbm, ⟨25, _⟩ => ⟨S_, .f32⟩
  | .hbm, ⟨26, _⟩ => ⟨S32x200, .f32⟩
  | .hbm, ⟨27, _⟩ => ⟨S32x200, .f32⟩
  | .hbm, ⟨28, _⟩ => ⟨S32x1, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S32, .i32⟩
  | .hbm, ⟨37, _⟩ => ⟨S32x1, .i32⟩
  | .hbm, ⟨38, _⟩ => ⟨S32x400, .f32⟩
  | .hbm, ⟨39, _⟩ => ⟨S32x200, .f32⟩
  | .hbm, ⟨40, _⟩ => ⟨S32x200, .f32⟩
  | .hbm, ⟨41, _⟩ => ⟨S32x200, .f32⟩
  | .hbm, ⟨42, _⟩ => ⟨S32x200, .f32⟩
  | .hbm, ⟨43, _⟩ => ⟨S32x200, .f32⟩
  | .hbm, ⟨44, _⟩ => ⟨S32x200, .f32⟩
  | .hbm, ⟨45, _⟩ => ⟨S14541x200, .f32⟩
  | .hbm, ⟨46, _⟩ => ⟨S14541x200, .f32⟩
  | .hbm, ⟨47, _⟩ => ⟨S32x200, .f32⟩
  | .hbm, ⟨48, _⟩ => ⟨S32x200, .f32⟩
  | .hbm, ⟨49, _⟩ => ⟨S32x200, .f32⟩
  | .hbm, ⟨50, _⟩ => ⟨S32x200, .f32⟩
  | .hbm, ⟨51, _⟩ => ⟨S32x200, .f32⟩
  | .hbm, ⟨52, _⟩ => ⟨S32x200, .f32⟩
  | .hbm, ⟨53, _⟩ => ⟨S32x1x200, .f32⟩
  | .hbm, ⟨54, _⟩ => ⟨S1x14541x200, .f32⟩
  | .hbm, ⟨55, _⟩ => ⟨S32x14541x200, .f32⟩
  | .hbm, ⟨56, _⟩ => ⟨S32x14541x200, .f32⟩
  | .hbm, ⟨57, _⟩ => ⟨S32x14541x200, .f32⟩
  | .hbm, ⟨58, _⟩ => ⟨S32x1x200, .f32⟩
  | .hbm, ⟨59, _⟩ => ⟨S1x14541x200, .f32⟩
  | .hbm, ⟨60, _⟩ => ⟨S32x14541x200, .f32⟩
  | .hbm, ⟨61, _⟩ => ⟨S32x14541x200, .f32⟩
  | .hbm, ⟨62, _⟩ => ⟨S32x14541x200, .f32⟩
  | .hbm, ⟨63, _⟩ => ⟨S32x14541x200, .f32⟩
  | .hbm, ⟨64, _⟩ => ⟨S32x14541x200, .f32⟩
  | .hbm, ⟨65, _⟩ => ⟨S32x14541x200, .f32⟩
  | .hbm, ⟨66, _⟩ => ⟨S32x14541x200, .f32⟩
  | .hbm, ⟨67, _⟩ => ⟨S_, .f32⟩
  | .hbm, ⟨68, _⟩ => ⟨S32x14541, .f32⟩
  | .hbm, ⟨69, _⟩ => ⟨S14541x1x200, .f32⟩
  | .hbm, ⟨70, _⟩ => ⟨S1x32x200, .f32⟩
  | .hbm, ⟨71, _⟩ => ⟨S14541x32x200, .f32⟩
  | .hbm, ⟨72, _⟩ => ⟨S14541x32x200, .f32⟩
  | .hbm, ⟨73, _⟩ => ⟨S14541x32x200, .f32⟩
  | .hbm, ⟨74, _⟩ => ⟨S14541x1x200, .f32⟩
  | .hbm, ⟨75, _⟩ => ⟨S1x32x200, .f32⟩
  | .hbm, ⟨76, _⟩ => ⟨S14541x32x200, .f32⟩
  | .hbm, ⟨77, _⟩ => ⟨S14541x32x200, .f32⟩
  | .hbm, ⟨78, _⟩ => ⟨S14541x32x200, .f32⟩
  | .hbm, ⟨79, _⟩ => ⟨S14541x32x200, .f32⟩
  | .hbm, ⟨80, _⟩ => ⟨S14541x1x200, .f32⟩
  | .hbm, ⟨81, _⟩ => ⟨S1x32x200, .f32⟩
  | .hbm, ⟨82, _⟩ => ⟨S14541x32x200, .f32⟩
  | .hbm, ⟨83, _⟩ => ⟨S14541x32x200, .f32⟩
  | .hbm, ⟨84, _⟩ => ⟨S14541x32x200, .f32⟩
  | .hbm, ⟨85, _⟩ => ⟨S14541x1x200, .f32⟩
  | .hbm, ⟨86, _⟩ => ⟨S1x32x200, .f32⟩
  | .hbm, ⟨87, _⟩ => ⟨S14541x32x200, .f32⟩
  | .hbm, ⟨88, _⟩ => ⟨S14541x32x200, .f32⟩
  | .hbm, ⟨89, _⟩ => ⟨S14541x32x200, .f32⟩
  | .hbm, ⟨90, _⟩ => ⟨S14541x32x200, .f32⟩
  | .hbm, ⟨91, _⟩ => ⟨S1x32x200, .f32⟩
  | .hbm, ⟨92, _⟩ => ⟨S14541x32x200, .f32⟩
  | .hbm, ⟨93, _⟩ => ⟨S14541x32x200, .f32⟩
  | .hbm, ⟨94, _⟩ => ⟨S1x32x200, .f32⟩
  | .hbm, ⟨95, _⟩ => ⟨S14541x32x200, .f32⟩
  | .hbm, ⟨96, _⟩ => ⟨S14541x32x200, .f32⟩
  | .hbm, ⟨97, _⟩ => ⟨S14541x32x200, .f32⟩
  | .hbm, ⟨98, _⟩ => ⟨S14541x32x200, .f32⟩
  | .hbm, ⟨99, _⟩ => ⟨S14541x32x200, .f32⟩
  | .hbm, ⟨100, _⟩ => ⟨S14541x32x200, .f32⟩
  | .hbm, ⟨101, _⟩ => ⟨S_, .f32⟩
  | .hbm, ⟨102, _⟩ => ⟨S14541x32, .f32⟩
  | .hbm, ⟨103, _⟩ => ⟨S32x14541, .f32⟩
  | .hbm, ⟨104, _⟩ => ⟨S32x200, .f32⟩
  | .hbm, ⟨105, _⟩ => ⟨S32x200, .f32⟩
  | .hbm, ⟨106, _⟩ => ⟨S32x200, .f32⟩
  | .hbm, ⟨107, _⟩ => ⟨S32x200, .f32⟩
  | .hbm, ⟨108, _⟩ => ⟨S32x200, .f32⟩
  | .hbm, ⟨109, _⟩ => ⟨S32x200, .f32⟩
  | .hbm, ⟨110, _⟩ => ⟨S32x200, .f32⟩
  | .hbm, ⟨111, _⟩ => ⟨S32x200, .f32⟩
  | .hbm, ⟨112, _⟩ => ⟨S32x14541, .f32⟩
  | .hbm, ⟨113, _⟩ => ⟨S32x14541, .f32⟩
  | _, _ => ⟨S32x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩

abbrev nD : Nat := 1
abbrev τ : Topo := Topo.v7x

variable {F : FTy → Type} [FloatOps F]

class Facts₀ : Prop where
  slices_S32x3_S32x1_0_0 : S32x3.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  slices_S32x3_S32x1_0_1 : S32x3.Slices ![0, 1] S32x1
  bcast_S_S32x200 : S_.BroadcastsInDim S32x200 (![] : Fin 0 → Fin S32x200.rank)
  slices_S32x3_S32x1_0_2 : S32x3.Slices ![0, 2] S32x1
  slices_S32x400_S32x200_0_0 : S32x400.Slices ![0, 0] S32x200
  slices_S32x400_S32x200_0_200 : S32x400.Slices ![0, 200] S32x200
  slices_S14541x400_S14541x200_0_0 : S14541x400.Slices ![0, 0] S14541x200
  slices_S14541x400_S14541x200_0_200 : S14541x400.Slices ![0, 200] S14541x200
  bcast_S32x200_S32x1x200_0_2 : S32x200.BroadcastsInDim S32x1x200 (![0, 2] : Fin 2 → Fin S32x1x200.rank)
  bcast_S14541x200_S1x14541x200_1_2 : S14541x200.BroadcastsInDim S1x14541x200 (![1, 2] : Fin 2 → Fin S1x14541x200.rank)
  bcast_S32x1x200_S32x14541x200_0_1_2 : S32x1x200.BroadcastsInDim S32x14541x200 (![0, 1, 2] : Fin 3 → Fin S32x14541x200.rank)
  bcast_S1x14541x200_S32x14541x200_0_1_2 : S1x14541x200.BroadcastsInDim S32x14541x200 (![0, 1, 2] : Fin 3 → Fin S32x14541x200.rank)
  reducesTo_S32x14541x200_S32x14541_d2 : S32x14541x200.ReducesTo [2] S32x14541
  h_S_ : 0 < S_.numel
  bcast_S14541x200_S14541x1x200_0_2 : S14541x200.BroadcastsInDim S14541x1x200 (![0, 2] : Fin 2 → Fin S14541x1x200.rank)
  bcast_S32x200_S1x32x200_1_2 : S32x200.BroadcastsInDim S1x32x200 (![1, 2] : Fin 2 → Fin S1x32x200.rank)
  bcast_S14541x1x200_S14541x32x200_0_1_2 : S14541x1x200.BroadcastsInDim S14541x32x200 (![0, 1, 2] : Fin 3 → Fin S14541x32x200.rank)
  bcast_S1x32x200_S14541x32x200_0_1_2 : S1x32x200.BroadcastsInDim S14541x32x200 (![0, 1, 2] : Fin 3 → Fin S14541x32x200.rank)
  reducesTo_S14541x32x200_S14541x32_d2 : S14541x32x200.ReducesTo [2] S14541x32
  transposes_S14541x32_S32x14541_1_0 : S14541x32.Transposes [1, 0] S32x14541
  gather_S14541x400_S32x1_S32x400_1_0_n_n_0_1_1400_wf : GatherDims.WF S14541x400 S32x1 S32x400 [1] [0] [] [0] [] 1 ![1, 400]
  gather_S237x200_S32x1_S32x200_1_0_n_n_0_1_1200_wf : GatherDims.WF S237x200 S32x1 S32x200 [1] [0] [] [0] [] 1 ![1, 200]

variable [Facts₀]

def gather_S14541x400_S32x1_S32x400_1_0_n_n_0_1_1400 : GatherDims S14541x400 S32x1 S32x400 where
  offsetDims := [1]
  collapsedSliceDims := [0]
  operandBatchingDims := []
  startIndicesBatchingDims := []
  startIndexMap := [0]
  indexVectorDim := 1
  sliceSizes := ![1, 400]
  wf := gather_S14541x400_S32x1_S32x400_1_0_n_n_0_1_1400_wf
def gather_S237x200_S32x1_S32x200_1_0_n_n_0_1_1200 : GatherDims S237x200 S32x1 S32x200 where
  offsetDims := [1]
  collapsedSliceDims := [0]
  operandBatchingDims := []
  startIndicesBatchingDims := []
  startIndexMap := [0]
  indexVectorDim := 1
  sliceSizes := ![1, 200]
  wf := gather_S237x200_S32x1_S32x200_1_0_n_n_0_1_1200_wf

class Facts : Prop extends Facts₀ where

variable [Facts]
-- ==== Proof.KRunBits.lean ====
/-
  The kernel body on any nine staging buffers: the seven operands' buffers at given contents, the two results' at
  anything. The body loads the two halves of the entity tile and one column of each small operand per query, and
  stores each result tile once; what it leaves in each result buffer is recorded as the list of its stores.
-/
import proofs.«414217_j69312182222862_3_alg».proof.Kernel
import proofs.«414217_j69312182222862_3_alg».proof.Proof.Gen.Kernel
import proofs.«414217_j69312182222862_3_alg».proof.Proof.Gen.Kernel.Skeleton
import proofs.«414217_j69312182222862_3_alg».proof.Proof.Gen.Kernel.Launch
import proofs.«414217_j69312182222862_3_alg».proof.Proof.Gen.Kernel.Points
import proofs.«414217_j69312182222862_3_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each result buffer (last first), with the run that finds them: from the operands'
    buffers at `x0 … x6` and the results' at anything, the body ends with the operands' buffers unchanged and each
    result buffer holding its stores written over what it held. -/
noncomputable def kernelRun0 (c : Dev nD) (i : grid0.Coords)
    (arg1 : Memref sig .tc .vmem S400x512 .f32) (harg1 : arg1.IsWhole) (arg2 : Memref sig .tc .vmem S200x32 .f32) (harg2 : arg2.IsWhole)
    (arg3 : Memref sig .tc .vmem S200x32 .f32) (harg3 : arg3.IsWhole) (arg4 : Memref sig .tc .vmem S200x32 .f32) (harg4 : arg4.IsWhole)
    (arg5 : Memref sig .tc .vmem S200x32 .f32) (harg5 : arg5.IsWhole) (arg6 : Memref sig .tc .vmem S200x32 .f32) (harg6 : arg6.IsWhole)
    (arg7 : Memref sig .tc .vmem S200x32 .f32) (harg7 : arg7.IsWhole) (arg8 : Memref sig .tc .vmem S32x512 .f32) (harg8 : arg8.IsWhole)
    (arg9 : Memref sig .tc .vmem S32x512 .f32) (harg9 : arg9.IsWhole)
    (x0 : Vec F S400x512 .f32) (x1 x2 x3 x4 x5 x6 : Vec F S200x32 .f32) :
    Σ' (L8 : List (View.Piece (Elt F) S32x512 .f32)), { L9 : List (View.Piece (Elt F) S32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc0__rotate_distance_kernel i arg1 harg1 arg2 harg2 arg3 harg3 arg4 harg4 arg5 harg5 arg6 harg6 arg7 harg7 arg8 harg8 arg9 harg9) K } := by
  refine ⟨?_, ?_, fun E K => ?run⟩
  case run =>
    simp only [cc0__rotate_distance_kernel_eq_skeleton]; unfold cc0__rotate_distance_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.Kernel.Body

end
-- ==== Proof.KFrameBits.lean ====
/-
  The frame of the program: under any values every execution ends, nothing faults, and the argument arrays are
  untouched. The launch's proof data names what each OPERAND's buffer holds after the body (its block; for the entity
  tile, whose last block runs past the array's end, the block on the columns inside the array and any word past them)
  and says nothing of the two result buffers: a frame reads neither result.
-/
import proofs.«414217_j69312182222862_3_alg».proof.Proof.KRunBits
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the proof data writes where nothing is known: zero. -/
def zw : Elt F .f32 := Scalar.ofBits .f32 0#32

/-- The entity tile at point `t` as a whole buffer: the block's columns inside the array, zero past them. -/
def eblk (c : Dev nD) (t : Fin cfg0.N) : Vec F S400x512 .f32 :=
  win0_0.fill (grid0.coords t) (fun _ => zw) (iblk m c 0 t)

/-- The windows the frame forgets: the two results. -/
abbrev fgt : Fin cfg0.W → Bool := fun w => w.val == 7 || w.val == 8

/-- The proof data of the launch on core `c`: the arrays as the region finds them; after the body each operand's
    buffer at its block; the two results' buffers unnamed (the value here is never read). -/
def fdats (_ : Fin 1) (c : Dev nD) : Dat τ (Elt F) Unit ℕ (UR sig nD τ) ℕ cfg0 c where
  A w := V m c (Pipeline.arrRef spec0 w)
  after w t := match w with
    | ⟨0, _⟩ => eblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => zw
    | ⟨8, _⟩ => fun _ => zw
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0_0 (c : Dev nD) (t : Fin cfg0.N) : (fdats m 0 c).after 0 t = eblk m c t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]
theorem fafter0_3 (c : Dev nD) (t : Fin cfg0.N) : (fdats m 0 c).after 3 t = iblk m c 3 t := by dsimp only [fdats]
theorem fafter0_4 (c : Dev nD) (t : Fin cfg0.N) : (fdats m 0 c).after 4 t = iblk m c 4 t := by dsimp only [fdats]
theorem fafter0_5 (c : Dev nD) (t : Fin cfg0.N) : (fdats m 0 c).after 5 t = iblk m c 5 t := by dsimp only [fdats]
theorem fafter0_6 (c : Dev nD) (t : Fin cfg0.N) : (fdats m 0 c).after 6 t = iblk m c 6 t := by dsimp only [fdats]

/-- The entity tile is fetched at every point: its buffer holds the block on the columns inside the array and, past
    them, whatever it held. -/
theorem fbefore0_0 (c : Dev nD) (t : Fin cfg0.N) (d) :
    (fdats m 0 c).before 0 t d = win0_0.fill (grid0.coords t) d (iblk m c 0 t) := by
  unfold Dat.before; rw [if_pos (fetch0_0 t)]; rfl
theorem fbefore0_1 (c : Dev nD) (t : Fin cfg0.N) (d) : (fdats m 0 c).before 1 t d = iblk m c 1 t :=
  before0_1_of m (fdats m 0 c) (fA_eq m c 1) (fafter0_1 m c) t d
theorem fbefore0_2 (c : Dev nD) (t : Fin cfg0.N) (d) : (fdats m 0 c).before 2 t d = iblk m c 2 t :=
  before0_2_of m (fdats m 0 c) (fA_eq m c 2) (fafter0_2 m c) t d
theorem fbefore0_3 (c : Dev nD) (t : Fin cfg0.N) (d) : (fdats m 0 c).before 3 t d = iblk m c 3 t :=
  before0_3_of m (fdats m 0 c) (fA_eq m c 3) (fafter0_3 m c) t d
theorem fbefore0_4 (c : Dev nD) (t : Fin cfg0.N) (d) : (fdats m 0 c).before 4 t d = iblk m c 4 t :=
  before0_4_of m (fdats m 0 c) (fA_eq m c 4) (fafter0_4 m c) t d
theorem fbefore0_5 (c : Dev nD) (t : Fin cfg0.N) (d) : (fdats m 0 c).before 5 t d = iblk m c 5 t :=
  before0_5_of m (fdats m 0 c) (fA_eq m c 5) (fafter0_5 m c) t d
theorem fbefore0_6 (c : Dev nD) (t : Fin cfg0.N) (d) : (fdats m 0 c).before 6 t d = iblk m c 6 t :=
  before0_6_of m (fdats m 0 c) (fA_eq m c 6) (fafter0_6 m c) t d

/-- What the body is called with at point `t`, window by window: the operands' buffers as fetched or kept, the two
    results' at anything, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ X, owns (c : Thread nD τ) (st0_7 t) fullShare X)
    ∗ (∃ X, owns (c : Thread nD τ) (st0_8 t) fullShare X))

/-- and what it returns: the entity tile's buffer stated on the columns inside the array, the small operands' buffers
    at their blocks, the results' at anything. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare
        ((win0 0).fill (grid0.coords t) d ((win0 0).cut (grid0.coords t) ((fdats m 0 c).after 0 t))))
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ (∃ X, owns (c : Thread nD τ) (st0_7 t) fullShare X)
    ∗ (∃ X, owns (c : Thread nD τ) (st0_8 t) fullShare X))

set_option maxHeartbeats 2000000 in
/-- The body at any point: the operands' buffers hold their blocks (the entity tile's filled out past the array's end
    by what the buffer held), so the run applies; each comes back as it was. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2, fbefore0_3, fbefore0_4, fbefore0_5, fbefore0_6]
  rw [show (fdats m 0 c).Φ t.succ = (fdats m 0 c).Φ t.castSucc from rfl,
    show (fdats m 0 c).owesAt () t.succ = (fdats m 0 c).owesAt () t.castSucc from rfl,
    fafter0_0, fafter0_1, fafter0_2, fafter0_3, fafter0_4, fafter0_5, fafter0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]
  · iexists d0
    unfold eblk
    rw [show (win0 0).cut (grid0.coords t) (win0_0.fill (grid0.coords t) (fun _ => zw) (iblk m c 0 t)) = iblk m c 0 t from
      win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; iexists _; isplitr
    swap; · iexact H7
    ipureintro; rfl
  · unfold owns; iexists _; iexists _; isplitr
    swap; · iexact H8
    ipureintro; rfl

/-- The library's body obligation with the two result windows forgotten, at every point. -/
theorem fbody_obligation (c : Dev nD) :
    BodyObligationLoose (fdats (F := F) m 0 c) (defs₀ (F := F)) Variants.none () Set.univ fgt := fun t => by
  rw [bigSep_W0, bigSep_W0]
  have h0 : fgt (0 : Fin cfg0.W) = false := rfl
  have h1 : fgt (1 : Fin cfg0.W) = false := rfl
  have h2 : fgt (2 : Fin cfg0.W) = false := rfl
  have h3 : fgt (3 : Fin cfg0.W) = false := rfl
  have h4 : fgt (4 : Fin cfg0.W) = false := rfl
  have h5 : fgt (5 : Fin cfg0.W) = false := rfl
  have h6 : fgt (6 : Fin cfg0.W) = false := rfl
  have h7 : fgt (7 : Fin cfg0.W) = true := rfl
  have h8 : fgt (8 : Fin cfg0.W) = true := rfl
  simp only [h0, h1, h2, h3, h4, h5, h6, h7, h8]
  exact fsound_body m c t

/-! ## The run and the frame -/

set_option backward.isDefEq.respectTransparency.types false in
/-- At the compiled mesh, for any values, from any memory with zero counters: every execution of the program ends, and
    every buffer the launch does not stage — the three arguments among them — holds what the region found there. -/
theorem frun_main : θ_run defs (onTc (τ := τ) (main (F := F))) (s₀ m ρ)
    (Pipeline.RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody_obligation m c).toRForget) (hshare := fun c => (fdats m 0 c).share_full fun _ => rfl)
    (howed := fun _ _ => rfl) (V := V m) (hmain := hmain m Variants.none) (hA := fA_eq m) (hΦ := fun _ _ => rfl)

/-- THE FRAME: the program runs to the end, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (frun_main m ρ)

end Cert.Kernel.Body

end
-- ==== Proof.KRunIdeal.lean ====
/-
  The kernel body on any nine staging buffers: the seven operands' buffers at given contents, the two results' at
  anything. The body loads the two halves of the entity tile and one column of each small operand per query, and
  stores each result tile once; what it leaves in each result buffer is recorded as the list of its stores.
-/
import proofs.«414217_j69312182222862_3_alg».proof.KernelIdeal
import proofs.«414217_j69312182222862_3_alg».proof.Proof.Gen.KernelIdeal
import proofs.«414217_j69312182222862_3_alg».proof.Proof.Gen.KernelIdeal.Skeleton
import proofs.«414217_j69312182222862_3_alg».proof.Proof.Gen.KernelIdeal.Launch
import proofs.«414217_j69312182222862_3_alg».proof.Proof.Gen.KernelIdeal.Points
import proofs.«414217_j69312182222862_3_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into each result buffer (last first), with the run that finds them: from the operands'
    buffers at `x0 … x6` and the results' at anything, the body ends with the operands' buffers unchanged and each
    result buffer holding its stores written over what it held. -/
noncomputable def kernelRun0 (c : Dev nD) (i : grid0.Coords)
    (arg1 : Memref sig .tc .vmem S400x512 .f32) (harg1 : arg1.IsWhole) (arg2 : Memref sig .tc .vmem S200x32 .f32) (harg2 : arg2.IsWhole)
    (arg3 : Memref sig .tc .vmem S200x32 .f32) (harg3 : arg3.IsWhole) (arg4 : Memref sig .tc .vmem S200x32 .f32) (harg4 : arg4.IsWhole)
    (arg5 : Memref sig .tc .vmem S200x32 .f32) (harg5 : arg5.IsWhole) (arg6 : Memref sig .tc .vmem S200x32 .f32) (harg6 : arg6.IsWhole)
    (arg7 : Memref sig .tc .vmem S200x32 .f32) (harg7 : arg7.IsWhole) (arg8 : Memref sig .tc .vmem S32x512 .f32) (harg8 : arg8.IsWhole)
    (arg9 : Memref sig .tc .vmem S32x512 .f32) (harg9 : arg9.IsWhole)
    (x0 : Vec F S400x512 .f32) (x1 x2 x3 x4 x5 x6 : Vec F S200x32 .f32) :
    Σ' (L8 : List (View.Piece (Elt F) S32x512 .f32)), { L9 : List (View.Piece (Elt F) S32x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4 ∗ owns (c : Thread nD τ) arg6 fullShare x5
                ∗ owns (c : Thread nD τ) arg7 fullShare x6
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc0__rotate_distance_kernel i arg1 harg1 arg2 harg2 arg3 harg3 arg4 harg4 arg5 harg5 arg6 harg6 arg7 harg7 arg8 harg8 arg9 harg9) K } := by
  refine ⟨?_, ?_, fun E K => ?run⟩
  case run =>
    simp only [cc0__rotate_distance_kernel_eq_skeleton]; unfold cc0__rotate_distance_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    iexists _; iexact H8

end Cert.KernelIdeal.Body

end
-- ==== Proof.KFrameIdeal.lean ====
/-
  The frame of the program: under any values every execution ends, nothing faults, and the argument arrays are
  untouched. The launch's proof data names what each OPERAND's buffer holds after the body (its block; for the entity
  tile, whose last block runs past the array's end, the block on the columns inside the array and any word past them)
  and says nothing of the two result buffers: a frame reads neither result.
-/
import proofs.«414217_j69312182222862_3_alg».proof.Proof.KRunIdeal
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the proof data writes where nothing is known: zero. -/
def zw : Elt F .f32 := Scalar.ofBits .f32 0#32

/-- The entity tile at point `t` as a whole buffer: the block's columns inside the array, zero past them. -/
def eblk (c : Dev nD) (t : Fin cfg0.N) : Vec F S400x512 .f32 :=
  win0_0.fill (grid0.coords t) (fun _ => zw) (iblk m c 0 t)

/-- The windows the frame forgets: the two results. -/
abbrev fgt : Fin cfg0.W → Bool := fun w => w.val == 7 || w.val == 8

/-- The proof data of the launch on core `c`: the arrays as the region finds them; after the body each operand's
    buffer at its block; the two results' buffers unnamed (the value here is never read). -/
def fdats (_ : Fin 1) (c : Dev nD) : Dat τ (Elt F) Unit ℕ (UR sig nD τ) ℕ cfg0 c where
  A w := V m c (Pipeline.arrRef spec0 w)
  after w t := match w with
    | ⟨0, _⟩ => eblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => zw
    | ⟨8, _⟩ => fun _ => zw
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter0_0 (c : Dev nD) (t : Fin cfg0.N) : (fdats m 0 c).after 0 t = eblk m c t := by dsimp only [fdats]
theorem fafter0_1 (c : Dev nD) (t : Fin cfg0.N) : (fdats m 0 c).after 1 t = iblk m c 1 t := by dsimp only [fdats]
theorem fafter0_2 (c : Dev nD) (t : Fin cfg0.N) : (fdats m 0 c).after 2 t = iblk m c 2 t := by dsimp only [fdats]
theorem fafter0_3 (c : Dev nD) (t : Fin cfg0.N) : (fdats m 0 c).after 3 t = iblk m c 3 t := by dsimp only [fdats]
theorem fafter0_4 (c : Dev nD) (t : Fin cfg0.N) : (fdats m 0 c).after 4 t = iblk m c 4 t := by dsimp only [fdats]
theorem fafter0_5 (c : Dev nD) (t : Fin cfg0.N) : (fdats m 0 c).after 5 t = iblk m c 5 t := by dsimp only [fdats]
theorem fafter0_6 (c : Dev nD) (t : Fin cfg0.N) : (fdats m 0 c).after 6 t = iblk m c 6 t := by dsimp only [fdats]

/-- The entity tile is fetched at every point: its buffer holds the block on the columns inside the array and, past
    them, whatever it held. -/
theorem fbefore0_0 (c : Dev nD) (t : Fin cfg0.N) (d) :
    (fdats m 0 c).before 0 t d = win0_0.fill (grid0.coords t) d (iblk m c 0 t) := by
  unfold Dat.before; rw [if_pos (fetch0_0 t)]; rfl
theorem fbefore0_1 (c : Dev nD) (t : Fin cfg0.N) (d) : (fdats m 0 c).before 1 t d = iblk m c 1 t :=
  before0_1_of m (fdats m 0 c) (fA_eq m c 1) (fafter0_1 m c) t d
theorem fbefore0_2 (c : Dev nD) (t : Fin cfg0.N) (d) : (fdats m 0 c).before 2 t d = iblk m c 2 t :=
  before0_2_of m (fdats m 0 c) (fA_eq m c 2) (fafter0_2 m c) t d
theorem fbefore0_3 (c : Dev nD) (t : Fin cfg0.N) (d) : (fdats m 0 c).before 3 t d = iblk m c 3 t :=
  before0_3_of m (fdats m 0 c) (fA_eq m c 3) (fafter0_3 m c) t d
theorem fbefore0_4 (c : Dev nD) (t : Fin cfg0.N) (d) : (fdats m 0 c).before 4 t d = iblk m c 4 t :=
  before0_4_of m (fdats m 0 c) (fA_eq m c 4) (fafter0_4 m c) t d
theorem fbefore0_5 (c : Dev nD) (t : Fin cfg0.N) (d) : (fdats m 0 c).before 5 t d = iblk m c 5 t :=
  before0_5_of m (fdats m 0 c) (fA_eq m c 5) (fafter0_5 m c) t d
theorem fbefore0_6 (c : Dev nD) (t : Fin cfg0.N) (d) : (fdats m 0 c).before 6 t d = iblk m c 6 t :=
  before0_6_of m (fdats m 0 c) (fA_eq m c 6) (fafter0_6 m c) t d

/-- What the body is called with at point `t`, window by window: the operands' buffers as fetched or kept, the two
    results' at anything, -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare ((fdats m 0 c).before 4 t d))
    ∗ (∃ d, owns (c : Thread nD τ) (st0_5 t) fullShare ((fdats m 0 c).before 5 t d))
    ∗ (∃ d, owns (c : Thread nD τ) (st0_6 t) fullShare ((fdats m 0 c).before 6 t d))
    ∗ (∃ X, owns (c : Thread nD τ) (st0_7 t) fullShare X)
    ∗ (∃ X, owns (c : Thread nD τ) (st0_8 t) fullShare X))

/-- and what it returns: the entity tile's buffer stated on the columns inside the array, the small operands' buffers
    at their blocks, the results' at anything. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare
        ((win0 0).fill (grid0.coords t) d ((win0 0).cut (grid0.coords t) ((fdats m 0 c).after 0 t))))
    ∗ owns (c : Thread nD τ) (st0_1 t) fullShare ((fdats m 0 c).after 1 t)
    ∗ owns (c : Thread nD τ) (st0_2 t) fullShare ((fdats m 0 c).after 2 t)
    ∗ owns (c : Thread nD τ) (st0_3 t) fullShare ((fdats m 0 c).after 3 t)
    ∗ owns (c : Thread nD τ) (st0_4 t) fullShare ((fdats m 0 c).after 4 t)
    ∗ owns (c : Thread nD τ) (st0_5 t) fullShare ((fdats m 0 c).after 5 t)
    ∗ owns (c : Thread nD τ) (st0_6 t) fullShare ((fdats m 0 c).after 6 t)
    ∗ (∃ X, owns (c : Thread nD τ) (st0_7 t) fullShare X)
    ∗ (∃ X, owns (c : Thread nD τ) (st0_8 t) fullShare X))

set_option maxHeartbeats 2000000 in
/-- The body at any point: the operands' buffers hold their blocks (the entity tile's filled out past the array's end
    by what the buffer held), so the run applies; each comes back as it was. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  simp only [fbefore0_0, fbefore0_1, fbefore0_2, fbefore0_3, fbefore0_4, fbefore0_5, fbefore0_6]
  rw [show (fdats m 0 c).Φ t.succ = (fdats m 0 c).Φ t.castSucc from rfl,
    show (fdats m 0 c).owesAt () t.succ = (fdats m 0 c).owesAt () t.castSucc from rfl,
    fafter0_0, fafter0_1, fafter0_2, fafter0_3, fafter0_4, fafter0_5, fafter0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]
  · iexists d0
    unfold eblk
    rw [show (win0 0).cut (grid0.coords t) (win0_0.fill (grid0.coords t) (fun _ => zw) (iblk m c 0 t)) = iblk m c 0 t from
      win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; iexists _; isplitr
    swap; · iexact H7
    ipureintro; rfl
  · unfold owns; iexists _; iexists _; isplitr
    swap; · iexact H8
    ipureintro; rfl

/-- The library's body obligation with the two result windows forgotten, at every point. -/
theorem fbody_obligation (c : Dev nD) :
    BodyObligationLoose (fdats (F := F) m 0 c) (defs₀ (F := F)) Variants.none () Set.univ fgt := fun t => by
  rw [bigSep_W0, bigSep_W0]
  have h0 : fgt (0 : Fin cfg0.W) = false := rfl
  have h1 : fgt (1 : Fin cfg0.W) = false := rfl
  have h2 : fgt (2 : Fin cfg0.W) = false := rfl
  have h3 : fgt (3 : Fin cfg0.W) = false := rfl
  have h4 : fgt (4 : Fin cfg0.W) = false := rfl
  have h5 : fgt (5 : Fin cfg0.W) = false := rfl
  have h6 : fgt (6 : Fin cfg0.W) = false := rfl
  have h7 : fgt (7 : Fin cfg0.W) = true := rfl
  have h8 : fgt (8 : Fin cfg0.W) = true := rfl
  simp only [h0, h1, h2, h3, h4, h5, h6, h7, h8]
  exact fsound_body m c t

/-! ## The run and the frame -/

set_option backward.isDefEq.respectTransparency.types false in
/-- At the compiled mesh, for any values, from any memory with zero counters: every execution of the program ends, and
    every buffer the launch does not stage — the three arguments among them — holds what the region found there. -/
theorem frun_main : θ_run defs (onTc (τ := τ) (main (F := F))) (s₀ m ρ)
    (Pipeline.RDat.FramePost cfg0 (fun c => (fdats m 0 c).toRForget fgt) (V m)) :=
  Pipeline.RDat.θ_run_frame cfgs (0 : Fin 1) launch0 defs₀ Variants.none (fun c => (fdats m 0 c).toRForget fgt) m ρ main
    (hbody := fun c => (fbody_obligation m c).toRForget) (hshare := fun c => (fdats m 0 c).share_full fun _ => rfl)
    (howed := fun _ _ => rfl) (V := V m) (hmain := hmain m Variants.none) (hA := fA_eq m) (hΦ := fun _ _ => rfl)

/-- THE FRAME: the program runs to the end, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (frun_main m ρ)

end Cert.KernelIdeal.Body

end
-- ==== Proof.KOut.lean ====
/-
  What the body leaves in each result buffer, as a function of what the operands' buffers hold: the body's stores
  into that buffer read back. The stores tile the buffer, so the contents it held before do not matter.
-/
import proofs.«414217_j69312182222862_3_alg».proof.Proof.KRunIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- One staging buffer of each result window, through which its contents are stated (the choice does not matter). -/
abbrev VO7 : View sig .tc .vmem S32x512 .f32 := (Memref.whole cc0_stg7_0 : Memref sig .tc .vmem S32x512 .f32).view
abbrev VO8 : View sig .tc .vmem S32x512 .f32 := (Memref.whole cc0_stg8_0 : Memref sig .tc .vmem S32x512 .f32).view

section
variable (c : Dev nD) (i : grid0.Coords)
    (arg1 : Memref sig .tc .vmem S400x512 .f32) (harg1 : arg1.IsWhole) (arg2 : Memref sig .tc .vmem S200x32 .f32) (harg2 : arg2.IsWhole)
    (arg3 : Memref sig .tc .vmem S200x32 .f32) (harg3 : arg3.IsWhole) (arg4 : Memref sig .tc .vmem S200x32 .f32) (harg4 : arg4.IsWhole)
    (arg5 : Memref sig .tc .vmem S200x32 .f32) (harg5 : arg5.IsWhole) (arg6 : Memref sig .tc .vmem S200x32 .f32) (harg6 : arg6.IsWhole)
    (arg7 : Memref sig .tc .vmem S200x32 .f32) (harg7 : arg7.IsWhole) (arg8 : Memref sig .tc .vmem S32x512 .f32) (harg8 : arg8.IsWhole)
    (arg9 : Memref sig .tc .vmem S32x512 .f32) (harg9 : arg9.IsWhole)
    (x0 : Vec F S400x512 .f32) (x1 x2 x3 x4 x5 x6 : Vec F S200x32 .f32)

/-- The first result buffer's stores tile it, so they cover it. -/
theorem cover7 (y : S32x512.Idx) :
    ∃ pc ∈ (kernelRun0 c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).1 S32x512.size (by sl_kernel_rfl) y
/-- The second result buffer's likewise. -/
theorem cover8 (y : S32x512.Idx) :
    ∃ pc ∈ (kernelRun0 c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).2.1 S32x512.size (by sl_kernel_rfl) y

/-- What the body leaves in the first result buffer: its stores read back over junk. -/
def out7 : Vec F S32x512 .f32 :=
  VO7.read (Elt F) (VO7.writes (Elt F) VO7.junk (kernelRun0 c i arg1 harg1 arg2 harg2 arg3 harg3 arg4 harg4 arg5 harg5 arg6 harg6 arg7 harg7 arg8 harg8 arg9 harg9 x0 x1 x2 x3 x4 x5 x6).1)
/-- What the body leaves in the second result buffer. -/
def out8 : Vec F S32x512 .f32 :=
  VO8.read (Elt F) (VO8.writes (Elt F) VO8.junk (kernelRun0 c i arg1 harg1 arg2 harg2 arg3 harg3 arg4 harg4 arg5 harg5 arg6 harg6 arg7 harg7 arg8 harg8 arg9 harg9 x0 x1 x2 x3 x4 x5 x6).2.1)
end

end Cert.KernelIdeal.Body

end
-- ==== Proof.Spec.lean ====
/-
  The two scores of a rotation model over the extended reals, as plain functions of the three argument arrays:
  the index table `x` (32 queries, three words each: a left entity, a relation, a right entity), the entity table
  `E` (14541 rows of 200 real parts then 200 imaginary parts) and the relation table `R` (237 rows of 200 phases,
  in turns: a phase is the entry times 2π).

  For query `b` and rank `r`: `lre, lim` the left entity's coordinate, `rre, rim` the right entity's, `t` the
  relation's entry, `cr = cos (2π t)`, `sr = sin (2π t)`, and the left entity rotated, `q = (lre + i·lim)·(cr + i·sr)`.
  For an entity `n` with coordinate `e = ere + i·eim`:
    sp(b, n) = −∑ᵣ |q − e|          po(b, n) = −∑ᵣ |e·(cr + i·sr) − (rre + i·rim)|
  Each modulus is written here in two ways: as the square root of the sum of the two squared differences (`refSp`,
  `refPo`), and through the expansion |u − v|² = |u|² + |v|² − 2·Re(u·conj v), guarded by a maximum with zero
  (`kerSp`, `kerPo`, both over `kerCore`). That the two agree on real numbers is Algebra.lean's.
-/
import Idealize.ShloMosaic.PureOps.Ideal
import Idealize.ShloMosaic.Lib.ValueIdx

noncomputable section

open scoped BigOperators

namespace Cert.Rot

open Idealize.ShloMosaic Idealize.ShloMosaic.ValueIdx

abbrev SX : Shape := ⟨2, ![32, 3]⟩
abbrev SE : Shape := ⟨2, ![14541, 400]⟩
abbrev SR : Shape := ⟨2, ![237, 200]⟩
abbrev SO : Shape := ⟨2, ![32, 14541]⟩
abbrev SN : Shape := ⟨2, ![32, 200]⟩
abbrev SET : Shape := ⟨2, ![400, 14541]⟩
abbrev SQT : Shape := ⟨2, ![200, 32]⟩

/-! ## Scalars -/

/-- 2π as the f32 word both programs carry. -/
def c2pi : EReal := Ideal.ofBits .f32 0x40C90FDB#32
/-- The kernel's factor 2, as its f32 word. -/
def two : EReal := Ideal.ofBits .f32 0x40000000#32

def cr (t : EReal) : EReal := Ideal.cos (t * c2pi)
def sr (t : EReal) : EReal := Ideal.sin (t * c2pi)
/-- The left entity's coordinate rotated by the relation's phase: real and imaginary part. -/
def qre (lre lim t : EReal) : EReal := lre * cr t - lim * sr t
def qim (lre lim t : EReal) : EReal := lre * sr t + lim * cr t
/-- The right entity's coordinate against the rotation, as the expansion uses it. -/
def alpha (rre rim t : EReal) : EReal := cr t * rre + sr t * rim
def beta (rre rim t : EReal) : EReal := cr t * rim - sr t * rre
def sq2 (a b : EReal) : EReal := a * a + b * b

/-- |q − e|, directly. -/
def refSp (lre lim t ere eim : EReal) : EReal :=
  Ideal.sqrt ((qre lre lim t - ere) * (qre lre lim t - ere) + (qim lre lim t - eim) * (qim lre lim t - eim))
/-- |rot e − rhs|, directly. -/
def refPo (rre rim t ere eim : EReal) : EReal :=
  Ideal.sqrt ((ere * cr t - eim * sr t - rre) * (ere * cr t - eim * sr t - rre)
    + (ere * sr t + eim * cr t - rim) * (ere * sr t + eim * cr t - rim))
/-- √ max(|e|² + c − 2·(ere·a + eim·b), 0): the expanded modulus, `c` the other point's squared modulus and `(a, b)`
    the other point (for sp) or its coordinates against the rotation (for po). -/
def kerCore (ere eim a b c : EReal) : EReal :=
  Ideal.sqrt (max (sq2 ere eim + c - two * (ere * a + eim * b)) 0)
def kerSp (lre lim t ere eim : EReal) : EReal :=
  kerCore ere eim (qre lre lim t) (qim lre lim t) (sq2 (qre lre lim t) (qim lre lim t))
def kerPo (rre rim t ere eim : EReal) : EReal :=
  kerCore ere eim (alpha rre rim t) (beta rre rim t) (sq2 rre rim)

/-! ## What is known of the arguments under the precondition -/

/-- Every entry is a real number. -/
def AllReal {s : Shape} (a : s.Idx → EReal) : Prop := ∀ i, ∃ r : ℝ, a i = (r : EReal)

/-- Every index word is inside the table it indexes: columns 0 and 2 the entity table, column 1 the relation table. -/
structure InRange (x : IVec SX 32) : Prop where
  nonneg : ∀ (b : Fin 32) (k : Fin 3), 0 ≤ (x (ix2 b k)).toInt
  lt0 : ∀ b : Fin 32, (x (ix2 b (0 : Fin 3))).toInt < 14541
  lt1 : ∀ b : Fin 32, (x (ix2 b (1 : Fin 3))).toInt < 237
  lt2 : ∀ b : Fin 32, (x (ix2 b (2 : Fin 3))).toInt < 14541

/-! ## The gathered rows -/

/-- The real-part and imaginary-part columns of rank `r`. -/
abbrev lo (r : Fin 200) : Fin 400 := ⟨r.val, by omega⟩
abbrev hi (r : Fin 200) : Fin 400 := ⟨r.val + 200, by omega⟩

/-- The row an index word names, kept inside a table of `N + 1` rows. -/
def rowOf (N : Nat) (v : BitVec 32) : Fin (N + 1) := ⟨min v.toInt.toNat N, by omega⟩

/-- The entity rows the queries' column-`k` words name (k = 0 the left entities, k = 2 the right ones). -/
def entRows (k : Fin 3) (x : IVec SX 32) (E : SE.Idx → EReal) : (⟨2, ![32, 400]⟩ : Shape).Idx → EReal :=
  fun i => E (ix2 (rowOf 14540 (x (ix2 (i 0) k))) (i 1))
/-- The relation rows the queries' column-1 words name. -/
def relRows (x : IVec SX 32) (R : SR.Idx → EReal) : SN.Idx → EReal :=
  fun i => R (ix2 (rowOf 236 (x (ix2 (i 0) (1 : Fin 3)))) (i 1))

/-! ## The results, in the reference's form -/

def spOut (x : IVec SX 32) (E : SE.Idx → EReal) (R : SR.Idx → EReal) : SO.Idx → EReal := fun i =>
  -(∑ r : Fin 200, refSp (entRows 0 x E (ix2 (i 0) (lo r))) (entRows 0 x E (ix2 (i 0) (hi r))) (relRows x R (ix2 (i 0) r))
      (E (ix2 (i 1) (lo r))) (E (ix2 (i 1) (hi r))))
def poOut (x : IVec SX 32) (E : SE.Idx → EReal) (R : SR.Idx → EReal) : SO.Idx → EReal := fun i =>
  -(∑ r : Fin 200, refPo (entRows 2 x E (ix2 (i 0) (lo r))) (entRows 2 x E (ix2 (i 0) (hi r))) (relRows x R (ix2 (i 0) r))
      (E (ix2 (i 1) (lo r))) (E (ix2 (i 1) (hi r))))
/-- The moduli of the gathered entity rows, rank by rank. -/
def normOut (k : Fin 3) (x : IVec SX 32) (E : SE.Idx → EReal) : SN.Idx → EReal := fun i =>
  Ideal.sqrt (sq2 (entRows k x E (ix2 (i 0) (lo (i 1)))) (entRows k x E (ix2 (i 0) (hi (i 1)))))

/-! ## The kernel's operands and its two results, in its own form -/

/-- The entity table with ranks on the rows. -/
def embT (E : SE.Idx → EReal) : SET.Idx → EReal := fun i => E (ix2 (i 1) (i 0))
def qreT (x : IVec SX 32) (E : SE.Idx → EReal) (R : SR.Idx → EReal) : SQT.Idx → EReal := fun i =>
  qre (entRows 0 x E (ix2 (i 1) (lo (i 0)))) (entRows 0 x E (ix2 (i 1) (hi (i 0)))) (relRows x R (ix2 (i 1) (i 0)))
def qimT (x : IVec SX 32) (E : SE.Idx → EReal) (R : SR.Idx → EReal) : SQT.Idx → EReal := fun i =>
  qim (entRows 0 x E (ix2 (i 1) (lo (i 0)))) (entRows 0 x E (ix2 (i 1) (hi (i 0)))) (relRows x R (ix2 (i 1) (i 0)))
def q2T (x : IVec SX 32) (E : SE.Idx → EReal) (R : SR.Idx → EReal) : SQT.Idx → EReal := fun i =>
  sq2 (qreT x E R i) (qimT x E R i)
def alphaT (x : IVec SX 32) (E : SE.Idx → EReal) (R : SR.Idx → EReal) : SQT.Idx → EReal := fun i =>
  alpha (entRows 2 x E (ix2 (i 1) (lo (i 0)))) (entRows 2 x E (ix2 (i 1) (hi (i 0)))) (relRows x R (ix2 (i 1) (i 0)))
def betaT (x : IVec SX 32) (E : SE.Idx → EReal) (R : SR.Idx → EReal) : SQT.Idx → EReal := fun i =>
  beta (entRows 2 x E (ix2 (i 1) (lo (i 0)))) (entRows 2 x E (ix2 (i 1) (hi (i 0)))) (relRows x R (ix2 (i 1) (i 0)))
def r2T (x : IVec SX 32) (E : SE.Idx → EReal) : SQT.Idx → EReal := fun i =>
  sq2 (entRows 2 x E (ix2 (i 1) (lo (i 0)))) (entRows 2 x E (ix2 (i 1) (hi (i 0))))

/-- One launch's result from its four operands: at (b, n), minus the sum over the ranks of the expanded modulus. -/
def kerOut (eT : SET.Idx → EReal) (a b c : SQT.Idx → EReal) : SO.Idx → EReal := fun i =>
  -(∑ r : Fin 200, kerCore (eT (ix2 (lo r) (i 1))) (eT (ix2 (hi r) (i 1))) (a (ix2 r (i 0))) (b (ix2 r (i 0))) (c (ix2 r (i 0))))

end Cert.Rot

end
-- ==== Proof.KPay7.lean ====
/- The first result tile at one entry: minus the sum over the ranks of the expanded modulus, from the
   entity tile's column and the query's column of each small operand. -/
import proofs.«414217_j69312182222862_3_alg».proof.Proof.KOut
import proofs.«414217_j69312182222862_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Body.P7

open Cert.KernelIdeal Cert.KernelIdeal.Gen Cert.KernelIdeal.Body
open Idealize.ShloMosaic Idealize.ShloMosaic.TcCoe Idealize.ShloMosaic.Tactic Idealize.ShloMosaic.ValueIdx

/-! ## One row sum at a lane

Every query's chain is the same composition: the two tile halves `e0`, `e1` (real and imaginary parts, ranks on the
rows), the query's column of each small operand broadcast along the lanes, the expanded squared modulus guarded at
zero, its root, and the sum over the 200 ranks. The first query's chain is taken as the common form. -/

/-- The index a reduction over the rank axis inserts: rank `r` over lane `j`. -/
theorem lift_eq (r : Fin 200) (j : Fin 512) :
    reduces_S200x512_S512.lift (ix1 j) r = ix2 r j := by
  funext c
  apply Fin.ext
  match c with
  | ⟨0, _⟩ => rfl
  | ⟨1, _⟩ => rfl

theorem sqrt_apply {s : Shape} {φ : FTy} (a : FVec Ideal s φ) (i : s.Idx) : sqrt a i = Ideal.sqrt (a i) := rfl

/-- A column [200,1] broadcast along the lanes reads its row. -/
theorem bcol_apply {α : Type} (v : S200x1.Idx → α) (r : Fin 200) (j : Fin 512) :
    broadcastTo S200x512 v broadcasts_S200x1_S200x512 (ix2 r j) = v (ix2 r (0 : Fin 1)) :=
  broadcastTo_apply v broadcasts_S200x1_S200x512 (ix2 r j) (ix2 r (0 : Fin 1)) (fun a => match a with
    | ⟨0, _⟩ => rfl
    | ⟨1, _⟩ => rfl)

/-- The first query's chain at lane `j`: the sum over the ranks of the expanded modulus of the tile's entry against
    the three column entries. -/
theorem pay4_apply (e0 e1 : Vec Ideal S200x512 .f32) (a bq cq : Vec Ideal S200x1 .f32) (j : Fin 512) :
    k0_pay4 (F := Ideal) e0 e1 a bq cq (ix1 j)
      = ∑ r : Fin 200, Cert.Rot.kerCore (e0 (ix2 r j)) (e1 (ix2 r j)) (a (ix2 r (0 : Fin 1))) (bq (ix2 r (0 : Fin 1)))
          (cq (ix2 r (0 : Fin 1))) := by
  unfold k0_pay4
  dsimp only
  refine (Ideal.multiReduction_add_single _ _ reduces_S200x512_S512 _ _ (ix1 j)).trans ?_
  refine Finset.sum_congr rfl fun (r : Fin 200) _ => ?_
  rw [lift_eq r j]
  simp only [sqrt_apply, maximumf_apply, subf_apply, addf_apply, mulf_apply, broadcast_apply, bcol_apply,
    k0_pay3, k0_pay1, k0_pay2, shapeCast_self, Ideal.ofBits_def, Ideal.ofBits_zero_f32]
  rfl

/-! ## The stack of the 32 rows -/

/-- The 32 row sums, each cast to a [1,512] row, stacked along axis 0 and subtracted from zero: at (b, j), minus
    row b at j. -/
theorem stack32_apply (w : Fin 32 → FVec Ideal S512 .f32) (b : Fin 32) (j : Fin 512) :
    k0_pay165 (F := Ideal) (w 0) (w 1) (w 2) (w 3) (w 4) (w 5) (w 6) (w 7) (w 8) (w 9) (w 10) (w 11) (w 12) (w 13) (w 14) (w 15) (w 16) (w 17) (w 18) (w 19) (w 20) (w 21) (w 22) (w 23) (w 24) (w 25) (w 26) (w 27) (w 28) (w 29) (w 30) (w 31) (ix2 b j) = -(w b (ix1 j)) := by
  unfold k0_pay165
  show Ideal.ofBits .f32 0x00000000#32 - concatenate S32x512 0 _ _ (ix2 b j) = _
  rw [Ideal.ofBits_zero_f32, zero_sub]
  congr 1
  refine (concatenate_ofFn_unit_apply (t := S32x512) (s₁ := S1x512) (0 : Fin 2)
    (fun n : Fin 32 => shapeCast S1x512 (w n) shapeCasts_S512_S1x512) _ rfl rfl (ix2 b j) b rfl (ix2 (0 : Fin 1) j) ?_).trans ?_
  · intro a ha
    match a with
    | ⟨0, _⟩ => exact absurd rfl ha
    | ⟨1, _⟩ => rfl
  · exact shapeCast_a_1a_apply (w b) shapeCasts_S512_S1x512 0 j

/-! ## What the loads read -/

/-- Column `b` of a small operand lies inside it. -/
theorem colInb (b : Fin 32) : ∀ a, (![0, b.val] : Fin 2 → Nat) a + S200x1.size a ≤ S200x32.size a := fun a =>
  match a with
  | ⟨0, _⟩ => by show 0 + 200 ≤ 200; omega
  | ⟨1, _⟩ => by show b.val + 1 ≤ 32; omega

/-- The load of column `b` reads, at row `r`, the operand at (r, b). -/
theorem ld_col (x : Vec Ideal S200x32 .f32) (b : Fin 32) (r : Fin 200) :
    View.ld (Val := Elt Ideal) (e' := .f32) x (Rect.unit ![0, b.val] S200x1.size (colInb b)) (ix2 r (0 : Fin 1)) = x (ix2 r b) := by
  show x _ = x _
  congr 1
  funext a
  apply Fin.ext
  match a with
  | ⟨0, _⟩ => show 0 + 1 * r.val = r.val; omega
  | ⟨1, _⟩ => show b.val + 1 * 0 = b.val; omega

/-- The load of the tile's upper half reads the real parts: row `r` is rank `r`. -/
theorem ld_lo (x0 : Vec Ideal S400x512 .f32) (r : Fin 200) (j : Fin 512) :
    View.ld (Val := Elt Ideal) (e' := .f32) x0 (Rect.unit ![0, 0] S200x512.size inb_S400x512_S200x512_0_0) (ix2 r j)
      = x0 (ix2 (Cert.Rot.lo r) j) := by
  show x0 _ = x0 _
  congr 1
  funext a
  apply Fin.ext
  match a with
  | ⟨0, _⟩ => show 0 + 1 * r.val = r.val; omega
  | ⟨1, _⟩ => show 0 + 1 * j.val = j.val; omega

/-- The load of its lower half reads the imaginary parts: row `r` is row `r + 200` of the tile. -/
theorem ld_hi (x0 : Vec Ideal S400x512 .f32) (r : Fin 200) (j : Fin 512) :
    View.ld (Val := Elt Ideal) (e' := .f32) x0 (Rect.unit ![200, 0] S200x512.size inb_S400x512_S200x512_200_0) (ix2 r j)
      = x0 (ix2 (Cert.Rot.hi r) j) := by
  show x0 _ = x0 _
  congr 1
  funext a
  apply Fin.ext
  match a with
  | ⟨0, _⟩ => show 200 + 1 * r.val = r.val + 200; omega
  | ⟨1, _⟩ => show 0 + 1 * j.val = j.val; omega

/-- Query `b`'s row sum, in the first query's form, over what the loads read. -/
def row (x0 : Vec Ideal S400x512 .f32) (x1 x2 x3 : Vec Ideal S200x32 .f32) (b : Fin 32) : FVec Ideal S512 .f32 :=
  k0_pay4 (F := Ideal)
    (View.ld (Val := Elt Ideal) (e' := .f32) x0 (Rect.unit ![0, 0] S200x512.size inb_S400x512_S200x512_0_0))
    (View.ld (Val := Elt Ideal) (e' := .f32) x0 (Rect.unit ![200, 0] S200x512.size inb_S400x512_S200x512_200_0))
    (View.ld (Val := Elt Ideal) (e' := .f32) x1 (Rect.unit ![0, b.val] S200x1.size (colInb b)))
    (View.ld (Val := Elt Ideal) (e' := .f32) x2 (Rect.unit ![0, b.val] S200x1.size (colInb b)))
    (View.ld (Val := Elt Ideal) (e' := .f32) x3 (Rect.unit ![0, b.val] S200x1.size (colInb b)))

theorem row_apply (x0 : Vec Ideal S400x512 .f32) (x1 x2 x3 : Vec Ideal S200x32 .f32) (b : Fin 32) (j : Fin 512) :
    row x0 x1 x2 x3 b (ix1 j)
      = ∑ r : Fin 200, Cert.Rot.kerCore (x0 (ix2 (Cert.Rot.lo r) j)) (x0 (ix2 (Cert.Rot.hi r) j))
          (x1 (ix2 r b)) (x2 (ix2 r b)) (x3 (ix2 r b)) := by
  unfold row
  rw [pay4_apply]
  refine Finset.sum_congr rfl fun r _ => ?_
  rw [ld_lo, ld_hi, ld_col, ld_col, ld_col]

/-! ## The first result buffer at an entry -/

theorem out7_apply (c : Dev nD) (i : grid0.Coords)
    (arg1 : Memref sig .tc .vmem S400x512 .f32) (harg1 : arg1.IsWhole) (arg2 : Memref sig .tc .vmem S200x32 .f32) (harg2 : arg2.IsWhole)
    (arg3 : Memref sig .tc .vmem S200x32 .f32) (harg3 : arg3.IsWhole) (arg4 : Memref sig .tc .vmem S200x32 .f32) (harg4 : arg4.IsWhole)
    (arg5 : Memref sig .tc .vmem S200x32 .f32) (harg5 : arg5.IsWhole) (arg6 : Memref sig .tc .vmem S200x32 .f32) (harg6 : arg6.IsWhole)
    (arg7 : Memref sig .tc .vmem S200x32 .f32) (harg7 : arg7.IsWhole) (arg8 : Memref sig .tc .vmem S32x512 .f32) (harg8 : arg8.IsWhole)
    (arg9 : Memref sig .tc .vmem S32x512 .f32) (harg9 : arg9.IsWhole)
    (x0 : Vec Ideal S400x512 .f32) (x1 x2 x3 x4 x5 x6 : Vec Ideal S200x32 .f32) (b : Fin 32) (j : Fin 512) :
    out7 (F := Ideal) c i arg1 harg1 arg2 harg2 arg3 harg3 arg4 harg4 arg5 harg5 arg6 harg6 arg7 harg7 arg8 harg8 arg9 harg9 x0 x1 x2 x3 x4 x5 x6 (ix2 b j)
      = -(∑ r : Fin 200, Cert.Rot.kerCore (x0 (ix2 (Cert.Rot.lo r) j)) (x0 (ix2 (Cert.Rot.hi r) j))
          (x1 (ix2 r b)) (x2 (ix2 r b)) (x3 (ix2 r b))) := by
  have hz : (![0, 0] : Fin 2 → Nat) = fun _ => 0 := funext fun a => by fin_cases a <;> rfl
  -- the one store into the buffer covers it: the buffer holds that store's payload
  unfold out7
  rw [View.read_writes_eq_canon _ _ _ (cover7 c i arg1 harg1 arg2 harg2 arg3 harg3 arg4 harg4 arg5 harg5 arg6 harg6 arg7 harg7 arg8 harg8 arg9 harg9 x0 x1 x2 x3 x4 x5 x6)]
  unfold kernelRun0
  dsimp only
  sl_unfold_words
  rw [View.canon_unit_zero hz]
  -- each load reads the operand's contents through its rectangle
  simp only [View.readAt_eq_ld, harg1.read_unread, harg2.read_unread, harg3.read_unread, harg4.read_unread]
  -- the payload is the stack of the 32 row sums, every one the same composition as the first query's
  refine Eq.trans ?_ ((stack32_apply (row x0 x1 x2 x3) b j).trans (congrArg Neg.neg (row_apply x0 x1 x2 x3 b j)))
  rfl

end Cert.KernelIdeal.Body.P7

end
-- ==== Proof.KPay8.lean ====
/- The second result tile at one entry: minus the sum over the ranks of the expanded modulus, from the
   entity tile's column and the query's column of each small operand. -/
import proofs.«414217_j69312182222862_3_alg».proof.Proof.KOut
import proofs.«414217_j69312182222862_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Body.P8

open Cert.KernelIdeal Cert.KernelIdeal.Gen Cert.KernelIdeal.Body
open Idealize.ShloMosaic Idealize.ShloMosaic.TcCoe Idealize.ShloMosaic.Tactic Idealize.ShloMosaic.ValueIdx

/-! ## Reads of the operand buffers -/

/-- Column `b` of a `[200, 32]` operand, loaded as a `[200, 1]` block, holds at `(r, 0)` the operand's entry `(r, b)`. -/
theorem ld_col_apply (x : Vec Ideal S200x32 .f32) (b : Fin 32)
    (inb : ∀ a, (![0, b.val] : Fin 2 → Nat) a + S200x1.size a ≤ S200x32.size a) (r : Fin 200) :
    View.ld x (Rect.unit ![0, b.val] S200x1.size inb) (ix2 r (0 : Fin 1)) = x (ix2 r b) := by
  show x ((Rect.unit (s := S200x32) ![0, b.val] S200x1.size inb).idx (ix2 r (0 : Fin 1))) = x (ix2 r b)
  refine congrArg x (funext fun a => Fin.ext ?_)
  match a with
  | ⟨0, _⟩ => show 0 + 1 * r.val = r.val; omega
  | ⟨1, _⟩ => show b.val + 1 * 0 = b.val; omega

/-- The `[200, 512]` block of the entity tile that starts at row `o` holds at `(r, j)` the tile's entry `(o + r, j)`. -/
theorem ld_half_apply (x0 : Vec Ideal S400x512 .f32) (o : Nat)
    (inb : ∀ a, (![o, 0] : Fin 2 → Nat) a + S200x512.size a ≤ S400x512.size a) (r : Fin 200) (j : Fin 512)
    (k : Fin 400) (hk : k.val = o + r.val) :
    View.ld x0 (Rect.unit ![o, 0] S200x512.size inb) (ix2 r j) = x0 (ix2 k j) := by
  show x0 ((Rect.unit (s := S400x512) ![o, 0] S200x512.size inb).idx (ix2 r j)) = x0 (ix2 k j)
  refine congrArg x0 (funext fun a => Fin.ext ?_)
  match a with
  | ⟨0, _⟩ => show o + 1 * r.val = k.val; omega
  | ⟨1, _⟩ => show 0 + 1 * j.val = j.val; omega

/-! ## One query's row -/

/-- A `[200, 1]` column laid along the 512 lanes reads, at `(r, j)`, the column at `(r, 0)`. -/
theorem colBroadcast_apply {α : Type} (v : S200x1.Idx → α) (hc : S200x1.ShapeCasts S200x1) (hb : S200x1.Broadcasts S200x512)
    (r : Fin 200) (j : Fin 512) :
    broadcastTo S200x512 (shapeCast S200x1 v hc) hb (ix2 r j) = v (ix2 r (0 : Fin 1)) := by
  rw [shapeCast_self]
  refine broadcastTo_apply v hb (ix2 r j) (ix2 r (0 : Fin 1)) fun a => ?_
  match a with
  | ⟨0, _⟩ => rfl
  | ⟨1, _⟩ => rfl

/-- One query's row of the tile, as the body computes it: with `ere`, `eim` the two halves of the entity tile, `e2` their
    squared modulus and `a`, `bq`, `cq` the query's columns of the three small operands, the sum over the 200 ranks of
    `√ max(e2 + cq − 2·(ere·a + eim·bq), 0)`, the columns laid along the lanes. -/
def rowVal (hc : S200x1.ShapeCasts S200x1) (hb : S200x1.Broadcasts S200x512) (hr : S200x512.Reduces [0] S512)
    (ere eim e2 : FVec Ideal S200x512 .f32) (a bq cq : Vec Ideal S200x1 .f32) : FVec Ideal S512 .f32 :=
  multiReduction (F := Ideal) .add [0] S512
    (sqrt (maximumf
      (subf (addf e2 (broadcastTo S200x512 (shapeCast S200x1 cq hc) hb))
        (mulf (broadcast S200x512 (Scalar.ofBits .f32 0x40000000#32))
          (addf (mulf ere (broadcastTo S200x512 (shapeCast S200x1 a hc) hb))
            (mulf eim (broadcastTo S200x512 (shapeCast S200x1 bq hc) hb)))))
      (broadcast S200x512 (Scalar.ofBits .f32 0x00000000#32))))
    0x00000000#32 hr (.inl rfl) rfl

/-- The row at lane `j`: the sum over the ranks of the expanded modulus. -/
theorem rowVal_apply (hc : S200x1.ShapeCasts S200x1) (hb : S200x1.Broadcasts S200x512) (hr : S200x512.Reduces [0] S512)
    (ere eim e2 : FVec Ideal S200x512 .f32) (a bq cq : Vec Ideal S200x1 .f32) (j : Fin 512) :
    rowVal hc hb hr ere eim e2 a bq cq (ix1 j)
      = ∑ r : Fin 200, Ideal.sqrt (max (e2 (ix2 r j) + cq (ix2 r (0 : Fin 1))
          - Cert.Rot.two * (ere (ix2 r j) * a (ix2 r (0 : Fin 1)) + eim (ix2 r j) * bq (ix2 r (0 : Fin 1)))) 0) := by
  unfold rowVal
  refine (Ideal.multiReduction_add_single _ _ hr _ _ (ix1 j)).trans ?_
  refine Finset.sum_congr rfl fun (r : Fin 200) _ => ?_
  have hl : hr.lift (ix1 j) r = ix2 r j := by
    funext d
    match d with
    | ⟨0, _⟩ => rfl
    | ⟨1, _⟩ => rfl
  rw [hl]
  show Ideal.sqrt (max (e2 (ix2 r j) + broadcastTo S200x512 (shapeCast S200x1 cq hc) hb (ix2 r j)
      - Ideal.ofBits .f32 0x40000000#32 * (ere (ix2 r j) * broadcastTo S200x512 (shapeCast S200x1 a hc) hb (ix2 r j)
        + eim (ix2 r j) * broadcastTo S200x512 (shapeCast S200x1 bq hc) hb (ix2 r j))) (Ideal.ofBits .f32 0x00000000#32)) = _
  rw [colBroadcast_apply, colBroadcast_apply, colBroadcast_apply, Ideal.ofBits_zero_f32]
  rfl

/-! ## The stacked tile -/

/-- Thirty-two rows stacked along the first axis, then negated as `0 − ·`. -/
def negTile (hsc : S512.ShapeCasts S1x512)
    (hcat : Shape.Concatenates [S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512] S32x512 0)
    (rows : Fin 32 → FVec Ideal S512 .f32) : FVec Ideal S32x512 .f32 :=
  subf (broadcast S32x512 (Scalar.ofBits .f32 0x00000000#32))
    (concatenate S32x512 0 [⟨S1x512, shapeCast S1x512 (rows 0) hsc⟩, ⟨S1x512, shapeCast S1x512 (rows 1) hsc⟩, ⟨S1x512, shapeCast S1x512 (rows 2) hsc⟩, ⟨S1x512, shapeCast S1x512 (rows 3) hsc⟩, ⟨S1x512, shapeCast S1x512 (rows 4) hsc⟩, ⟨S1x512, shapeCast S1x512 (rows 5) hsc⟩, ⟨S1x512, shapeCast S1x512 (rows 6) hsc⟩, ⟨S1x512, shapeCast S1x512 (rows 7) hsc⟩, ⟨S1x512, shapeCast S1x512 (rows 8) hsc⟩, ⟨S1x512, shapeCast S1x512 (rows 9) hsc⟩, ⟨S1x512, shapeCast S1x512 (rows 10) hsc⟩, ⟨S1x512, shapeCast S1x512 (rows 11) hsc⟩, ⟨S1x512, shapeCast S1x512 (rows 12) hsc⟩, ⟨S1x512, shapeCast S1x512 (rows 13) hsc⟩, ⟨S1x512, shapeCast S1x512 (rows 14) hsc⟩, ⟨S1x512, shapeCast S1x512 (rows 15) hsc⟩, ⟨S1x512, shapeCast S1x512 (rows 16) hsc⟩, ⟨S1x512, shapeCast S1x512 (rows 17) hsc⟩, ⟨S1x512, shapeCast S1x512 (rows 18) hsc⟩, ⟨S1x512, shapeCast S1x512 (rows 19) hsc⟩, ⟨S1x512, shapeCast S1x512 (rows 20) hsc⟩, ⟨S1x512, shapeCast S1x512 (rows 21) hsc⟩, ⟨S1x512, shapeCast S1x512 (rows 22) hsc⟩, ⟨S1x512, shapeCast S1x512 (rows 23) hsc⟩, ⟨S1x512, shapeCast S1x512 (rows 24) hsc⟩, ⟨S1x512, shapeCast S1x512 (rows 25) hsc⟩, ⟨S1x512, shapeCast S1x512 (rows 26) hsc⟩, ⟨S1x512, shapeCast S1x512 (rows 27) hsc⟩, ⟨S1x512, shapeCast S1x512 (rows 28) hsc⟩, ⟨S1x512, shapeCast S1x512 (rows 29) hsc⟩, ⟨S1x512, shapeCast S1x512 (rows 30) hsc⟩, ⟨S1x512, shapeCast S1x512 (rows 31) hsc⟩] hcat)

/-- The stacked tile at `(b, j)` is minus row `b` at lane `j`. -/
theorem negTile_apply (hsc : S512.ShapeCasts S1x512)
    (hcat : Shape.Concatenates [S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512, S1x512] S32x512 0)
    (rows : Fin 32 → FVec Ideal S512 .f32) (b : Fin 32) (j : Fin 512) :
    negTile hsc hcat rows (ix2 b j) = -(rows b (ix1 j)) := by
  have hrow : concatenate S32x512 0 [⟨S1x512, shapeCast S1x512 (rows 0) hsc⟩, ⟨S1x512, shapeCast S1x512 (rows 1) hsc⟩, ⟨S1x512, shapeCast S1x512 (rows 2) hsc⟩, ⟨S1x512, shapeCast S1x512 (rows 3) hsc⟩, ⟨S1x512, shapeCast S1x512 (rows 4) hsc⟩, ⟨S1x512, shapeCast S1x512 (rows 5) hsc⟩, ⟨S1x512, shapeCast S1x512 (rows 6) hsc⟩, ⟨S1x512, shapeCast S1x512 (rows 7) hsc⟩, ⟨S1x512, shapeCast S1x512 (rows 8) hsc⟩, ⟨S1x512, shapeCast S1x512 (rows 9) hsc⟩, ⟨S1x512, shapeCast S1x512 (rows 10) hsc⟩, ⟨S1x512, shapeCast S1x512 (rows 11) hsc⟩, ⟨S1x512, shapeCast S1x512 (rows 12) hsc⟩, ⟨S1x512, shapeCast S1x512 (rows 13) hsc⟩, ⟨S1x512, shapeCast S1x512 (rows 14) hsc⟩, ⟨S1x512, shapeCast S1x512 (rows 15) hsc⟩, ⟨S1x512, shapeCast S1x512 (rows 16) hsc⟩, ⟨S1x512, shapeCast S1x512 (rows 17) hsc⟩, ⟨S1x512, shapeCast S1x512 (rows 18) hsc⟩, ⟨S1x512, shapeCast S1x512 (rows 19) hsc⟩, ⟨S1x512, shapeCast S1x512 (rows 20) hsc⟩, ⟨S1x512, shapeCast S1x512 (rows 21) hsc⟩, ⟨S1x512, shapeCast S1x512 (rows 22) hsc⟩, ⟨S1x512, shapeCast S1x512 (rows 23) hsc⟩, ⟨S1x512, shapeCast S1x512 (rows 24) hsc⟩, ⟨S1x512, shapeCast S1x512 (rows 25) hsc⟩, ⟨S1x512, shapeCast S1x512 (rows 26) hsc⟩, ⟨S1x512, shapeCast S1x512 (rows 27) hsc⟩, ⟨S1x512, shapeCast S1x512 (rows 28) hsc⟩, ⟨S1x512, shapeCast S1x512 (rows 29) hsc⟩, ⟨S1x512, shapeCast S1x512 (rows 30) hsc⟩, ⟨S1x512, shapeCast S1x512 (rows 31) hsc⟩] hcat (ix2 b j) = rows b (ix1 j) := by
    refine (concatenate_ofFn_unit_apply (t := S32x512) (s₁ := S1x512) (0 : Fin 2)
      (fun n : Fin 32 => shapeCast S1x512 (rows n) hsc) hcat rfl rfl (ix2 b j) b rfl (ix2 (0 : Fin 1) j) ?_).trans ?_
    · intro d hd
      match d with
      | ⟨0, _⟩ => exact absurd rfl hd
      | ⟨1, _⟩ => rfl
    · exact shapeCast_a_1a_apply (rows b) hsc 0 j
  show Ideal.ofBits .f32 0x00000000#32 - concatenate S32x512 0 [⟨S1x512, shapeCast S1x512 (rows 0) hsc⟩, ⟨S1x512, shapeCast S1x512 (rows 1) hsc⟩, ⟨S1x512, shapeCast S1x512 (rows 2) hsc⟩, ⟨S1x512, shapeCast S1x512 (rows 3) hsc⟩, ⟨S1x512, shapeCast S1x512 (rows 4) hsc⟩, ⟨S1x512, shapeCast S1x512 (rows 5) hsc⟩, ⟨S1x512, shapeCast S1x512 (rows 6) hsc⟩, ⟨S1x512, shapeCast S1x512 (rows 7) hsc⟩, ⟨S1x512, shapeCast S1x512 (rows 8) hsc⟩, ⟨S1x512, shapeCast S1x512 (rows 9) hsc⟩, ⟨S1x512, shapeCast S1x512 (rows 10) hsc⟩, ⟨S1x512, shapeCast S1x512 (rows 11) hsc⟩, ⟨S1x512, shapeCast S1x512 (rows 12) hsc⟩, ⟨S1x512, shapeCast S1x512 (rows 13) hsc⟩, ⟨S1x512, shapeCast S1x512 (rows 14) hsc⟩, ⟨S1x512, shapeCast S1x512 (rows 15) hsc⟩, ⟨S1x512, shapeCast S1x512 (rows 16) hsc⟩, ⟨S1x512, shapeCast S1x512 (rows 17) hsc⟩, ⟨S1x512, shapeCast S1x512 (rows 18) hsc⟩, ⟨S1x512, shapeCast S1x512 (rows 19) hsc⟩, ⟨S1x512, shapeCast S1x512 (rows 20) hsc⟩, ⟨S1x512, shapeCast S1x512 (rows 21) hsc⟩, ⟨S1x512, shapeCast S1x512 (rows 22) hsc⟩, ⟨S1x512, shapeCast S1x512 (rows 23) hsc⟩, ⟨S1x512, shapeCast S1x512 (rows 24) hsc⟩, ⟨S1x512, shapeCast S1x512 (rows 25) hsc⟩, ⟨S1x512, shapeCast S1x512 (rows 26) hsc⟩, ⟨S1x512, shapeCast S1x512 (rows 27) hsc⟩, ⟨S1x512, shapeCast S1x512 (rows 28) hsc⟩, ⟨S1x512, shapeCast S1x512 (rows 29) hsc⟩, ⟨S1x512, shapeCast S1x512 (rows 30) hsc⟩, ⟨S1x512, shapeCast S1x512 (rows 31) hsc⟩] hcat (ix2 b j) = _
  rw [hrow, Ideal.ofBits_zero_f32, zero_sub]

/-- Column `n` of a `[200, 32]` operand lies inside it. -/
theorem colInb (n : Fin 32) : ∀ a, (![0, n.val] : Fin 2 → Nat) a + S200x1.size a ≤ S200x32.size a := by
  intro a
  match a with
  | ⟨0, _⟩ => show 0 + 200 ≤ 200; omega
  | ⟨1, _⟩ => show n.val + 1 ≤ 32; omega

/-! ## The entity tile's halves and their squared modulus, at an entry -/

/-- The first half of the entity tile (rows 0 … 199, the real parts) at `(r, j)`. -/
theorem ere_apply (x0 : Vec Ideal S400x512 .f32)
    (inb : ∀ a, (![0, 0] : Fin 2 → Nat) a + S200x512.size a ≤ S400x512.size a) (r : Fin 200) (j : Fin 512) :
    k0_pay1 (F := Ideal) (View.ld x0 (Rect.unit ![0, 0] S200x512.size inb)) (ix2 r j) = x0 (ix2 (Cert.Rot.lo r) j) := by
  unfold k0_pay1
  rw [shapeCast_self]
  exact ld_half_apply x0 0 inb r j (Cert.Rot.lo r) (by show r.val = 0 + r.val; omega)

/-- The second half (rows 200 … 399, the imaginary parts) at `(r, j)`. -/
theorem eim_apply (x0 : Vec Ideal S400x512 .f32)
    (inb : ∀ a, (![200, 0] : Fin 2 → Nat) a + S200x512.size a ≤ S400x512.size a) (r : Fin 200) (j : Fin 512) :
    k0_pay2 (F := Ideal) (View.ld x0 (Rect.unit ![200, 0] S200x512.size inb)) (ix2 r j) = x0 (ix2 (Cert.Rot.hi r) j) := by
  unfold k0_pay2
  rw [shapeCast_self]
  exact ld_half_apply x0 200 inb r j (Cert.Rot.hi r) (by show r.val + 200 = 200 + r.val; omega)

/-- The squared modulus of the tile's entry: real part squared plus imaginary part squared. -/
theorem e2_apply (x0 : Vec Ideal S400x512 .f32)
    (inb : ∀ a, (![0, 0] : Fin 2 → Nat) a + S200x512.size a ≤ S400x512.size a)
    (inb' : ∀ a, (![200, 0] : Fin 2 → Nat) a + S200x512.size a ≤ S400x512.size a) (r : Fin 200) (j : Fin 512) :
    k0_pay3 (F := Ideal) (View.ld x0 (Rect.unit ![0, 0] S200x512.size inb)) (View.ld x0 (Rect.unit ![200, 0] S200x512.size inb')) (ix2 r j)
      = Cert.Rot.sq2 (x0 (ix2 (Cert.Rot.lo r) j)) (x0 (ix2 (Cert.Rot.hi r) j)) := by
  show k0_pay1 (F := Ideal) (View.ld x0 (Rect.unit ![0, 0] S200x512.size inb)) (ix2 r j)
        * k0_pay1 (F := Ideal) (View.ld x0 (Rect.unit ![0, 0] S200x512.size inb)) (ix2 r j)
      + k0_pay2 (F := Ideal) (View.ld x0 (Rect.unit ![200, 0] S200x512.size inb')) (ix2 r j)
        * k0_pay2 (F := Ideal) (View.ld x0 (Rect.unit ![200, 0] S200x512.size inb')) (ix2 r j) = _
  rw [ere_apply, eim_apply]
  rfl

theorem out8_apply (c : Dev nD) (i : grid0.Coords)
    (arg1 : Memref sig .tc .vmem S400x512 .f32) (harg1 : arg1.IsWhole) (arg2 : Memref sig .tc .vmem S200x32 .f32) (harg2 : arg2.IsWhole)
    (arg3 : Memref sig .tc .vmem S200x32 .f32) (harg3 : arg3.IsWhole) (arg4 : Memref sig .tc .vmem S200x32 .f32) (harg4 : arg4.IsWhole)
    (arg5 : Memref sig .tc .vmem S200x32 .f32) (harg5 : arg5.IsWhole) (arg6 : Memref sig .tc .vmem S200x32 .f32) (harg6 : arg6.IsWhole)
    (arg7 : Memref sig .tc .vmem S200x32 .f32) (harg7 : arg7.IsWhole) (arg8 : Memref sig .tc .vmem S32x512 .f32) (harg8 : arg8.IsWhole)
    (arg9 : Memref sig .tc .vmem S32x512 .f32) (harg9 : arg9.IsWhole)
    (x0 : Vec Ideal S400x512 .f32) (x1 x2 x3 x4 x5 x6 : Vec Ideal S200x32 .f32) (b : Fin 32) (j : Fin 512) :
    out8 (F := Ideal) c i arg1 harg1 arg2 harg2 arg3 harg3 arg4 harg4 arg5 harg5 arg6 harg6 arg7 harg7 arg8 harg8 arg9 harg9 x0 x1 x2 x3 x4 x5 x6 (ix2 b j)
      = -(∑ r : Fin 200, Cert.Rot.kerCore (x0 (ix2 (Cert.Rot.lo r) j)) (x0 (ix2 (Cert.Rot.hi r) j))
          (x4 (ix2 r b)) (x5 (ix2 r b)) (x6 (ix2 r b))) := by
  have hz : (![0, 0] : Fin 2 → Nat) = fun _ => 0 := funext fun a => by fin_cases a <;> rfl
  unfold out8
  rw [View.read_writes_eq_canon _ _ _ (cover8 c i arg1 harg1 arg2 harg2 arg3 harg3 arg4 harg4 arg5 harg5 arg6 harg6 arg7 harg7 arg8 harg8 arg9 harg9 x0 x1 x2 x3 x4 x5 x6)]
  unfold kernelRun0
  dsimp only
  sl_unfold_words
  rw [View.canon_unit_zero hz]
  simp only [View.readAt_eq_ld, harg1.read_unread, harg5.read_unread, harg6.read_unread, harg7.read_unread]
  -- the stored tile is the stack of the 32 queries' rows, each the same row function of that query's columns
  show negTile shapeCasts_S512_S1x512 concatenates_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S1x512_S32x512_d0
    (fun n : Fin 32 => rowVal shapeCasts_S200x1_S200x1 broadcasts_S200x1_S200x512 reduces_S200x512_S512
      (k0_pay1 (View.ld x0 (Rect.unit ![0, 0] S200x512.size inb_S400x512_S200x512_0_0)))
      (k0_pay2 (View.ld x0 (Rect.unit ![200, 0] S200x512.size inb_S400x512_S200x512_200_0)))
      (k0_pay3 (View.ld x0 (Rect.unit ![0, 0] S200x512.size inb_S400x512_S200x512_0_0))
        (View.ld x0 (Rect.unit ![200, 0] S200x512.size inb_S400x512_S200x512_200_0)))
      (View.ld x4 (Rect.unit ![0, n.val] S200x1.size (colInb n)))
      (View.ld x5 (Rect.unit ![0, n.val] S200x1.size (colInb n)))
      (View.ld x6 (Rect.unit ![0, n.val] S200x1.size (colInb n)))) (ix2 b j) = _
  -- entry (b, j): minus row b at lane j, the row a sum over the ranks; then every load read at its entry
  rw [negTile_apply]
  refine congrArg Neg.neg ?_
  refine (rowVal_apply _ _ _ _ _ _ _ _ _ j).trans ?_
  refine Finset.sum_congr rfl fun r _ => ?_
  rw [ere_apply, eim_apply, e2_apply, ld_col_apply, ld_col_apply, ld_col_apply]
  rfl

end Cert.KernelIdeal.Body.P8

end
-- ==== Proof.KValue.lean ====
/-
  The launch with its results NAMED, at the extended reals. After the body at point `t` each result buffer holds the
  body's tile computed from the entity tile buffer and the six small operands' blocks. The last entity tile runs past
  the table's end: there the buffer's columns past the end hold words nothing names, and the result tile's columns
  past the end are computed from them — but a result entry reads only ITS OWN column of the entity tile (the sum runs
  down the ranks, never across entities), so the columns inside the array do not depend on those words, and those are
  the only columns written back.
-/
import proofs.«414217_j69312182222862_3_alg».proof.Proof.KOut
import proofs.«414217_j69312182222862_3_alg».proof.Proof.KPay7
import proofs.«414217_j69312182222862_3_alg».proof.Proof.KPay8
import proofs.«414217_j69312182222862_3_alg».proof.Proof.KFrameIdeal
import proofs.«414217_j69312182222862_3_alg».proof.Proof.Spec
import Idealize.ShloMosaic.Lib.Pipeline.Frame
import Idealize.ShloMosaic.Lib.Pipeline.Value

set_option maxRecDepth 16384

noncomputable section

open scoped BigOperators

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The two result tiles at point `t` from what the seven operand buffers hold. -/
def T7 (c : Dev nD) (t : Fin cfg0.N) (x0 : Vec Ideal S400x512 .f32) (x1 x2 x3 x4 x5 x6 : Vec Ideal S200x32 .f32) : Vec Ideal S32x512 .f32 :=
  out7 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    x0 x1 x2 x3 x4 x5 x6
def T8 (c : Dev nD) (t : Fin cfg0.N) (x0 : Vec Ideal S400x512 .f32) (x1 x2 x3 x4 x5 x6 : Vec Ideal S200x32 .f32) : Vec Ideal S32x512 .f32 :=
  out8 (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    x0 x1 x2 x3 x4 x5 x6

theorem T7_apply (c : Dev nD) (t : Fin cfg0.N) (x0 : Vec Ideal S400x512 .f32) (x1 x2 x3 x4 x5 x6 : Vec Ideal S200x32 .f32) (b : Fin 32) (j : Fin 512) :
    T7 c t x0 x1 x2 x3 x4 x5 x6 (ix2 b j)
      = -(∑ r : Fin 200, Cert.Rot.kerCore (x0 (ix2 (Cert.Rot.lo r) j)) (x0 (ix2 (Cert.Rot.hi r) j)) (x1 (ix2 r b)) (x2 (ix2 r b)) (x3 (ix2 r b))) :=
  P7.out7_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) x0 x1 x2 x3 x4 x5 x6 b j
theorem T8_apply (c : Dev nD) (t : Fin cfg0.N) (x0 : Vec Ideal S400x512 .f32) (x1 x2 x3 x4 x5 x6 : Vec Ideal S200x32 .f32) (b : Fin 32) (j : Fin 512) :
    T8 c t x0 x1 x2 x3 x4 x5 x6 (ix2 b j)
      = -(∑ r : Fin 200, Cert.Rot.kerCore (x0 (ix2 (Cert.Rot.lo r) j)) (x0 (ix2 (Cert.Rot.hi r) j)) (x4 (ix2 r b)) (x5 (ix2 r b)) (x6 (ix2 r b))) :=
  P8.out8_apply c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) x0 x1 x2 x3 x4 x5 x6 b j

/-- The small operands' blocks at point `t`, at their literal type. -/
abbrev sb1 (c : Dev nD) (t : Fin cfg0.N) : Vec Ideal S200x32 .f32 := iblk m c 1 t
abbrev sb2 (c : Dev nD) (t : Fin cfg0.N) : Vec Ideal S200x32 .f32 := iblk m c 2 t
abbrev sb3 (c : Dev nD) (t : Fin cfg0.N) : Vec Ideal S200x32 .f32 := iblk m c 3 t
abbrev sb4 (c : Dev nD) (t : Fin cfg0.N) : Vec Ideal S200x32 .f32 := iblk m c 4 t
abbrev sb5 (c : Dev nD) (t : Fin cfg0.N) : Vec Ideal S200x32 .f32 := iblk m c 5 t
abbrev sb6 (c : Dev nD) (t : Fin cfg0.N) : Vec Ideal S200x32 .f32 := iblk m c 6 t

/-- The extents of what the transfers move, decided over the grid: the entity tile's rows are all moved, and the
    three clipped windows cut the entity axis alike. -/
theorem xsizes : ∀ t : Fin cfg0.N,
    (win0 0).xsize (grid0.coords t) 0 = 400 ∧ (win0 7).xsize (grid0.coords t) 0 = 32 ∧ (win0 8).xsize (grid0.coords t) 0 = 32
    ∧ (win0 7).xsize (grid0.coords t) 1 = (win0 0).xsize (grid0.coords t) 1
    ∧ (win0 8).xsize (grid0.coords t) 1 = (win0 0).xsize (grid0.coords t) 1 :=
  (by decide +kernel : ∀ t : Fin grid0.N,
    (win0 0).xsize (grid0.coords t) 0 = 400 ∧ (win0 7).xsize (grid0.coords t) 0 = 32 ∧ (win0 8).xsize (grid0.coords t) 0 = 32
    ∧ (win0 7).xsize (grid0.coords t) 1 = (win0 0).xsize (grid0.coords t) 1
    ∧ (win0 8).xsize (grid0.coords t) 1 = (win0 0).xsize (grid0.coords t) 1)

/-- On the part a transfer moves, a filled buffer holds the block whatever it held before. -/
theorem fill_indep0 {α : Type} (i : grid0.Coords) (d d' : win0_0.block.Idx → α)
    (g : (win0_0.xblock i).Idx → α) (j : win0_0.block.Idx) (h : win0_0.moved i j = true) :
    win0_0.fill i d g j = win0_0.fill i d' g j := by
  unfold Pipeline.Window.fill; rw [dif_pos h, dif_pos h]

/-- An entry of the entity tile inside the array: row anything, column below the cut. -/
theorem moved0 (t : Fin cfg0.N) (r : Fin 400) (j : Fin 512) (hj : j.val < (win0 0).xsize (grid0.coords t) 1) :
    (win0 0).moved (grid0.coords t) (ix2 r j) = true := by
  rw [Pipeline.Window.moved_iff]
  intro a
  match a with
  | ⟨0, _⟩ => show r.val < (win0 0).xsize (grid0.coords t) 0; rw [(xsizes t).1]; exact r.isLt
  | ⟨1, _⟩ => exact hj

/-- The coordinates of an entry of a result tile inside the array. -/
theorem xinj7 (t : Fin cfg0.N) (j' : ((win0 7).xblock (grid0.coords t)).Idx) :
    ∃ (b : Fin 32) (j : Fin 512), (win0 7).xinj (grid0.coords t) j' = ix2 b j ∧ b.val = (j' 0).val ∧ j.val = (j' 1).val
      ∧ j.val < (win0 0).xsize (grid0.coords t) 1 := by
  have h0 : (j' 0).val < 32 := lt_of_lt_of_eq (j' 0).isLt (xsizes t).2.1
  have h1 : (j' 1).val < (win0 0).xsize (grid0.coords t) 1 := lt_of_lt_of_eq (j' 1).isLt (xsizes t).2.2.2.1
  have h1' : (j' 1).val < 512 := lt_of_lt_of_le h1 ((win0 0).xsize_le (grid0.coords t) 1)
  refine ⟨⟨(j' 0).val, h0⟩, ⟨(j' 1).val, h1'⟩, ?_, rfl, rfl, h1⟩
  funext a
  match a with
  | ⟨0, _⟩ => rfl
  | ⟨1, _⟩ => rfl
theorem xinj8 (t : Fin cfg0.N) (j' : ((win0 8).xblock (grid0.coords t)).Idx) :
    ∃ (b : Fin 32) (j : Fin 512), (win0 8).xinj (grid0.coords t) j' = ix2 b j ∧ b.val = (j' 0).val ∧ j.val = (j' 1).val
      ∧ j.val < (win0 0).xsize (grid0.coords t) 1 := by
  have h0 : (j' 0).val < 32 := lt_of_lt_of_eq (j' 0).isLt (xsizes t).2.2.1
  have h1 : (j' 1).val < (win0 0).xsize (grid0.coords t) 1 := lt_of_lt_of_eq (j' 1).isLt (xsizes t).2.2.2.2
  have h1' : (j' 1).val < 512 := lt_of_lt_of_le h1 ((win0 0).xsize_le (grid0.coords t) 1)
  refine ⟨⟨(j' 0).val, h0⟩, ⟨(j' 1).val, h1'⟩, ?_, rfl, rfl, h1⟩
  funext a
  match a with
  | ⟨0, _⟩ => rfl
  | ⟨1, _⟩ => rfl

/-- A result tile's columns inside the table do not depend on what the entity tile's buffer holds past the table's end. -/
theorem T7_cut_indep (c : Dev nD) (t : Fin cfg0.N) (g : (win0_0.xblock (grid0.coords t)).Idx → Elt Ideal .f32) (d d' : Vec Ideal S400x512 .f32)
    (x1 x2 x3 x4 x5 x6 : Vec Ideal S200x32 .f32) :
    (win0 7).cut (grid0.coords t) (T7 c t (win0_0.fill (grid0.coords t) d g) x1 x2 x3 x4 x5 x6)
      = (win0 7).cut (grid0.coords t) (T7 c t (win0_0.fill (grid0.coords t) d' g) x1 x2 x3 x4 x5 x6) := by
  funext j'
  obtain ⟨b, j, hidx, -, -, hj⟩ := xinj7 t j'
  show T7 c t _ x1 x2 x3 x4 x5 x6 ((win0 7).xinj (grid0.coords t) j') = T7 c t _ x1 x2 x3 x4 x5 x6 ((win0 7).xinj (grid0.coords t) j')
  rw [hidx, T7_apply, T7_apply]
  have e1 : ∀ r : Fin 400, win0_0.fill (grid0.coords t) d g (ix2 r j) = win0_0.fill (grid0.coords t) d' g (ix2 r j) :=
    fun r => fill_indep0 (grid0.coords t) d d' g (ix2 r j) (moved0 t r j hj)
  refine congrArg Neg.neg (Finset.sum_congr rfl fun r _ => ?_)
  rw [e1 (Cert.Rot.lo r), e1 (Cert.Rot.hi r)]
theorem T8_cut_indep (c : Dev nD) (t : Fin cfg0.N) (g : (win0_0.xblock (grid0.coords t)).Idx → Elt Ideal .f32) (d d' : Vec Ideal S400x512 .f32)
    (x1 x2 x3 x4 x5 x6 : Vec Ideal S200x32 .f32) :
    (win0 8).cut (grid0.coords t) (T8 c t (win0_0.fill (grid0.coords t) d g) x1 x2 x3 x4 x5 x6)
      = (win0 8).cut (grid0.coords t) (T8 c t (win0_0.fill (grid0.coords t) d' g) x1 x2 x3 x4 x5 x6) := by
  funext j'
  obtain ⟨b, j, hidx, -, -, hj⟩ := xinj8 t j'
  show T8 c t _ x1 x2 x3 x4 x5 x6 ((win0 8).xinj (grid0.coords t) j') = T8 c t _ x1 x2 x3 x4 x5 x6 ((win0 8).xinj (grid0.coords t) j')
  rw [hidx, T8_apply, T8_apply]
  have e1 : ∀ r : Fin 400, win0_0.fill (grid0.coords t) d g (ix2 r j) = win0_0.fill (grid0.coords t) d' g (ix2 r j) :=
    fun r => fill_indep0 (grid0.coords t) d d' g (ix2 r j) (moved0 t r j hj)
  refine congrArg Neg.neg (Finset.sum_congr rfl fun r _ => ?_)
  rw [e1 (Cert.Rot.lo r), e1 (Cert.Rot.hi r)]

/-! ## The proof data with the results named -/

/-- The proof data of the launch on core `c`: the arrays as the region finds them; after the body each operand's
    buffer at its block (the entity tile's filled out with zero past the table's end) and each result's at its tile
    of those. -/
def vdats (_ : Fin 1) (c : Dev nD) : Dat τ (Elt Ideal) Unit ℕ (UR sig nD τ) ℕ cfg0 c where
  A w := V m c (Pipeline.arrRef spec0 w)
  after w t := match w with
    | ⟨0, _⟩ => eblk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => T7 c t (eblk m c t) (sb1 m c t) (sb2 m c t) (sb3 m c t) (sb4 m c t) (sb5 m c t) (sb6 m c t)
    | ⟨8, _⟩ => T8 c t (eblk m c t) (sb1 m c t) (sb2 m c t) (sb3 m c t) (sb4 m c t) (sb5 m c t) (sb6 m c t)
  Φ _ := Pipeline.ΦA spec0 c
  q _ := fullShare
  owed _ := 0

theorem vA_eq (c : Dev nD) (w : Fin cfg0.W) : (vdats m 0 c).A w = V m c (Pipeline.arrRef spec0 w) := by
  dsimp only [vdats]

theorem vafter0_0 (c : Dev nD) (t : Fin cfg0.N) : (vdats m 0 c).after 0 t = eblk m c t := by dsimp only [vdats]
theorem vafter0_1 (c : Dev nD) (t : Fin cfg0.N) : (vdats m 0 c).after 1 t = iblk m c 1 t := by dsimp only [vdats]
theorem vafter0_2 (c : Dev nD) (t : Fin cfg0.N) : (vdats m 0 c).after 2 t = iblk m c 2 t := by dsimp only [vdats]
theorem vafter0_3 (c : Dev nD) (t : Fin cfg0.N) : (vdats m 0 c).after 3 t = iblk m c 3 t := by dsimp only [vdats]
theorem vafter0_4 (c : Dev nD) (t : Fin cfg0.N) : (vdats m 0 c).after 4 t = iblk m c 4 t := by dsimp only [vdats]
theorem vafter0_5 (c : Dev nD) (t : Fin cfg0.N) : (vdats m 0 c).after 5 t = iblk m c 5 t := by dsimp only [vdats]
theorem vafter0_6 (c : Dev nD) (t : Fin cfg0.N) : (vdats m 0 c).after 6 t = iblk m c 6 t := by dsimp only [vdats]
theorem vafter0_7 (c : Dev nD) (t : Fin cfg0.N) :
    (vdats m 0 c).after 7 t = T7 c t (eblk m c t) (sb1 m c t) (sb2 m c t) (sb3 m c t) (sb4 m c t) (sb5 m c t) (sb6 m c t) := by dsimp only [vdats]
theorem vafter0_8 (c : Dev nD) (t : Fin cfg0.N) :
    (vdats m 0 c).after 8 t = T8 c t (eblk m c t) (sb1 m c t) (sb2 m c t) (sb3 m c t) (sb4 m c t) (sb5 m c t) (sb6 m c t) := by dsimp only [vdats]

theorem vbefore0_0 (c : Dev nD) (t : Fin cfg0.N) (d) :
    (vdats m 0 c).before 0 t d = win0_0.fill (grid0.coords t) d (iblk m c 0 t) := by
  unfold Dat.before; rw [if_pos (fetch0_0 t)]; rfl
theorem vbefore0_1 (c : Dev nD) (t : Fin cfg0.N) (d) : (vdats m 0 c).before 1 t d = iblk m c 1 t :=
  before0_1_of m (vdats m 0 c) (vA_eq m c 1) (vafter0_1 m c) t d
theorem vbefore0_2 (c : Dev nD) (t : Fin cfg0.N) (d) : (vdats m 0 c).before 2 t d = iblk m c 2 t :=
  before0_2_of m (vdats m 0 c) (vA_eq m c 2) (vafter0_2 m c) t d
theorem vbefore0_3 (c : Dev nD) (t : Fin cfg0.N) (d) : (vdats m 0 c).before 3 t d = iblk m c 3 t :=
  before0_3_of m (vdats m 0 c) (vA_eq m c 3) (vafter0_3 m c) t d
theorem vbefore0_4 (c : Dev nD) (t : Fin cfg0.N) (d) : (vdats m 0 c).before 4 t d = iblk m c 4 t :=
  before0_4_of m (vdats m 0 c) (vA_eq m c 4) (vafter0_4 m c) t d
theorem vbefore0_5 (c : Dev nD) (t : Fin cfg0.N) (d) : (vdats m 0 c).before 5 t d = iblk m c 5 t :=
  before0_5_of m (vdats m 0 c) (vA_eq m c 5) (vafter0_5 m c) t d
theorem vbefore0_6 (c : Dev nD) (t : Fin cfg0.N) (d) : (vdats m 0 c).before 6 t d = iblk m c 6 t :=
  before0_6_of m (vdats m 0 c) (vA_eq m c 6) (vafter0_6 m c) t d

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d))
    ∗ (∃ d, owns (c : Thread nD τ) (st0_7 t) fullShare ((vdats m 0 c).before 7 t d))
    ∗ (∃ d, owns (c : Thread nD τ) (st0_8 t) fullShare ((vdats m 0 c).before 8 t d)))

/-- and what it returns: the three clipped windows' buffers stated on the columns inside the table. -/
def vbodyPost (c : Dev nD) (t : Fin cfg0.N) : sProp 𝕄 :=
  iprop((vdats m 0 c).Φ t.succ ∗ (vdats m 0 c).owesAt () t.succ
    ∗ (∃ d, owns (c : Thread nD τ) (st0_0 t) fullShare
        ((win0 0).fill (grid0.coords t) d ((win0 0).cut (grid0.coords t) ((vdats m 0 c).after 0 t))))
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t)
    ∗ (∃ d, owns (c : Thread nD τ) (st0_7 t) fullShare
        ((win0 7).fill (grid0.coords t) d ((win0 7).cut (grid0.coords t) ((vdats m 0 c).after 7 t))))
    ∗ (∃ d, owns (c : Thread nD τ) (st0_8 t) fullShare
        ((win0 8).fill (grid0.coords t) d ((win0 8).cut (grid0.coords t) ((vdats m 0 c).after 8 t)))))

set_option maxHeartbeats 4000000 in
/-- The body at any point. The entity tile's buffer arrives filled out past the table's end by what it held (`d0`);
    the result tiles computed from it agree, on the columns inside the table, with those computed from the tile filled
    out with zero (`T7_cut_indep`), which is all the obligation states of a clipped window. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  simp only [vbefore0_0, vbefore0_1, vbefore0_2, vbefore0_3, vbefore0_4, vbefore0_5, vbefore0_6]
  rw [show (vdats m 0 c).Φ t.succ = (vdats m 0 c).Φ t.castSucc from rfl,
    show (vdats m 0 c).owesAt () t.succ = (vdats m 0 c).owesAt () t.castSucc from rfl,
    vafter0_0, vafter0_1, vafter0_2, vafter0_3, vafter0_4, vafter0_5, vafter0_6, vafter0_7, vafter0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]
  · iexists d0
    unfold eblk
    rw [show (win0 0).cut (grid0.coords t) (win0_0.fill (grid0.coords t) (fun _ => zw) (iblk m c 0 t)) = iblk m c 0 t from
      win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  isplitl [H7]
  · iexists T7 c t (win0_0.fill (grid0.coords t) d0 (iblk m c 0 t)) (sb1 m c t) (sb2 m c t) (sb3 m c t) (sb4 m c t) (sb5 m c t) (sb6 m c t)
    unfold eblk
    unfold owns; iexists _; isplitr
    swap; · iexact H7
    ipureintro
    refine (View.read_writes_of_cover _ _ VO7 VO7.junk _ (cover7 c _ _ _ _ _ _ _ _ _ _ _ _ _ _ _ _ _ _ _ _ _ _ _ _ _ _)).trans ?_
    exact ((win0 7).fill_congr_cut (grid0.coords t)
      (T7_cut_indep c t (iblk m c 0 t) d0 (fun _ => zw) (sb1 m c t) (sb2 m c t) (sb3 m c t) (sb4 m c t) (sb5 m c t) (sb6 m c t))).symm
  · iexists T8 c t (win0_0.fill (grid0.coords t) d0 (iblk m c 0 t)) (sb1 m c t) (sb2 m c t) (sb3 m c t) (sb4 m c t) (sb5 m c t) (sb6 m c t)
    unfold eblk
    unfold owns; iexists _; isplitr
    swap; · iexact H8
    ipureintro
    refine (View.read_writes_of_cover _ _ VO8 VO8.junk _ (cover8 c _ _ _ _ _ _ _ _ _ _ _ _ _ _ _ _ _ _ _ _ _ _ _ _ _ _)).trans ?_
    exact ((win0 8).fill_congr_cut (grid0.coords t)
      (T8_cut_indep c t (iblk m c 0 t) d0 (fun _ => zw) (sb1 m c t) (sb2 m c t) (sb3 m c t) (sb4 m c t) (sb5 m c t) (sb6 m c t))).symm

/-- The library's body obligation, at every point. -/
theorem vbody_obligation (c : Dev nD) :
    BodyObligationLoose (vdats m 0 c) (defs₀ (F := Ideal)) Variants.none () Set.univ := fun t => by
  rw [bigSep_W0, bigSep_W0]
  exact vsound_body m c t

set_option backward.isDefEq.respectTransparency.types false in
/-- The run: every execution ends, every array of the launch holds what the proof data computes, and every other buffer
    what the region found. -/
theorem vrun_main : θ_run defs (onTc (τ := τ) (main (F := Ideal))) (s₀ m ρ) (Pipeline.FramePost cfgs (vdats m) 0 (V m)) :=
  Pipeline.θ_run_frame cfgs (vdats m) (0 : Fin 1) launch0 defs₀ Variants.none m ρ main
    (hbody := fun c => vbody_obligation m c) (hshare := fun c => (vdats m 0 c).share_full fun _ => rfl)
    (howed := fun _ _ => rfl) (V := V m) (hmain := hmain m Variants.none) (hA := vA_eq m) (hΦ := fun _ _ => rfl)

end Cert.KernelIdeal.Body

end
-- ==== Proof.KBlocks.lean ====
/- The launch's blocks read at an entry: the small operands' blocks are their whole arrays; the entity tile at point
   `t` is columns 512·t … of the transposed table (those inside the table); a result block's entry (b, j) at point `t`
   is the result array's entry (b, 512·t + j); and the result blocks, cut at the table's end, cover the result arrays. -/
import proofs.«414217_j69312182222862_3_alg».proof.Proof.KFrameIdeal
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The small operands: whole-array blocks -/

theorem idx1 : ∀ t : Fin grid0.N, win0_1.index t 0 = 0 ∧ win0_1.index t 1 = 0 := by decide +kernel

/-- Window 1's block is its whole array: an entry of the block sits at the same entry of the array. -/
theorem emb1 (t : Fin cfg0.N) (y : S200x32.Idx) : ((cfg0.win 1).blk t).view.emb y = y := by
  have h := idx1 t
  funext a
  refine Fin.ext ?_
  match a with
  | ⟨0, _⟩ =>
    show win0_1.index t 0 * 200 + 1 * (y 0).val = (y 0).val
    rw [h.1]; omega
  | ⟨1, _⟩ =>
    show win0_1.index t 1 * 32 + 1 * (y 1).val = (y 1).val
    rw [h.2]; omega

theorem iblk1_apply (c : Dev nD) (t : Fin cfg0.N) (r : Fin 200) (b : Fin 32) :
    (iblk m c 1 t : S200x32.Idx → EReal) (ix2 r b) = (V m c (Pipeline.arrRef spec0 1) : S200x32.Idx → EReal) (ix2 r b) := by
  unfold iblk
  rw [View.read_apply, emb1 t (ix2 r b)]
  rfl

theorem idx2 : ∀ t : Fin grid0.N, win0_2.index t 0 = 0 ∧ win0_2.index t 1 = 0 := by decide +kernel

/-- Window 2's block is its whole array: an entry of the block sits at the same entry of the array. -/
theorem emb2 (t : Fin cfg0.N) (y : S200x32.Idx) : ((cfg0.win 2).blk t).view.emb y = y := by
  have h := idx2 t
  funext a
  refine Fin.ext ?_
  match a with
  | ⟨0, _⟩ =>
    show win0_2.index t 0 * 200 + 1 * (y 0).val = (y 0).val
    rw [h.1]; omega
  | ⟨1, _⟩ =>
    show win0_2.index t 1 * 32 + 1 * (y 1).val = (y 1).val
    rw [h.2]; omega

theorem iblk2_apply (c : Dev nD) (t : Fin cfg0.N) (r : Fin 200) (b : Fin 32) :
    (iblk m c 2 t : S200x32.Idx → EReal) (ix2 r b) = (V m c (Pipeline.arrRef spec0 2) : S200x32.Idx → EReal) (ix2 r b) := by
  unfold iblk
  rw [View.read_apply, emb2 t (ix2 r b)]
  rfl

theorem idx3 : ∀ t : Fin grid0.N, win0_3.index t 0 = 0 ∧ win0_3.index t 1 = 0 := by decide +kernel

/-- Window 3's block is its whole array: an entry of the block sits at the same entry of the array. -/
theorem emb3 (t : Fin cfg0.N) (y : S200x32.Idx) : ((cfg0.win 3).blk t).view.emb y = y := by
  have h := idx3 t
  funext a
  refine Fin.ext ?_
  match a with
  | ⟨0, _⟩ =>
    show win0_3.index t 0 * 200 + 1 * (y 0).val = (y 0).val
    rw [h.1]; omega
  | ⟨1, _⟩ =>
    show win0_3.index t 1 * 32 + 1 * (y 1).val = (y 1).val
    rw [h.2]; omega

theorem iblk3_apply (c : Dev nD) (t : Fin cfg0.N) (r : Fin 200) (b : Fin 32) :
    (iblk m c 3 t : S200x32.Idx → EReal) (ix2 r b) = (V m c (Pipeline.arrRef spec0 3) : S200x32.Idx → EReal) (ix2 r b) := by
  unfold iblk
  rw [View.read_apply, emb3 t (ix2 r b)]
  rfl

theorem idx4 : ∀ t : Fin grid0.N, win0_4.index t 0 = 0 ∧ win0_4.index t 1 = 0 := by decide +kernel

/-- Window 4's block is its whole array: an entry of the block sits at the same entry of the array. -/
theorem emb4 (t : Fin cfg0.N) (y : S200x32.Idx) : ((cfg0.win 4).blk t).view.emb y = y := by
  have h := idx4 t
  funext a
  refine Fin.ext ?_
  match a with
  | ⟨0, _⟩ =>
    show win0_4.index t 0 * 200 + 1 * (y 0).val = (y 0).val
    rw [h.1]; omega
  | ⟨1, _⟩ =>
    show win0_4.index t 1 * 32 + 1 * (y 1).val = (y 1).val
    rw [h.2]; omega

theorem iblk4_apply (c : Dev nD) (t : Fin cfg0.N) (r : Fin 200) (b : Fin 32) :
    (iblk m c 4 t : S200x32.Idx → EReal) (ix2 r b) = (V m c (Pipeline.arrRef spec0 4) : S200x32.Idx → EReal) (ix2 r b) := by
  unfold iblk
  rw [View.read_apply, emb4 t (ix2 r b)]
  rfl

theorem idx5 : ∀ t : Fin grid0.N, win0_5.index t 0 = 0 ∧ win0_5.index t 1 = 0 := by decide +kernel

/-- Window 5's block is its whole array: an entry of the block sits at the same entry of the array. -/
theorem emb5 (t : Fin cfg0.N) (y : S200x32.Idx) : ((cfg0.win 5).blk t).view.emb y = y := by
  have h := idx5 t
  funext a
  refine Fin.ext ?_
  match a with
  | ⟨0, _⟩ =>
    show win0_5.index t 0 * 200 + 1 * (y 0).val = (y 0).val
    rw [h.1]; omega
  | ⟨1, _⟩ =>
    show win0_5.index t 1 * 32 + 1 * (y 1).val = (y 1).val
    rw [h.2]; omega

theorem iblk5_apply (c : Dev nD) (t : Fin cfg0.N) (r : Fin 200) (b : Fin 32) :
    (iblk m c 5 t : S200x32.Idx → EReal) (ix2 r b) = (V m c (Pipeline.arrRef spec0 5) : S200x32.Idx → EReal) (ix2 r b) := by
  unfold iblk
  rw [View.read_apply, emb5 t (ix2 r b)]
  rfl

theorem idx6 : ∀ t : Fin grid0.N, win0_6.index t 0 = 0 ∧ win0_6.index t 1 = 0 := by decide +kernel

/-- Window 6's block is its whole array: an entry of the block sits at the same entry of the array. -/
theorem emb6 (t : Fin cfg0.N) (y : S200x32.Idx) : ((cfg0.win 6).blk t).view.emb y = y := by
  have h := idx6 t
  funext a
  refine Fin.ext ?_
  match a with
  | ⟨0, _⟩ =>
    show win0_6.index t 0 * 200 + 1 * (y 0).val = (y 0).val
    rw [h.1]; omega
  | ⟨1, _⟩ =>
    show win0_6.index t 1 * 32 + 1 * (y 1).val = (y 1).val
    rw [h.2]; omega

theorem iblk6_apply (c : Dev nD) (t : Fin cfg0.N) (r : Fin 200) (b : Fin 32) :
    (iblk m c 6 t : S200x32.Idx → EReal) (ix2 r b) = (V m c (Pipeline.arrRef spec0 6) : S200x32.Idx → EReal) (ix2 r b) := by
  unfold iblk
  rw [View.read_apply, emb6 t (ix2 r b)]
  rfl

/-! ## The entity tile: columns 512·t … of the transposed table, cut at its end -/

/-- Window 0 at point `t`: block index (0, t); its transfer moves all 400 rows and the columns up to the table's end. -/
theorem geo0 : ∀ t : Fin grid0.N, win0_0.index t 0 = 0 ∧ win0_0.index t 1 = t.val
    ∧ win0_0.xsize (grid0.coords t) 0 = 400
    ∧ 512 * t.val + win0_0.xsize (grid0.coords t) 1 = min (512 * t.val + 512) 14541 := by decide +kernel

/-- The table's index of an entry of the entity tile's transfer at point `t`. -/
theorem emb0 (t : Fin cfg0.N) (y : ((win0 0).xblock (grid0.coords t)).Idx) (hr : (y 0).val < 400) (hn : 512 * t.val + (y 1).val < 14541) :
    ((cfg0.win 0).blk t).view.emb y = (ix2 ⟨(y 0).val, hr⟩ ⟨512 * t.val + (y 1).val, hn⟩ : S400x14541.Idx) := by
  have h := geo0 t
  funext a
  refine Fin.ext ?_
  match a with
  | ⟨0, _⟩ =>
    show win0_0.index t 0 * 400 + 1 * (y 0).val = (y 0).val
    rw [h.1]; omega
  | ⟨1, _⟩ =>
    show win0_0.index t 1 * 512 + 1 * (y 1).val = 512 * t.val + (y 1).val
    rw [h.2.1]; omega

/-- The entity tile buffer of the proof data at an entry inside the table. -/
theorem eblk_apply (c : Dev nD) (t : Fin cfg0.N) (r : Fin 400) (j : Fin 512) (hj : j.val < (win0 0).xsize (grid0.coords t) 1)
    (hn : 512 * t.val + j.val < 14541) :
    eblk (F := Ideal) m c t (ix2 r j) = (V m c (Pipeline.arrRef spec0 0) : S400x14541.Idx → EReal) (ix2 r ⟨512 * t.val + j.val, hn⟩) := by
  have h := geo0 t
  have hm : win0_0.moved (grid0.coords t) (ix2 r j) = true := (win0_0.moved_iff _ _).mpr fun a => by
    match a with
    | ⟨0, _⟩ => show r.val < win0_0.xsize (grid0.coords t) 0; rw [h.2.2.1]; exact r.isLt
    | ⟨1, _⟩ => exact hj
  unfold eblk Pipeline.Window.fill
  rw [dif_pos hm]
  unfold iblk
  rw [View.read_apply, emb0 t _ r.isLt hn]
  rfl

/-- A column of the entity tile inside the cut is a column of the table. -/
theorem col_lt (t : Fin cfg0.N) (j : Nat) (hj : j < (win0 0).xsize (grid0.coords t) 1) : 512 * t.val + j < 14541 := by
  have h := (geo0 t).2.2.2
  have hj' : j < win0_0.xsize (grid0.coords t) 1 := hj
  omega

/-! ## The result blocks: entry (b, j) at point t is the array's entry (b, 512·t + j); together they cover the arrays -/

/-- Window 7 at point `t`: block index (0, t); its transfer moves all 32 rows and the columns up to the table's end. -/
theorem geo7 : ∀ t : Fin grid0.N, win0_7.index t 0 = 0 ∧ win0_7.index t 1 = t.val
    ∧ win0_7.xsize (grid0.coords t) 0 = 32
    ∧ 512 * t.val + win0_7.xsize (grid0.coords t) 1 = min (512 * t.val + 512) 14541 := by decide +kernel

/-- Window 8 at point `t`: block index (0, t); its transfer moves all 32 rows and the columns up to the table's end. -/
theorem geo8 : ∀ t : Fin grid0.N, win0_8.index t 0 = 0 ∧ win0_8.index t 1 = t.val
    ∧ win0_8.xsize (grid0.coords t) 0 = 32
    ∧ 512 * t.val + win0_8.xsize (grid0.coords t) 1 = min (512 * t.val + 512) 14541 := by decide +kernel

/-- The result array's index of a result block's entry. -/
theorem emb7 (t : Fin cfg0.N) (j' : ((win0 7).xblock (grid0.coords t)).Idx) (hb : (j' 0).val < 32) (hn : 512 * t.val + (j' 1).val < 14541) :
    ((cfg0.win 7).blk t).view.emb j' = (ix2 ⟨(j' 0).val, hb⟩ ⟨512 * t.val + (j' 1).val, hn⟩ : S32x14541.Idx) := by
  have h := geo7 t
  funext a
  refine Fin.ext ?_
  match a with
  | ⟨0, _⟩ =>
    show win0_7.index t 0 * 32 + 1 * (j' 0).val = (j' 0).val
    rw [h.1]; omega
  | ⟨1, _⟩ =>
    show win0_7.index t 1 * 512 + 1 * (j' 1).val = 512 * t.val + (j' 1).val
    rw [h.2.1]; omega
theorem emb8 (t : Fin cfg0.N) (j' : ((win0 8).xblock (grid0.coords t)).Idx) (hb : (j' 0).val < 32) (hn : 512 * t.val + (j' 1).val < 14541) :
    ((cfg0.win 8).blk t).view.emb j' = (ix2 ⟨(j' 0).val, hb⟩ ⟨512 * t.val + (j' 1).val, hn⟩ : S32x14541.Idx) := by
  have h := geo8 t
  funext a
  refine Fin.ext ?_
  match a with
  | ⟨0, _⟩ =>
    show win0_8.index t 0 * 32 + 1 * (j' 0).val = (j' 0).val
    rw [h.1]; omega
  | ⟨1, _⟩ =>
    show win0_8.index t 1 * 512 + 1 * (j' 1).val = 512 * t.val + (j' 1).val
    rw [h.2.1]; omega

/-- Every entry of a result array lies in some point's block (cut at the table's end). -/
theorem arrCover7 (i : S32x14541.Idx) : ∃ t : Fin cfg0.N, (cfg0.win 7).flush t = true ∧ i ∈ ((cfg0.win 7).blk t).view.set := by
  have hb : (i 0).val < 32 := (i 0).isLt
  have hn : (i 1).val < 14541 := (i 1).isLt
  have ht : (i 1).val / 512 < cfg0.N := lt_of_lt_of_eq (show (i 1).val / 512 < 29 by omega) N_0.symm
  refine ⟨⟨(i 1).val / 512, ht⟩, flush0_7 _, ?_⟩
  have h := geo7 ⟨(i 1).val / 512, ht⟩
  show i ∈ ((View.whole main_v50_0).slice (win0_7.rect ⟨(i 1).val / 512, ht⟩)).set
  rw [View.set_slice_whole, Rect.mem_set_unit]
  intro a
  match a with
  | ⟨0, _⟩ =>
    show win0_7.index ⟨(i 1).val / 512, ht⟩ 0 * 32 ≤ (i 0).val
      ∧ (i 0).val < win0_7.index ⟨(i 1).val / 512, ht⟩ 0 * 32 + win0_7.xsize (grid0.coords ⟨(i 1).val / 512, ht⟩) 0
    rw [h.1, h.2.2.1]; omega
  | ⟨1, _⟩ =>
    show win0_7.index ⟨(i 1).val / 512, ht⟩ 1 * 512 ≤ (i 1).val
      ∧ (i 1).val < win0_7.index ⟨(i 1).val / 512, ht⟩ 1 * 512 + win0_7.xsize (grid0.coords ⟨(i 1).val / 512, ht⟩) 1
    have h4 := h.2.2.2
    rw [h.2.1]
    show (i 1).val / 512 * 512 ≤ (i 1).val
      ∧ (i 1).val < (i 1).val / 512 * 512 + win0_7.xsize (grid0.coords ⟨(i 1).val / 512, ht⟩) 1
    have h4' : 512 * ((i 1).val / 512) + win0_7.xsize (grid0.coords ⟨(i 1).val / 512, ht⟩) 1
        = min (512 * ((i 1).val / 512) + 512) 14541 := h4
    omega
theorem arrCover8 (i : S32x14541.Idx) : ∃ t : Fin cfg0.N, (cfg0.win 8).flush t = true ∧ i ∈ ((cfg0.win 8).blk t).view.set := by
  have hb : (i 0).val < 32 := (i 0).isLt
  have hn : (i 1).val < 14541 := (i 1).isLt
  have ht : (i 1).val / 512 < cfg0.N := lt_of_lt_of_eq (show (i 1).val / 512 < 29 by omega) N_0.symm
  refine ⟨⟨(i 1).val / 512, ht⟩, flush0_8 _, ?_⟩
  have h := geo8 ⟨(i 1).val / 512, ht⟩
  show i ∈ ((View.whole main_v50_1).slice (win0_8.rect ⟨(i 1).val / 512, ht⟩)).set
  rw [View.set_slice_whole, Rect.mem_set_unit]
  intro a
  match a with
  | ⟨0, _⟩ =>
    show win0_8.index ⟨(i 1).val / 512, ht⟩ 0 * 32 ≤ (i 0).val
      ∧ (i 0).val < win0_8.index ⟨(i 1).val / 512, ht⟩ 0 * 32 + win0_8.xsize (grid0.coords ⟨(i 1).val / 512, ht⟩) 0
    rw [h.1, h.2.2.1]; omega
  | ⟨1, _⟩ =>
    show win0_8.index ⟨(i 1).val / 512, ht⟩ 1 * 512 ≤ (i 1).val
      ∧ (i 1).val < win0_8.index ⟨(i 1).val / 512, ht⟩ 1 * 512 + win0_8.xsize (grid0.coords ⟨(i 1).val / 512, ht⟩) 1
    have h4 := h.2.2.2
    rw [h.2.1]
    show (i 1).val / 512 * 512 ≤ (i 1).val
      ∧ (i 1).val < (i 1).val / 512 * 512 + win0_8.xsize (grid0.coords ⟨(i 1).val / 512, ht⟩) 1
    have h4' : 512 * ((i 1).val / 512) + win0_8.xsize (grid0.coords ⟨(i 1).val / 512, ht⟩) 1
        = min (512 * ((i 1).val / 512) + 512) 14541 := h4
    omega

end Cert.KernelIdeal.Body

end
-- ==== Proof.KFinal.lean ====
/-
  The two result arrays after the launch, in closed form: every point writes back its tile's columns inside the
  table, those columns are the kernel's formula of the transposed entity table and the small operands at the array's
  own indices, and the blocks cover the arrays.
-/
import proofs.«414217_j69312182222862_3_alg».proof.Proof.KValue
import proofs.«414217_j69312182222862_3_alg».proof.Proof.KBlocks

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The launch's seven operand arrays as the region finds them, at their literal types. -/
abbrev va0 (c : Dev nD) : Cert.Rot.SET.Idx → EReal := V m c (Pipeline.arrRef spec0 0)
abbrev va1 (c : Dev nD) : Cert.Rot.SQT.Idx → EReal := V m c (Pipeline.arrRef spec0 1)
abbrev va2 (c : Dev nD) : Cert.Rot.SQT.Idx → EReal := V m c (Pipeline.arrRef spec0 2)
abbrev va3 (c : Dev nD) : Cert.Rot.SQT.Idx → EReal := V m c (Pipeline.arrRef spec0 3)
abbrev va4 (c : Dev nD) : Cert.Rot.SQT.Idx → EReal := V m c (Pipeline.arrRef spec0 4)
abbrev va5 (c : Dev nD) : Cert.Rot.SQT.Idx → EReal := V m c (Pipeline.arrRef spec0 5)
abbrev va6 (c : Dev nD) : Cert.Rot.SQT.Idx → EReal := V m c (Pipeline.arrRef spec0 6)

/-- What point `t` writes back of the first result tile is its block of the kernel's formula over the whole arrays. -/
theorem flushed7 (c : Dev nD) (t : Fin cfg0.N) :
    (vdats m 0 c).flushed 7 t
      = ((cfg0.win 7).blk t).view.read (Elt Ideal) (Cert.Rot.kerOut (va0 m c) (va1 m c) (va2 m c) (va3 m c)) := by
  show (win0 7).cut (grid0.coords t) ((vdats m 0 c).after 7 t) = _
  rw [vafter0_7]
  funext j'
  have h0 : (j' 0).val < 32 := lt_of_lt_of_eq (j' 0).isLt (xsizes t).2.1
  have hj : (j' 1).val < (win0 0).xsize (grid0.coords t) 1 := lt_of_lt_of_eq (j' 1).isLt (xsizes t).2.2.2.1
  have h1 : (j' 1).val < 512 := lt_of_lt_of_le hj ((win0 0).xsize_le (grid0.coords t) 1)
  have hidx : (win0 7).xinj (grid0.coords t) j' = ix2 (⟨(j' 0).val, h0⟩ : Fin 32) (⟨(j' 1).val, h1⟩ : Fin 512) := by
    funext a
    match a with
    | ⟨0, _⟩ => rfl
    | ⟨1, _⟩ => rfl
  have hn : 512 * t.val + (j' 1).val < 14541 := col_lt t (j' 1).val hj
  rw [View.read_apply, emb7 t j' h0 hn]
  show T7 c t (eblk m c t) (sb1 m c t) (sb2 m c t) (sb3 m c t) (sb4 m c t) (sb5 m c t) (sb6 m c t) ((win0 7).xinj (grid0.coords t) j') = _
  rw [hidx, T7_apply]
  unfold Cert.Rot.kerOut
  refine congrArg Neg.neg (Finset.sum_congr rfl fun r _ => ?_)
  rw [eblk_apply m c t (Cert.Rot.lo r) ⟨(j' 1).val, h1⟩ hj hn, eblk_apply m c t (Cert.Rot.hi r) ⟨(j' 1).val, h1⟩ hj hn]
  show Cert.Rot.kerCore _ _ ((iblk m c 1 t : S200x32.Idx → EReal) (ix2 r _)) ((iblk m c 2 t : S200x32.Idx → EReal) (ix2 r _))
    ((iblk m c 3 t : S200x32.Idx → EReal) (ix2 r _)) = _
  rw [iblk1_apply, iblk2_apply, iblk3_apply]

theorem flushed8 (c : Dev nD) (t : Fin cfg0.N) :
    (vdats m 0 c).flushed 8 t
      = ((cfg0.win 8).blk t).view.read (Elt Ideal) (Cert.Rot.kerOut (va0 m c) (va4 m c) (va5 m c) (va6 m c)) := by
  show (win0 8).cut (grid0.coords t) ((vdats m 0 c).after 8 t) = _
  rw [vafter0_8]
  funext j'
  have h0 : (j' 0).val < 32 := lt_of_lt_of_eq (j' 0).isLt (xsizes t).2.2.1
  have hj : (j' 1).val < (win0 0).xsize (grid0.coords t) 1 := lt_of_lt_of_eq (j' 1).isLt (xsizes t).2.2.2.2
  have h1 : (j' 1).val < 512 := lt_of_lt_of_le hj ((win0 0).xsize_le (grid0.coords t) 1)
  have hidx : (win0 8).xinj (grid0.coords t) j' = ix2 (⟨(j' 0).val, h0⟩ : Fin 32) (⟨(j' 1).val, h1⟩ : Fin 512) := by
    funext a
    match a with
    | ⟨0, _⟩ => rfl
    | ⟨1, _⟩ => rfl
  have hn : 512 * t.val + (j' 1).val < 14541 := col_lt t (j' 1).val hj
  rw [View.read_apply, emb8 t j' h0 hn]
  show T8 c t (eblk m c t) (sb1 m c t) (sb2 m c t) (sb3 m c t) (sb4 m c t) (sb5 m c t) (sb6 m c t) ((win0 8).xinj (grid0.coords t) j') = _
  rw [hidx, T8_apply]
  unfold Cert.Rot.kerOut
  refine congrArg Neg.neg (Finset.sum_congr rfl fun r _ => ?_)
  rw [eblk_apply m c t (Cert.Rot.lo r) ⟨(j' 1).val, h1⟩ hj hn, eblk_apply m c t (Cert.Rot.hi r) ⟨(j' 1).val, h1⟩ hj hn]
  show Cert.Rot.kerCore _ _ ((iblk m c 4 t : S200x32.Idx → EReal) (ix2 r _)) ((iblk m c 5 t : S200x32.Idx → EReal) (ix2 r _))
    ((iblk m c 6 t : S200x32.Idx → EReal) (ix2 r _)) = _
  rw [iblk4_apply, iblk5_apply, iblk6_apply]

/-- The first result array after the run. -/
theorem final7 (c : Dev nD) :
    (vdats m 0 c).arrAt 7 cfg0.N = Cert.Rot.kerOut (va0 m c) (va1 m c) (va2 m c) (va3 m c) :=
  (vdats m 0 c).arrAt_eq_of_cover 7 _ (fun t _ => flushed7 m c t) arrCover7
/-- The second result array after the run. -/
theorem final8 (c : Dev nD) :
    (vdats m 0 c).arrAt 8 cfg0.N = Cert.Rot.kerOut (va0 m c) (va4 m c) (va5 m c) (va6 m c) :=
  (vdats m 0 c).arrAt_eq_of_cover 8 _ (fun t _ => flushed8 m c t) arrCover8

end Cert.KernelIdeal.Body

end
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.HostValue.lean ====
/- The kernel program's host lines before its launch, read at the extended reals: the seven operands the launch stages
   and the two moduli results, as the specification's functions of the argument arrays (the index words in range, so
   that the fill-mode take is the plain row gather).

   The prefix is seven stretches of host operations. Each stretch is read on its own, from arbitrary contents `W`: what
   it writes into the buffers later stretches read, and that it leaves the others alone. The three takes are the
   fill-mode take of rows at words known to be in range, hence the rows those words name; the last stretch is
   slices, cosine, sine, products, sums, square roots and transposes, read at one index. -/
import proofs.«414217_j69312182222862_3_alg».proof.KernelIdeal
import proofs.«414217_j69312182222862_3_alg».proof.Proof.Gen.KernelIdeal
import proofs.«414217_j69312182222862_3_alg».proof.Proof.Gen.KernelIdeal.Launch
import proofs.«414217_j69312182222862_3_alg».proof.Proof.Gen.KernelIdeal.Frame
import proofs.«414217_j69312182222862_3_alg».proof.Proof.Spec
import proofs.«414217_j69312182222862_3_alg».proof.Proof.LibGatherRow
import proofs.«414217_j69312182222862_3_alg».proof.Proof.LibTakeFill
import Idealize.ShloMosaic.Lib.Pipeline.Value

noncomputable section

open scoped BigOperators

namespace Cert.Rot.KHost

open Cert.KernelIdeal Cert.KernelIdeal.Gen Idealize.ShloMosaic Idealize.ShloMosaic.TcCoe Idealize.SL.Sem Idealize.ShloMosaic.ValueIdx
open Idealize.ShloMosaic.StableHlo

/-! ## Layout operations of this program read at an index -/

section Pure
variable {α : Type}

/-- A rank-2 transpose read at an index: the operand at the swapped coordinates. -/
theorem transpose2_apply {a b : Nat} (x : (⟨2, ![a, b]⟩ : Shape).Idx → α)
    (h : (⟨2, ![a, b]⟩ : Shape).Transposes [1, 0] ⟨2, ![b, a]⟩) (i : (⟨2, ![b, a]⟩ : Shape).Idx) :
    transpose ⟨2, ![b, a]⟩ [1, 0] x h i = x (ix2 (i 1) (i 0)) :=
  transpose_apply [1, 0] x h i (ix2 (i 1) (i 0)) fun d => match d with | ⟨0, _⟩ => rfl | ⟨1, _⟩ => rfl

/-- A slice of whole rows starting at column `o`, read at `(b, r)`: the operand at column `o + r`. -/
theorem sliceCol_apply {n C C' : Nat} (o : Nat) (x : (⟨2, ![n, C]⟩ : Shape).Idx → α)
    (h : (⟨2, ![n, C]⟩ : Shape).Slices ![0, o] ⟨2, ![n, C']⟩) (b : Fin n) (r : Fin C') (q : Fin C) (hq : q.val = o + r.val) :
    extractStridedSlice ⟨2, ![n, C']⟩ ![0, o] x h (ix2 b r) = x (ix2 b q) :=
  extractStridedSlice_apply ![0, o] x h (ix2 b r) (ix2 b q) fun a => match a with
    | ⟨0, _⟩ => by show b.val = 0 + b.val; omega
    | ⟨1, _⟩ => by show q.val = o + r.val; exact hq

/-- A one-column array read as a vector. -/
theorem dropCol_apply {n : Nat} (x : (⟨2, ![n, 1]⟩ : Shape).Idx → α) (h : (⟨2, ![n, 1]⟩ : Shape).ShapeCasts ⟨1, ![n]⟩)
    (i : (⟨1, ![n]⟩ : Shape).Idx) : shapeCast ⟨1, ![n]⟩ x h i = x (ix2 (i 0) 0) :=
  shapeCast_apply x h i (ix2 (i 0) 0) (by
    rw [Shape.rowMajor_val_two, Shape.rowMajor_val_one]
    show (i 0).val * 1 + 0 = (i 0).val
    omega)

/-- Column `k` of the index table as a vector of words. -/
theorem col_apply (k : Fin 3) (x : IVec S32x3 32) (h : S32x3.Slices ![0, k.val] S32x1) (hc : S32x1.ShapeCasts S32) (i : S32.Idx) :
    shapeCast S32 (extractStridedSlice S32x1 ![0, k.val] x h) hc i = x (ix2 (i 0) k) := by
  rw [dropCol_apply]
  exact sliceCol_apply k.val x h (i 0) 0 k (by show k.val = k.val + 0; omega)

end Pure

/-! ## The take in fill mode on in-range words -/

/-- A non-negative word is its own wrap. -/
theorem wrapWord_of_nonneg (N v : BitVec 32) (h : 0 ≤ v.toInt) : TakeFill.wrapWord N v = v := by
  unfold TakeFill.wrapWord
  have hc : IntOp.cmpi .slt v 0#32 = 0#1 :=
    eq_zero_of_ne_one fun h1 => by have := IntOp.cmpi_slt.1 h1; simp at this; omega
  rw [hc, select_zero]

/-- The take in fill mode of rows of a table `[N, C]` at 32 in-range words, read at `(k, j)`: entry `j` of the row the word
    `k` names. -/
theorem takeFill_rows {α : Type} {N C : Nat} (hN0 : 0 < N) (hN : N < 2 ^ 30) {u s₃ : Shape} {axes : List (Fin S32x1.rank)}
    (d : GatherDims ⟨2, ![N, C]⟩ ⟨2, ![32, 1]⟩ ⟨2, ![32, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (dims₀ : Fin (⟨0, ![]⟩ : Shape).rank → Fin S32.rank) (b₀ b₀' : (⟨0, ![]⟩ : Shape).BroadcastsInDim S32 dims₀)
    (b₁ : S32.BroadcastsInDim S32x1 ![0])
    (lo hi : IVec S32x1 32) (hlo : ∀ i, (lo i).toInt = 0) (hhi : ∀ i, (hi i).toInt = (N : Int) - 1)
    (init : u.Idx → BitVec 1) (hinit : ∀ k, init k = 1#1) (hred : S32x1.ReducesTo axes s₃) (hu : 0 < u.numel)
    (dims₅ : Fin s₃.rank → Fin (⟨2, ![32, C]⟩ : Shape).rank) (b₅ : s₃.BroadcastsInDim ⟨2, ![32, C]⟩ dims₅)
    (x : (⟨2, ![N, C]⟩ : Shape).Idx → α) (fill : (⟨2, ![32, C]⟩ : Shape).Idx → α) (idx : IVec S32 32)
    (hr : ∀ k, 0 ≤ (idx k).toInt ∧ (idx k).toInt < N) (k : Fin 32) (j : Fin C) :
    TakeFill.takeFill d N dims₀ b₀ b₀' ![0] b₁ lo hi init hred hu dims₅ b₅ x fill idx (ix2 k j)
      = x (ix2 ⟨min (idx (ix1 k)).toInt.toNat (N - 1), by omega⟩ j) := by
  rw [TakeFill.take_fill_eq_gather d N hN dims₀ b₀ b₀' ![0] b₁ lo hi hlo hhi init hinit hred hu dims₅ b₅ x fill idx
    (fun k => ⟨by have := (hr k).1; omega, (hr k).2⟩)]
  have hw : TakeFill.wrapped N dims₀ b₀ b₀' ![0] b₁ idx (ix2 k (0 : Fin 1)) = idx (ix1 k) := by
    unfold TakeFill.wrapped
    refine (broadcastInDim_apply ![0] b₁ _ (ix2 k (0 : Fin 1)) (ix1 k) (fun a => match a with | ⟨0, _⟩ => rfl)).trans ?_
    exact wrapWord_of_nonneg _ _ (hr _).1
  have hcongr : ∀ v w : BitVec 32, v = w → ∀ h1 h2,
      x (ix2 (⟨min v.toInt.toNat (N - 1), h1⟩ : Fin N) j) = x (ix2 (⟨min w.toInt.toNat (N - 1), h2⟩ : Fin N) j) := by
    intro v w e; subst e; intros; rfl
  exact (GatherRow.gather_rowTake_apply hN0 d ho hc hb hsb hm hv hs x _ k j).trans (hcongr _ _ hw _ _)

/-! ## The host stretches, one by one, from any contents `W` -/

section Stretches
variable (W : Valuation τ sig (Elt Ideal))

local macro "stretch" : tactic =>
  `(tactic| (dsimp only [hostOps0, hostOps0_1, hostOps0_2, hostOps0_3, hostOps0_4, hostOps0_5, hostOps0_6]; after_results_simp))

/-- The range test's lower bound, its two upper bounds, and the two fill arrays, as the program spells them. -/
abbrev loW : IVec S32x1 32 := broadcastInDim S32x1 ![] bcast_S_S32x1 (constantI S_ 32 0#32)
abbrev hiE : IVec S32x1 32 :=
  broadcastInDim S32x1 ![0, 1] bcast_S1x1_S32x1_0_1 (broadcastInDim S1x1 ![1] bcast_S1_S1x1_1 (constantI S1 32 14540#32))
abbrev hiR : IVec S32x1 32 :=
  broadcastInDim S32x1 ![0, 1] bcast_S1x1_S32x1_0_1 (broadcastInDim S1x1 ![1] bcast_S1_S1x1_1 (constantI S1 32 236#32))
abbrev fillE : S32x400.Idx → EReal := broadcastInDim S32x400 ![] bcast_S_S32x400 (constant (F := Ideal) S_ .f32 0x7FC00000#32)
abbrev fillR : S32x200.Idx → EReal := broadcastInDim S32x200 ![] bcast_S_S32x200 (constant (F := Ideal) S_ .f32 0x7FC00000#32)

/-- The take in fill mode of entity rows, as the program spells it. -/
abbrev takeE (x : S14541x400.Idx → EReal) (idx : IVec S32 32) : S32x400.Idx → EReal :=
  TakeFill.takeFill gather_S14541x400_S32x1_S32x400_1_0_n_n_0_1_1400 14541 ![] bcast_S_S32 bcast_S_S32 ![0] bcast_S32_S32x1_0
    loW hiE (constantI S_ 1 1#1) reducesTo_S32x1_S32_d1 h_S_ ![0] bcast_S32_S32x400_0 x fillE idx

/-- The take in fill mode of relation rows, as the program spells it. -/
abbrev takeR (x : S237x200.Idx → EReal) (idx : IVec S32 32) : S32x200.Idx → EReal :=
  TakeFill.takeFill gather_S237x200_S32x1_S32x200_1_0_n_n_0_1_1200 237 ![] bcast_S_S32 bcast_S_S32 ![0] bcast_S32_S32x1_0
    loW hiR (constantI S_ 1 1#1) reducesTo_S32x1_S32_d1 h_S_ ![0] bcast_S32_S32x200_0 x fillR idx

theorem takeE_apply (x : S14541x400.Idx → EReal) (idx : IVec S32 32)
    (hr : ∀ k, 0 ≤ (idx k).toInt ∧ (idx k).toInt < 14541) (k : Fin 32) (j : Fin 400) :
    takeE x idx (ix2 k j) = x (ix2 (rowOf 14540 (idx (ix1 k))) j) := by
  have h := takeFill_rows (N := 14541) (C := 400) (by omega) (by omega) gather_S14541x400_S32x1_S32x400_1_0_n_n_0_1_1400
    rfl rfl rfl rfl rfl rfl rfl ![] bcast_S_S32 bcast_S_S32 bcast_S32_S32x1_0 loW hiE (fun _ => rfl) (fun _ => rfl)
    (constantI S_ 1 1#1) (fun _ => rfl) reducesTo_S32x1_S32_d1 h_S_ ![0] bcast_S32_S32x400_0 x fillE idx hr k j
  exact h

theorem takeR_apply (x : S237x200.Idx → EReal) (idx : IVec S32 32)
    (hr : ∀ k, 0 ≤ (idx k).toInt ∧ (idx k).toInt < 237) (k : Fin 32) (j : Fin 200) :
    takeR x idx (ix2 k j) = x (ix2 (rowOf 236 (idx (ix1 k))) j) := by
  have h := takeFill_rows (N := 237) (C := 200) (by omega) (by omega) gather_S237x200_S32x1_S32x200_1_0_n_n_0_1_1200
    rfl rfl rfl rfl rfl rfl rfl ![] bcast_S_S32 bcast_S_S32 bcast_S32_S32x1_0 loW hiR (fun _ => rfl) (fun _ => rfl)
    (constantI S_ 1 1#1) (fun _ => rfl) reducesTo_S32x1_S32_d1 h_S_ ![0] bcast_S32_S32x200_0 x fillR idx hr k j
  exact h

/-! Stretch 0: column 0 of the index table. -/
theorem s0_v1 : (after (hostOps0 (F := Ideal)) W (Proc.devRef .tc main_v1) : S32.Idx → BitVec 32)
    = fun i => W (Proc.devRef .tc main_arg0) (ix2 (i 0) 0) := by
  stretch
  funext i
  exact col_apply 0 _ _ _ i
theorem s0_arg0 : after (hostOps0 (F := Ideal)) W (Proc.devRef .tc main_arg0) = W (Proc.devRef .tc main_arg0) := by stretch
theorem s0_arg1 : after (hostOps0 (F := Ideal)) W (Proc.devRef .tc main_arg1) = W (Proc.devRef .tc main_arg1) := by stretch
theorem s0_arg2 : after (hostOps0 (F := Ideal)) W (Proc.devRef .tc main_arg2) = W (Proc.devRef .tc main_arg2) := by stretch

/-! Stretch 1: the left entities' rows. -/
theorem s1_v2 : (after (hostOps0_1 (F := Ideal)) W (Proc.devRef .tc main_v2) : S32x400.Idx → EReal)
    = takeE (W (Proc.devRef .tc main_arg1)) (W (Proc.devRef .tc main_v1)) := by
  stretch
  rfl
theorem s1_arg0 : after (hostOps0_1 (F := Ideal)) W (Proc.devRef .tc main_arg0) = W (Proc.devRef .tc main_arg0) := by stretch
theorem s1_arg1 : after (hostOps0_1 (F := Ideal)) W (Proc.devRef .tc main_arg1) = W (Proc.devRef .tc main_arg1) := by stretch
theorem s1_arg2 : after (hostOps0_1 (F := Ideal)) W (Proc.devRef .tc main_arg2) = W (Proc.devRef .tc main_arg2) := by stretch

/-! Stretch 2: column 1 of the index table. -/
theorem s2_v4 : (after (hostOps0_2 (F := Ideal)) W (Proc.devRef .tc main_v4) : S32.Idx → BitVec 32)
    = fun i => W (Proc.devRef .tc main_arg0) (ix2 (i 0) 1) := by
  stretch
  funext i
  exact col_apply 1 _ _ _ i
theorem s2_v2 : after (hostOps0_2 (F := Ideal)) W (Proc.devRef .tc main_v2) = W (Proc.devRef .tc main_v2) := by stretch
theorem s2_arg0 : after (hostOps0_2 (F := Ideal)) W (Proc.devRef .tc main_arg0) = W (Proc.devRef .tc main_arg0) := by stretch
theorem s2_arg1 : after (hostOps0_2 (F := Ideal)) W (Proc.devRef .tc main_arg1) = W (Proc.devRef .tc main_arg1) := by stretch
theorem s2_arg2 : after (hostOps0_2 (F := Ideal)) W (Proc.devRef .tc main_arg2) = W (Proc.devRef .tc main_arg2) := by stretch

/-! Stretch 3: the relations' rows. -/
theorem s3_v5 : (after (hostOps0_3 (F := Ideal)) W (Proc.devRef .tc main_v5) : S32x200.Idx → EReal)
    = takeR (W (Proc.devRef .tc main_arg2)) (W (Proc.devRef .tc main_v4)) := by
  stretch
  rfl
theorem s3_v2 : after (hostOps0_3 (F := Ideal)) W (Proc.devRef .tc main_v2) = W (Proc.devRef .tc main_v2) := by stretch
theorem s3_arg0 : after (hostOps0_3 (F := Ideal)) W (Proc.devRef .tc main_arg0) = W (Proc.devRef .tc main_arg0) := by stretch
theorem s3_arg1 : after (hostOps0_3 (F := Ideal)) W (Proc.devRef .tc main_arg1) = W (Proc.devRef .tc main_arg1) := by stretch

/-- Turns to radians, entry by entry. -/
abbrev phase (x : S32x200.Idx → EReal) : S32x200.Idx → EReal := fun i => x i * c2pi

/-! Stretch 4: the phases in radians, and column 2 of the index table. -/
theorem s4_v7 : (after (hostOps0_4 (F := Ideal)) W (Proc.devRef .tc main_v7) : S32x200.Idx → EReal)
    = phase (W (Proc.devRef .tc main_v5)) := by
  stretch
  rfl
theorem s4_v9 : (after (hostOps0_4 (F := Ideal)) W (Proc.devRef .tc main_v9) : S32.Idx → BitVec 32)
    = fun i => W (Proc.devRef .tc main_arg0) (ix2 (i 0) 2) := by
  stretch
  funext i
  exact col_apply 2 _ _ _ i
theorem s4_v2 : after (hostOps0_4 (F := Ideal)) W (Proc.devRef .tc main_v2) = W (Proc.devRef .tc main_v2) := by stretch
theorem s4_arg1 : after (hostOps0_4 (F := Ideal)) W (Proc.devRef .tc main_arg1) = W (Proc.devRef .tc main_arg1) := by stretch

/-! Stretch 5: the right entities' rows. -/
theorem s5_v10 : (after (hostOps0_5 (F := Ideal)) W (Proc.devRef .tc main_v10) : S32x400.Idx → EReal)
    = takeE (W (Proc.devRef .tc main_arg1)) (W (Proc.devRef .tc main_v9)) := by
  stretch
  rfl
theorem s5_v2 : after (hostOps0_5 (F := Ideal)) W (Proc.devRef .tc main_v2) = W (Proc.devRef .tc main_v2) := by stretch
theorem s5_v7 : after (hostOps0_5 (F := Ideal)) W (Proc.devRef .tc main_v7) = W (Proc.devRef .tc main_v7) := by stretch
theorem s5_arg1 : after (hostOps0_5 (F := Ideal)) W (Proc.devRef .tc main_arg1) = W (Proc.devRef .tc main_arg1) := by stretch

end Stretches

/-! Stretch 6: the arithmetic. The program's terms as functions of the three gathered arrays, and each read at one index. -/

section Arith
variable (e : FVec Ideal S32x400 .f32) (t : FVec Ideal S32x200 .f32)

/-- The real-part and imaginary-part halves of gathered rows, as the program slices them. -/
abbrev slLo : FVec Ideal S32x200 .f32 := extractStridedSlice S32x200 ![0, 0] e slices_S32x400_S32x200_0_0
abbrev slHi : FVec Ideal S32x200 .f32 := extractStridedSlice S32x200 ![0, 200] e slices_S32x400_S32x200_0_200

theorem slLo_apply (b : Fin 32) (r : Fin 200) : slLo e (ix2 b r) = e (ix2 b (lo r)) :=
  sliceCol_apply 0 e _ b r (lo r) (by show r.val = 0 + r.val; omega)
theorem slHi_apply (b : Fin 32) (r : Fin 200) : slHi e (ix2 b r) = e (ix2 b (hi r)) :=
  sliceCol_apply 200 e _ b r (hi r) (by show r.val + 200 = 200 + r.val; omega)

/-- The program's terms: the rotated left coordinate, its squared modulus, the right coordinate against the rotation,
    a gathered coordinate's squared modulus. -/
abbrev pQre : FVec Ideal S32x200 .f32 := subf (mulf (slLo e) (Host.cos t)) (mulf (slHi e) (Host.sin t))
abbrev pQim : FVec Ideal S32x200 .f32 := addf (mulf (slLo e) (Host.sin t)) (mulf (slHi e) (Host.cos t))
abbrev pQ2 : FVec Ideal S32x200 .f32 := addf (mulf (pQre e t) (pQre e t)) (mulf (pQim e t) (pQim e t))
abbrev pAlpha : FVec Ideal S32x200 .f32 := addf (mulf (Host.cos t) (slLo e)) (mulf (Host.sin t) (slHi e))
abbrev pBeta : FVec Ideal S32x200 .f32 := subf (mulf (Host.cos t) (slHi e)) (mulf (Host.sin t) (slLo e))
abbrev pSq : FVec Ideal S32x200 .f32 := addf (mulf (slLo e) (slLo e)) (mulf (slHi e) (slHi e))
abbrev pNorm : FVec Ideal S32x200 .f32 := Host.sqrt (pSq e)

variable (b : Fin 32) (r : Fin 200)

theorem pQre_apply : pQre e t (ix2 b r)
    = e (ix2 b (lo r)) * Ideal.cos (t (ix2 b r)) - e (ix2 b (hi r)) * Ideal.sin (t (ix2 b r)) := by
  show slLo e (ix2 b r) * Ideal.cos (t (ix2 b r)) - slHi e (ix2 b r) * Ideal.sin (t (ix2 b r)) = _
  rw [slLo_apply, slHi_apply]
theorem pQim_apply : pQim e t (ix2 b r)
    = e (ix2 b (lo r)) * Ideal.sin (t (ix2 b r)) + e (ix2 b (hi r)) * Ideal.cos (t (ix2 b r)) := by
  show slLo e (ix2 b r) * Ideal.sin (t (ix2 b r)) + slHi e (ix2 b r) * Ideal.cos (t (ix2 b r)) = _
  rw [slLo_apply, slHi_apply]
theorem pQ2_apply : pQ2 e t (ix2 b r)
    = pQre e t (ix2 b r) * pQre e t (ix2 b r) + pQim e t (ix2 b r) * pQim e t (ix2 b r) := rfl
theorem pAlpha_apply : pAlpha e t (ix2 b r)
    = Ideal.cos (t (ix2 b r)) * e (ix2 b (lo r)) + Ideal.sin (t (ix2 b r)) * e (ix2 b (hi r)) := by
  show Ideal.cos (t (ix2 b r)) * slLo e (ix2 b r) + Ideal.sin (t (ix2 b r)) * slHi e (ix2 b r) = _
  rw [slLo_apply, slHi_apply]
theorem pBeta_apply : pBeta e t (ix2 b r)
    = Ideal.cos (t (ix2 b r)) * e (ix2 b (hi r)) - Ideal.sin (t (ix2 b r)) * e (ix2 b (lo r)) := by
  show Ideal.cos (t (ix2 b r)) * slHi e (ix2 b r) - Ideal.sin (t (ix2 b r)) * slLo e (ix2 b r) = _
  rw [slLo_apply, slHi_apply]
theorem pSq_apply : pSq e (ix2 b r) = e (ix2 b (lo r)) * e (ix2 b (lo r)) + e (ix2 b (hi r)) * e (ix2 b (hi r)) := by
  show slLo e (ix2 b r) * slLo e (ix2 b r) + slHi e (ix2 b r) * slHi e (ix2 b r) = _
  rw [slLo_apply, slHi_apply]
theorem pNorm_apply : pNorm e (ix2 b r)
    = Ideal.sqrt (e (ix2 b (lo r)) * e (ix2 b (lo r)) + e (ix2 b (hi r)) * e (ix2 b (hi r))) := by
  show Ideal.sqrt (pSq e (ix2 b r)) = _
  rw [pSq_apply]

end Arith

section Stretch6
variable (W : Valuation τ sig (Elt Ideal))

local macro "stretch" : tactic =>
  `(tactic| (dsimp only [hostOps0, hostOps0_1, hostOps0_2, hostOps0_3, hostOps0_4, hostOps0_5, hostOps0_6]; after_results_simp))

theorem s6_v43 : (after (hostOps0_6 (F := Ideal)) W (Proc.devRef .tc main_v43) : S200x32.Idx → EReal)
    = transpose S200x32 [1, 0] (pQre (W (Proc.devRef .tc main_v2)) (W (Proc.devRef .tc main_v7))) transposes_S32x200_S200x32_1_0 := by
  stretch <;> rfl
theorem s6_v44 : (after (hostOps0_6 (F := Ideal)) W (Proc.devRef .tc main_v44) : S200x32.Idx → EReal)
    = transpose S200x32 [1, 0] (pQim (W (Proc.devRef .tc main_v2)) (W (Proc.devRef .tc main_v7))) transposes_S32x200_S200x32_1_0 := by
  stretch <;> rfl
theorem s6_v45 : (after (hostOps0_6 (F := Ideal)) W (Proc.devRef .tc main_v45) : S200x32.Idx → EReal)
    = transpose S200x32 [1, 0] (pQ2 (W (Proc.devRef .tc main_v2)) (W (Proc.devRef .tc main_v7))) transposes_S32x200_S200x32_1_0 := by
  stretch <;> rfl
theorem s6_v46 : (after (hostOps0_6 (F := Ideal)) W (Proc.devRef .tc main_v46) : S200x32.Idx → EReal)
    = transpose S200x32 [1, 0] (pAlpha (W (Proc.devRef .tc main_v10)) (W (Proc.devRef .tc main_v7))) transposes_S32x200_S200x32_1_0 := by
  stretch <;> rfl
theorem s6_v47 : (after (hostOps0_6 (F := Ideal)) W (Proc.devRef .tc main_v47) : S200x32.Idx → EReal)
    = transpose S200x32 [1, 0] (pBeta (W (Proc.devRef .tc main_v10)) (W (Proc.devRef .tc main_v7))) transposes_S32x200_S200x32_1_0 := by
  stretch <;> rfl
theorem s6_v48 : (after (hostOps0_6 (F := Ideal)) W (Proc.devRef .tc main_v48) : S200x32.Idx → EReal)
    = transpose S200x32 [1, 0] (pSq (W (Proc.devRef .tc main_v10))) transposes_S32x200_S200x32_1_0 := by
  stretch <;> rfl
theorem s6_v38 : (after (hostOps0_6 (F := Ideal)) W (Proc.devRef .tc main_v38) : S32x200.Idx → EReal)
    = pNorm (W (Proc.devRef .tc main_v2)) := by
  stretch <;> rfl
theorem s6_v42 : (after (hostOps0_6 (F := Ideal)) W (Proc.devRef .tc main_v42) : S32x200.Idx → EReal)
    = pNorm (W (Proc.devRef .tc main_v10)) := by
  stretch <;> rfl
theorem s6_v49 : (after (hostOps0_6 (F := Ideal)) W (Proc.devRef .tc main_v49) : S400x14541.Idx → EReal)
    = transpose S400x14541 [1, 0] (W (Proc.devRef .tc main_arg1)) transposes_S14541x400_S400x14541_1_0 := by
  stretch <;> rfl

end Stretch6

/-! ## The whole prefix -/

section Whole
variable (W0 : Valuation τ sig (Elt Ideal))

/-- The contents the arithmetic stretch finds: after the six stretches before it. -/
abbrev pre6 : Valuation τ sig (Elt Ideal) :=
  after hostOps0_5 (after hostOps0_4 (after hostOps0_3 (after hostOps0_2 (after hostOps0_1 (after hostOps0 W0)))))

/-- It finds the entity table as launched. -/
theorem pre6_arg1 : pre6 W0 (Proc.devRef .tc main_arg1) = W0 (Proc.devRef .tc main_arg1) := by
  dsimp only [pre6]
  rw [s5_arg1, s4_arg1, s3_arg1, s2_arg1, s1_arg1, s0_arg1]

variable (hx : InRange (W0 (Proc.devRef .tc main_arg0)))
include hx

/-- It finds the left entities' rows in `main_v2`. -/
theorem pre6_v2 : (pre6 W0 (Proc.devRef .tc main_v2) : S32x400.Idx → EReal)
    = entRows 0 (W0 (Proc.devRef .tc main_arg0)) (W0 (Proc.devRef .tc main_arg1)) := by
  dsimp only [pre6]
  rw [s5_v2, s4_v2, s3_v2, s2_v2, s1_v2, s0_arg1, s0_v1]
  funext i
  obtain ⟨b, j, rfl⟩ : ∃ b j, i = ix2 b j := ⟨i 0, i 1, eq_ix2 i⟩
  exact (takeE_apply _ _ (fun k => ⟨hx.nonneg (k 0) 0, hx.lt0 (k 0)⟩) b j).trans rfl

/-- It finds the right entities' rows in `main_v10`. -/
theorem pre6_v10 : (pre6 W0 (Proc.devRef .tc main_v10) : S32x400.Idx → EReal)
    = entRows 2 (W0 (Proc.devRef .tc main_arg0)) (W0 (Proc.devRef .tc main_arg1)) := by
  dsimp only [pre6]
  rw [s5_v10, s4_arg1, s3_arg1, s2_arg1, s1_arg1, s0_arg1, s4_v9, s3_arg0, s2_arg0, s1_arg0, s0_arg0]
  funext i
  obtain ⟨b, j, rfl⟩ : ∃ b j, i = ix2 b j := ⟨i 0, i 1, eq_ix2 i⟩
  exact (takeE_apply _ _ (fun k => ⟨hx.nonneg (k 0) 2, hx.lt2 (k 0)⟩) b j).trans rfl

/-- It finds the relations' phases, in radians, in `main_v7`. -/
theorem pre6_v7 : (pre6 W0 (Proc.devRef .tc main_v7) : S32x200.Idx → EReal)
    = phase (relRows (W0 (Proc.devRef .tc main_arg0)) (W0 (Proc.devRef .tc main_arg2))) := by
  dsimp only [pre6]
  rw [s5_v7, s4_v7, s3_v5, s2_arg2, s1_arg2, s0_arg2, s2_v4, s1_arg0, s0_arg0]
  congr 1
  funext i
  obtain ⟨b, j, rfl⟩ : ∃ b j, i = ix2 b j := ⟨i 0, i 1, eq_ix2 i⟩
  exact (takeR_apply _ _ (fun k => ⟨hx.nonneg (k 0) 1, hx.lt1 (k 0)⟩) b j).trans rfl

/-- The nine arrays after the whole prefix, from any launched contents with in-range index words. -/
theorem ops_of :
    (after hostOps0_6 (pre6 W0) (Proc.devRef .tc main_v49) : SET.Idx → EReal) = embT (W0 (Proc.devRef .tc main_arg1))
    ∧ (after hostOps0_6 (pre6 W0) (Proc.devRef .tc main_v43) : SQT.Idx → EReal)
        = qreT (W0 (Proc.devRef .tc main_arg0)) (W0 (Proc.devRef .tc main_arg1)) (W0 (Proc.devRef .tc main_arg2))
    ∧ (after hostOps0_6 (pre6 W0) (Proc.devRef .tc main_v44) : SQT.Idx → EReal)
        = qimT (W0 (Proc.devRef .tc main_arg0)) (W0 (Proc.devRef .tc main_arg1)) (W0 (Proc.devRef .tc main_arg2))
    ∧ (after hostOps0_6 (pre6 W0) (Proc.devRef .tc main_v45) : SQT.Idx → EReal)
        = q2T (W0 (Proc.devRef .tc main_arg0)) (W0 (Proc.devRef .tc main_arg1)) (W0 (Proc.devRef .tc main_arg2))
    ∧ (after hostOps0_6 (pre6 W0) (Proc.devRef .tc main_v46) : SQT.Idx → EReal)
        = alphaT (W0 (Proc.devRef .tc main_arg0)) (W0 (Proc.devRef .tc main_arg1)) (W0 (Proc.devRef .tc main_arg2))
    ∧ (after hostOps0_6 (pre6 W0) (Proc.devRef .tc main_v47) : SQT.Idx → EReal)
        = betaT (W0 (Proc.devRef .tc main_arg0)) (W0 (Proc.devRef .tc main_arg1)) (W0 (Proc.devRef .tc main_arg2))
    ∧ (after hostOps0_6 (pre6 W0) (Proc.devRef .tc main_v48) : SQT.Idx → EReal)
        = r2T (W0 (Proc.devRef .tc main_arg0)) (W0 (Proc.devRef .tc main_arg1))
    ∧ (after hostOps0_6 (pre6 W0) (Proc.devRef .tc main_v38) : SN.Idx → EReal)
        = normOut 0 (W0 (Proc.devRef .tc main_arg0)) (W0 (Proc.devRef .tc main_arg1))
    ∧ (after hostOps0_6 (pre6 W0) (Proc.devRef .tc main_v42) : SN.Idx → EReal)
        = normOut 2 (W0 (Proc.devRef .tc main_arg0)) (W0 (Proc.devRef .tc main_arg1)) := by
  refine ⟨?_, ?_, ?_, ?_, ?_, ?_, ?_, ?_, ?_⟩
  · funext i
    obtain ⟨q, n, rfl⟩ : ∃ q n, i = ix2 q n := ⟨i 0, i 1, eq_ix2 i⟩
    rw [s6_v49, transpose2_apply, pre6_arg1]
    rfl
  · funext i
    obtain ⟨r, b, rfl⟩ : ∃ r b, i = ix2 r b := ⟨i 0, i 1, eq_ix2 i⟩
    rw [s6_v43, transpose2_apply, pre6_v2 W0 hx, pre6_v7 W0 hx]
    exact pQre_apply _ _ b r
  · funext i
    obtain ⟨r, b, rfl⟩ : ∃ r b, i = ix2 r b := ⟨i 0, i 1, eq_ix2 i⟩
    rw [s6_v44, transpose2_apply, pre6_v2 W0 hx, pre6_v7 W0 hx]
    exact pQim_apply _ _ b r
  · funext i
    obtain ⟨r, b, rfl⟩ : ∃ r b, i = ix2 r b := ⟨i 0, i 1, eq_ix2 i⟩
    rw [s6_v45, transpose2_apply, pre6_v2 W0 hx, pre6_v7 W0 hx]
    refine (pQ2_apply _ _ b r).trans ?_
    rw [pQre_apply, pQim_apply]
    rfl
  · funext i
    obtain ⟨r, b, rfl⟩ : ∃ r b, i = ix2 r b := ⟨i 0, i 1, eq_ix2 i⟩
    rw [s6_v46, transpose2_apply, pre6_v10 W0 hx, pre6_v7 W0 hx]
    exact pAlpha_apply _ _ b r
  · funext i
    obtain ⟨r, b, rfl⟩ : ∃ r b, i = ix2 r b := ⟨i 0, i 1, eq_ix2 i⟩
    rw [s6_v47, transpose2_apply, pre6_v10 W0 hx, pre6_v7 W0 hx]
    exact pBeta_apply _ _ b r
  · funext i
    obtain ⟨r, b, rfl⟩ : ∃ r b, i = ix2 r b := ⟨i 0, i 1, eq_ix2 i⟩
    rw [s6_v48, transpose2_apply, pre6_v10 W0 hx]
    exact pSq_apply _ b r
  · funext i
    obtain ⟨b, r, rfl⟩ : ∃ b r, i = ix2 b r := ⟨i 0, i 1, eq_ix2 i⟩
    rw [s6_v38, pre6_v2 W0 hx]
    exact pNorm_apply _ b r
  · funext i
    obtain ⟨b, r, rfl⟩ : ∃ b r, i = ix2 b r := ⟨i 0, i 1, eq_ix2 i⟩
    rw [s6_v42, pre6_v10 W0 hx]
    exact pNorm_apply _ b r

end Whole

variable (m : (ℓ : Loc nD τ sig) → Buf (Elt Ideal) ℓ)

/-- The host prefix, stretch by stretch. -/
theorem V_stages (c : Dev nD) (b : Ref sig .tc) :
    V m c b = after hostOps0_6 (pre6 (fun b => m (c, b))) (Proc.devRef .tc b) := by
  show after (List.flatten [hostOps0, hostOps0_1, hostOps0_2, hostOps0_3, hostOps0_4, hostOps0_5, hostOps0_6]) _ _ = _
  simp only [List.flatten_cons, List.flatten_nil, List.append_nil, StableHlo.after_append]

section Windows
variable (c : Dev nD) (hx : InRange (m ((c.tc : Thread nD τ).loc main_arg0)))
include hx

/-- Window 0's array: the entity table with ranks on the rows. -/
theorem V_emb : V m c (Pipeline.arrRef spec0 0) = embT (m ((c.tc : Thread nD τ).loc main_arg1)) :=
  (V_stages m c main_v49).trans (ops_of (fun b => m (c, b)) hx).1

/-- Window 1's array: the rotated left coordinate's real part. -/
theorem V_qre : V m c (Pipeline.arrRef spec0 1) = qreT (m ((c.tc : Thread nD τ).loc main_arg0)) (m ((c.tc : Thread nD τ).loc main_arg1)) (m ((c.tc : Thread nD τ).loc main_arg2)) :=
  (V_stages m c main_v43).trans (ops_of (fun b => m (c, b)) hx).2.1

/-- Window 2's array: the rotated left coordinate's imaginary part. -/
theorem V_qim : V m c (Pipeline.arrRef spec0 2) = qimT (m ((c.tc : Thread nD τ).loc main_arg0)) (m ((c.tc : Thread nD τ).loc main_arg1)) (m ((c.tc : Thread nD τ).loc main_arg2)) :=
  (V_stages m c main_v44).trans (ops_of (fun b => m (c, b)) hx).2.2.1

/-- Window 3's array: the rotated left coordinate's squared modulus. -/
theorem V_q2 : V m c (Pipeline.arrRef spec0 3) = q2T (m ((c.tc : Thread nD τ).loc main_arg0)) (m ((c.tc : Thread nD τ).loc main_arg1)) (m ((c.tc : Thread nD τ).loc main_arg2)) :=
  (V_stages m c main_v45).trans (ops_of (fun b => m (c, b)) hx).2.2.2.1

/-- Window 4's array: the right coordinate against the rotation, first part. -/
theorem V_alpha : V m c (Pipeline.arrRef spec0 4) = alphaT (m ((c.tc : Thread nD τ).loc main_arg0)) (m ((c.tc : Thread nD τ).loc main_arg1)) (m ((c.tc : Thread nD τ).loc main_arg2)) :=
  (V_stages m c main_v46).trans (ops_of (fun b => m (c, b)) hx).2.2.2.2.1

/-- Window 5's array: the right coordinate against the rotation, second part. -/
theorem V_beta : V m c (Pipeline.arrRef spec0 5) = betaT (m ((c.tc : Thread nD τ).loc main_arg0)) (m ((c.tc : Thread nD τ).loc main_arg1)) (m ((c.tc : Thread nD τ).loc main_arg2)) :=
  (V_stages m c main_v47).trans (ops_of (fun b => m (c, b)) hx).2.2.2.2.2.1

/-- Window 6's array: the right coordinate's squared modulus. -/
theorem V_r2 : V m c (Pipeline.arrRef spec0 6) = r2T (m ((c.tc : Thread nD τ).loc main_arg0)) (m ((c.tc : Thread nD τ).loc main_arg1)) :=
  (V_stages m c main_v48).trans (ops_of (fun b => m (c, b)) hx).2.2.2.2.2.2.1

/-- The left entities' moduli. -/
theorem V_norm0 : V m c (main_v38) = normOut 0 (m ((c.tc : Thread nD τ).loc main_arg0)) (m ((c.tc : Thread nD τ).loc main_arg1)) :=
  (V_stages m c main_v38).trans (ops_of (fun b => m (c, b)) hx).2.2.2.2.2.2.2.1

/-- The right entities' moduli. -/
theorem V_norm2 : V m c (main_v42) = normOut 2 (m ((c.tc : Thread nD τ).loc main_arg0)) (m ((c.tc : Thread nD τ).loc main_arg1)) :=
  (V_stages m c main_v42).trans (ops_of (fun b => m (c, b)) hx).2.2.2.2.2.2.2.2

end Windows

/-- The launch's seven operand arrays and the two moduli, as the region finds them. `A0 A1 A2` are the argument arrays. -/
theorem V_ops (c : Dev nD) (hx : InRange (m ((c.tc : Thread nD τ).loc main_arg0))) :
    let A0 := m ((c.tc : Thread nD τ).loc main_arg0)
    let A1 := m ((c.tc : Thread nD τ).loc main_arg1)
    let A2 := m ((c.tc : Thread nD τ).loc main_arg2)
    V m c (Pipeline.arrRef spec0 0) = embT A1
    ∧ V m c (Pipeline.arrRef spec0 1) = qreT A0 A1 A2
    ∧ V m c (Pipeline.arrRef spec0 2) = qimT A0 A1 A2
    ∧ V m c (Pipeline.arrRef spec0 3) = q2T A0 A1 A2
    ∧ V m c (Pipeline.arrRef spec0 4) = alphaT A0 A1 A2
    ∧ V m c (Pipeline.arrRef spec0 5) = betaT A0 A1 A2
    ∧ V m c (Pipeline.arrRef spec0 6) = r2T A0 A1
    ∧ V m c main_v38 = normOut 0 A0 A1
    ∧ V m c main_v42 = normOut 2 A0 A1 :=
  ⟨V_emb m c hx, V_qre m c hx, V_qim m c hx, V_q2 m c hx, V_alpha m c hx, V_beta m c hx, V_r2 m c hx, V_norm0 m c hx,
    V_norm2 m c hx⟩

end Cert.Rot.KHost

end
-- ==== Proof.RefValue.lean ====
/- The reference's run read back: its four results are the specification's functions of the argument arrays. -/
import proofs.«414217_j69312182222862_3_alg».proof.ReferenceIdeal
import proofs.«414217_j69312182222862_3_alg».proof.Proof.Gen.ReferenceIdeal
import proofs.«414217_j69312182222862_3_alg».proof.Proof.Gen.ReferenceIdeal.Run
import proofs.«414217_j69312182222862_3_alg».proof.Proof.Gen.ReferenceIdeal.Read
import proofs.«414217_j69312182222862_3_alg».proof.Proof.Spec
import proofs.«414217_j69312182222862_3_alg».proof.Proof.LibGatherRow

noncomputable section

open scoped BigOperators

namespace Cert.Rot.Ref

open Cert.ReferenceIdeal Cert.ReferenceIdeal.Gen Cert.ReferenceIdeal.Read Idealize.ShloMosaic Idealize.ShloMosaic.TcCoe Idealize.SL.Sem Idealize.ShloMosaic.ValueIdx

/-! ## The index words the three gathers start from -/

/-- A non-negative word is not below zero, so the wrap-around of a negative index leaves it as it is. -/
theorem wrap_of_nonneg (v N : BitVec 32) (h : 0 ≤ v.toInt) :
    Scalar.select (IntOp.cmpi .slt v 0#32) (IntOp.addi v N) v = v := by
  unfold Scalar.select
  refine if_neg fun hc => ?_
  have h1 := IntOp.cmpi_slt.mp hc
  have h0 : (0#32 : BitVec 32).toInt = 0 := by decide
  omega

/-- The start index of the first gather at query `b`: the query's column-0 word. -/
theorem start0 (x : IVec SX 32) (hx : InRange x) (b : Fin 32) :
    val_main_v7 (F := Ideal) x (ix2 b (0 : Fin 1)) = x (ix2 b (0 : Fin 3)) := by
  have hi : idx_main_v0 (idx_main_v1 (idx_main_v7 (ix2 b (0 : Fin 1)))) = ix2 b (0 : Fin 3) :=
    funext fun a => Fin.ext (by match a with | ⟨0, _⟩ => exact Nat.div_one _ | ⟨1, _⟩ => rfl)
  rw [val_main_v7_apply, val_main_v6_apply, val_main_v3_apply, val_main_v5_apply, val_main_v1_apply, val_main_v0_apply,
    val_main_v2_apply, val_main_c_apply, hi]
  exact wrap_of_nonneg _ _ (hx.nonneg b 0)

/-- The start index of the second gather at query `b`: the query's column-1 word. -/
theorem start1 (x : IVec SX 32) (hx : InRange x) (b : Fin 32) :
    val_main_v16 (F := Ideal) x (ix2 b (0 : Fin 1)) = x (ix2 b (1 : Fin 3)) := by
  have hi : idx_main_v9 (idx_main_v10 (idx_main_v16 (ix2 b (0 : Fin 1)))) = ix2 b (1 : Fin 3) :=
    funext fun a => Fin.ext (by match a with | ⟨0, _⟩ => exact Nat.div_one _ | ⟨1, _⟩ => rfl)
  rw [val_main_v16_apply, val_main_v15_apply, val_main_v12_apply, val_main_v14_apply, val_main_v10_apply, val_main_v9_apply,
    val_main_v11_apply, val_main_c_1_apply, hi]
  exact wrap_of_nonneg _ _ (hx.nonneg b 1)

/-- The start index of the third gather at query `b`: the query's column-2 word. -/
theorem start2 (x : IVec SX 32) (hx : InRange x) (b : Fin 32) :
    val_main_v27 (F := Ideal) x (ix2 b (0 : Fin 1)) = x (ix2 b (2 : Fin 3)) := by
  have hi : idx_main_v20 (idx_main_v21 (idx_main_v27 (ix2 b (0 : Fin 1)))) = ix2 b (2 : Fin 3) :=
    funext fun a => Fin.ext (by match a with | ⟨0, _⟩ => exact Nat.div_one _ | ⟨1, _⟩ => rfl)
  rw [val_main_v27_apply, val_main_v26_apply, val_main_v23_apply, val_main_v25_apply, val_main_v21_apply, val_main_v20_apply,
    val_main_v22_apply, val_main_c_3_apply, hi]
  exact wrap_of_nonneg _ _ (hx.nonneg b 2)

/-! ## The three gathers: the rows the queries name -/

/-- The first gather takes the left entities' rows. -/
theorem gatherL (x : IVec SX 32) (E : SE.Idx → EReal) (hx : InRange x) :
    val_main_v8 (F := Ideal) x E = entRows 0 x E := by
  funext i
  obtain ⟨b, j, rfl⟩ : ∃ (b : Fin 32) (j : Fin 400), i = ix2 b j := ⟨i 0, i 1, eq_ix2 i⟩
  unfold val_main_v8
  rw [GatherRow.gather_rowTake_apply (by decide) _ rfl rfl rfl rfl rfl rfl rfl]
  show E (ix2 _ j) = E (ix2 (rowOf 14540 (x (ix2 b (0 : Fin 3)))) j)
  refine congrArg (fun k => E (ix2 k j)) (Fin.ext ?_)
  exact congrArg (fun v : BitVec 32 => min v.toInt.toNat 14540) (start0 x hx b)

/-- The second gather takes the relations' rows. -/
theorem gatherT (x : IVec SX 32) (R : SR.Idx → EReal) (hx : InRange x) :
    val_main_v17 (F := Ideal) x R = relRows x R := by
  funext i
  obtain ⟨b, j, rfl⟩ : ∃ (b : Fin 32) (j : Fin 200), i = ix2 b j := ⟨i 0, i 1, eq_ix2 i⟩
  unfold val_main_v17
  rw [GatherRow.gather_rowTake_apply (by decide) _ rfl rfl rfl rfl rfl rfl rfl]
  show R (ix2 _ j) = R (ix2 (rowOf 236 (x (ix2 b (1 : Fin 3)))) j)
  refine congrArg (fun k => R (ix2 k j)) (Fin.ext ?_)
  exact congrArg (fun v : BitVec 32 => min v.toInt.toNat 236) (start1 x hx b)

/-- The third gather takes the right entities' rows. -/
theorem gatherR (x : IVec SX 32) (E : SE.Idx → EReal) (hx : InRange x) :
    val_main_v28 (F := Ideal) x E = entRows 2 x E := by
  funext i
  obtain ⟨b, j, rfl⟩ : ∃ (b : Fin 32) (j : Fin 400), i = ix2 b j := ⟨i 0, i 1, eq_ix2 i⟩
  unfold val_main_v28
  rw [GatherRow.gather_rowTake_apply (by decide) _ rfl rfl rfl rfl rfl rfl rfl]
  show E (ix2 _ j) = E (ix2 (rowOf 14540 (x (ix2 b (2 : Fin 3)))) j)
  refine congrArg (fun k => E (ix2 k j)) (Fin.ext ?_)
  exact congrArg (fun v : BitVec 32 => min v.toInt.toNat 14540) (start2 x hx b)

/-! ## The operands rank by rank: table columns, gathered rows, the rotation -/

/-- The table's real-part half at `(n, r)`. -/
theorem tab_lo (E : SE.Idx → EReal) (l : S14541x200.Idx) :
    val_main_v35 (F := Ideal) E l = E (ix2 (l 0) (lo (l 1))) := by
  rw [val_main_v35_apply]
  exact congrArg E (funext fun a => Fin.ext (by match a with | ⟨0, _⟩ => rfl | ⟨1, _⟩ => rfl))

/-- The table's imaginary-part half at `(n, r)`. -/
theorem tab_hi (E : SE.Idx → EReal) (l : S14541x200.Idx) :
    val_main_v36 (F := Ideal) E l = E (ix2 (l 0) (hi (l 1))) := by
  rw [val_main_v36_apply]
  exact congrArg E (funext fun a => Fin.ext (by match a with | ⟨0, _⟩ => rfl | ⟨1, _⟩ => exact Nat.add_comm _ _))

/-- The left entity's real part at `(b, r)`. -/
theorem left_lo (x : IVec SX 32) (E : SE.Idx → EReal) (hx : InRange x) (l : S32x200.Idx) :
    val_main_v29 (F := Ideal) x E l = entRows 0 x E (ix2 (l 0) (lo (l 1))) := by
  rw [val_main_v29_apply, gatherL x E hx]
  exact congrArg (entRows 0 x E) (funext fun a => Fin.ext (by match a with | ⟨0, _⟩ => rfl | ⟨1, _⟩ => rfl))

/-- The left entity's imaginary part at `(b, r)`. -/
theorem left_hi (x : IVec SX 32) (E : SE.Idx → EReal) (hx : InRange x) (l : S32x200.Idx) :
    val_main_v30 (F := Ideal) x E l = entRows 0 x E (ix2 (l 0) (hi (l 1))) := by
  rw [val_main_v30_apply, gatherL x E hx]
  exact congrArg (entRows 0 x E) (funext fun a => Fin.ext (by match a with | ⟨0, _⟩ => rfl | ⟨1, _⟩ => exact Nat.add_comm _ _))

/-- The right entity's real part at `(b, r)`. -/
theorem right_lo (x : IVec SX 32) (E : SE.Idx → EReal) (hx : InRange x) (l : S32x200.Idx) :
    val_main_v31 (F := Ideal) x E l = entRows 2 x E (ix2 (l 0) (lo (l 1))) := by
  rw [val_main_v31_apply, gatherR x E hx]
  exact congrArg (entRows 2 x E) (funext fun a => Fin.ext (by match a with | ⟨0, _⟩ => rfl | ⟨1, _⟩ => rfl))

/-- The right entity's imaginary part at `(b, r)`. -/
theorem right_hi (x : IVec SX 32) (E : SE.Idx → EReal) (hx : InRange x) (l : S32x200.Idx) :
    val_main_v32 (F := Ideal) x E l = entRows 2 x E (ix2 (l 0) (hi (l 1))) := by
  rw [val_main_v32_apply, gatherR x E hx]
  exact congrArg (entRows 2 x E) (funext fun a => Fin.ext (by match a with | ⟨0, _⟩ => rfl | ⟨1, _⟩ => exact Nat.add_comm _ _))

/-- The relation's phase at `(b, r)`, in radians. -/
theorem phase (x : IVec SX 32) (R : SR.Idx → EReal) (hx : InRange x) (l : S32x200.Idx) :
    val_main_v19 (F := Ideal) x R l = relRows x R (ix2 (l 0) (l 1)) * c2pi := by
  obtain ⟨b, r, rfl⟩ : ∃ (b : Fin 32) (r : Fin 200), l = ix2 b r := ⟨l 0, l 1, eq_ix2 l⟩
  rw [val_main_v19_apply, val_main_v18_apply, val_main_cst_apply, gatherT x R hx]
  rfl

theorem cos_at (x : IVec SX 32) (R : SR.Idx → EReal) (hx : InRange x) (l : S32x200.Idx) :
    val_main_v33 (F := Ideal) x R l = cr (relRows x R (ix2 (l 0) (l 1))) := by
  rw [val_main_v33_apply, phase x R hx]
  rfl

theorem sin_at (x : IVec SX 32) (R : SR.Idx → EReal) (hx : InRange x) (l : S32x200.Idx) :
    val_main_v34 (F := Ideal) x R l = sr (relRows x R (ix2 (l 0) (l 1))) := by
  rw [val_main_v34_apply, phase x R hx]
  rfl

/-- The rotated left entity's real part at `(b, r)`. -/
theorem qre_at (x : IVec SX 32) (E : SE.Idx → EReal) (R : SR.Idx → EReal) (hx : InRange x) (l : S32x200.Idx) :
    val_main_v39 (F := Ideal) x E R l
      = qre (entRows 0 x E (ix2 (l 0) (lo (l 1)))) (entRows 0 x E (ix2 (l 0) (hi (l 1)))) (relRows x R (ix2 (l 0) (l 1))) := by
  rw [val_main_v39_apply, val_main_v37_apply, val_main_v38_apply, left_lo x E hx, left_hi x E hx, cos_at x R hx, sin_at x R hx]
  rfl

/-- The rotated left entity's imaginary part at `(b, r)`. -/
theorem qim_at (x : IVec SX 32) (E : SE.Idx → EReal) (R : SR.Idx → EReal) (hx : InRange x) (l : S32x200.Idx) :
    val_main_v42 (F := Ideal) x E R l
      = qim (entRows 0 x E (ix2 (l 0) (lo (l 1)))) (entRows 0 x E (ix2 (l 0) (hi (l 1)))) (relRows x R (ix2 (l 0) (l 1))) := by
  rw [val_main_v42_apply, val_main_v40_apply, val_main_v41_apply, left_lo x E hx, left_hi x E hx, cos_at x R hx, sin_at x R hx]
  rfl

/-! ## The four results -/

/-- The first result: minus the sum over the ranks of the modulus of the rotated left entity less the candidate. -/
theorem sp_eq (x : IVec SX 32) (E : SE.Idx → EReal) (R : SR.Idx → EReal) (hx : InRange x) :
    val_main_v100 (F := Ideal) x E R = spOut x E R := by
  funext i
  rw [val_main_v100_apply, val_main_v57_apply, val_main_cst_5_apply]
  simp only [Ideal.hostNegf_def, Ideal.negf_def, Ideal.ofBits_def, Ideal.ofBits_zero_f32, zero_add]
  unfold spOut
  refine congrArg Neg.neg (Finset.sum_congr rfl fun r _ => ?_)
  simp only [val_main_v56_apply, val_main_v55_apply, val_main_v53_apply, val_main_v54_apply, val_main_v47_apply,
    val_main_v52_apply, val_main_v45_apply, val_main_v43_apply, val_main_v46_apply, val_main_v44_apply,
    val_main_v50_apply, val_main_v48_apply, val_main_v51_apply, val_main_v49_apply, tab_lo, tab_hi,
    qre_at x E R hx, qim_at x E R hx]
  rfl

/-- The second result: minus the sum over the ranks of the modulus of the rotated candidate less the right entity. -/
theorem po_eq (x : IVec SX 32) (E : SE.Idx → EReal) (R : SR.Idx → EReal) (hx : InRange x) :
    val_main_v101 (F := Ideal) x E R = poOut x E R := by
  funext i
  rw [val_main_v101_apply, val_main_v91_apply, val_main_v90_apply, val_main_cst_6_apply]
  simp only [Ideal.hostNegf_def, Ideal.negf_def, Ideal.ofBits_def, Ideal.ofBits_zero_f32, zero_add]
  unfold poOut
  refine congrArg Neg.neg (Finset.sum_congr rfl fun r _ => ?_)
  simp only [val_main_v89_apply, val_main_v88_apply, val_main_v86_apply, val_main_v87_apply, val_main_v82_apply,
    val_main_v85_apply, val_main_v68_apply, val_main_v79_apply, val_main_v62_apply, val_main_v67_apply,
    val_main_v73_apply, val_main_v78_apply, val_main_v60_apply, val_main_v58_apply, val_main_v61_apply,
    val_main_v59_apply, val_main_v65_apply, val_main_v63_apply, val_main_v66_apply, val_main_v64_apply,
    val_main_v71_apply, val_main_v69_apply, val_main_v72_apply, val_main_v70_apply, val_main_v76_apply,
    val_main_v74_apply, val_main_v77_apply, val_main_v75_apply, val_main_v81_apply, val_main_v80_apply,
    val_main_v84_apply, val_main_v83_apply, tab_lo, tab_hi, cos_at x R hx, sin_at x R hx, right_lo x E hx,
    right_hi x E hx]
  rfl

/-- The third result: the moduli of the left entities' coordinates. -/
theorem norm0_eq (x : IVec SX 32) (E : SE.Idx → EReal) (hx : InRange x) :
    val_main_v95 (F := Ideal) x E = normOut 0 x E := by
  funext l
  rw [val_main_v95_apply, val_main_v94_apply, val_main_v92_apply, val_main_v93_apply, left_lo x E hx, left_hi x E hx]
  rfl

/-- The fourth result: the moduli of the right entities' coordinates. -/
theorem norm2_eq (x : IVec SX 32) (E : SE.Idx → EReal) (hx : InRange x) :
    val_main_v99 (F := Ideal) x E = normOut 2 x E := by
  funext l
  rw [val_main_v99_apply, val_main_v98_apply, val_main_v96_apply, val_main_v97_apply, right_lo x E hx, right_hi x E hx]
  rfl

/-- The reference's run, read back: under the range condition on the index words its four results are the
    specification's functions of the three argument arrays, and the arguments are as they were. -/
theorem run (m : (ℓ : Loc nD τ sig) → Buf (Elt Ideal) ℓ) (ρ : Dev nD → PrngReg)
    (hx : ∀ c : Dev nD, InRange (m ((c.tc : Thread nD τ).loc main_arg0))) :
    θ_run (defs (F := Ideal)) (onTc (τ := τ) (main (F := Ideal))) ⟨m, fun _ => 0, ρ⟩ fun r => ∀ c : Dev nD,
      r.2.mem ((c.tc : Thread nD τ).loc main_v100) = spOut (m ((c.tc : Thread nD τ).loc main_arg0)) (m ((c.tc : Thread nD τ).loc main_arg1)) (m ((c.tc : Thread nD τ).loc main_arg2))
      ∧ r.2.mem ((c.tc : Thread nD τ).loc main_v101) = poOut (m ((c.tc : Thread nD τ).loc main_arg0)) (m ((c.tc : Thread nD τ).loc main_arg1)) (m ((c.tc : Thread nD τ).loc main_arg2))
      ∧ r.2.mem ((c.tc : Thread nD τ).loc main_v95) = normOut 0 (m ((c.tc : Thread nD τ).loc main_arg0)) (m ((c.tc : Thread nD τ).loc main_arg1))
      ∧ r.2.mem ((c.tc : Thread nD τ).loc main_v99) = normOut 2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (Cert.ReferenceIdeal.Value.run (F := Ideal) m ρ)
  obtain ⟨h100, h101, h95, h99, h0, h1, h2⟩ := h c
  exact ⟨h100.trans ((val_main_v100_eq m c).trans (sp_eq _ _ _ (hx c))),
    h101.trans ((val_main_v101_eq m c).trans (po_eq _ _ _ (hx c))),
    h95.trans ((val_main_v95_eq _ _).trans (norm0_eq _ _ (hx c))),
    h99.trans ((val_main_v99_eq _ _).trans (norm2_eq _ _ (hx c))), h0, h1, h2⟩

end Cert.Rot.Ref

end
-- ==== Proof.Algebra.lean ====
/- The expanded modulus is the modulus: on real numbers |u − v|² = |u|² + |v|² − 2·Re(u·conj v) is non-negative, so the
   guard against zero is the identity, and a rotation keeps a modulus because cos² + sin² = 1. -/
import proofs.«414217_j69312182222862_3_alg».proof.Proof.Spec
import Mathlib.Tactic.Ring
import Mathlib.Tactic.LinearCombination
import Mathlib.Tactic.NormNum.Basic

noncomputable section

open scoped BigOperators

namespace Cert.Rot

open Idealize.ShloMosaic Idealize.ShloMosaic.ValueIdx

/-! ## The two constants -/

/-- The word 0x40000000 has sign 0, exponent field 128 and an empty fraction: it denotes 2²³ · 2^(128 − 127 − 23) = 2. -/
theorem two_eq : two = ((2 : ℝ) : EReal) := by
  unfold two
  simp [Ideal.ofBits, Ideal.ieee, -EReal.coe_mul]
  norm_num

/-- The word 0x40C90FDB has exponent field 129, neither all ones nor zero: it denotes a normal number, so a real one.
    Which real (about 6.2831855) never matters below: only that the phase `t · c2pi` is real when `t` is. -/
theorem c2pi_real : ∃ p : ℝ, c2pi = (p : EReal) := by
  unfold c2pi
  simp [Ideal.ofBits, Ideal.ieee, -EReal.coe_mul]

/-! ## The guard -/

/-- On a non-negative real the maximum with zero changes nothing; so two square roots agree as soon as the guarded
    argument equals the other one and that one is non-negative. -/
theorem sqrt_guard {u v : ℝ} (huv : u = v) (hv : 0 ≤ v) :
    Ideal.sqrt (max (u : EReal) 0) = Ideal.sqrt (v : EReal) := by
  subst huv
  rw [max_eq_left (EReal.coe_nonneg.mpr hv)]

/-! ## The scalar identities -/

/-- With q = (qre, qim) and e = (x, y) real: |e|² + |q|² − 2·(x·qre + y·qim) = (qre − x)² + (qim − y)², a sum of two
    squares. Every operation stays inside the reals (the cosine and sine of a real phase are real), so both sides are
    the square root of one coerced real. -/
theorem kerSp_eq_refSp {lre lim t ere eim : EReal} (h1 : ∃ r : ℝ, lre = (r : EReal)) (h2 : ∃ r : ℝ, lim = (r : EReal))
    (h3 : ∃ r : ℝ, t = (r : EReal)) (h4 : ∃ r : ℝ, ere = (r : EReal)) (h5 : ∃ r : ℝ, eim = (r : EReal)) :
    kerSp lre lim t ere eim = refSp lre lim t ere eim := by
  obtain ⟨a, rfl⟩ := h1
  obtain ⟨b, rfl⟩ := h2
  obtain ⟨τ, rfl⟩ := h3
  obtain ⟨x, rfl⟩ := h4
  obtain ⟨y, rfl⟩ := h5
  obtain ⟨p, hp⟩ := c2pi_real
  simp only [kerSp, kerCore, refSp, qre, qim, sq2, cr, sr, hp, two_eq, ← EReal.coe_mul, ← EReal.coe_add,
    ← EReal.coe_sub, Ideal.cos_coe, Ideal.sin_coe]
  apply sqrt_guard
  · ring
  · exact add_nonneg (mul_self_nonneg _) (mul_self_nonneg _)

/-- With c = cos φ, s = sin φ, e = (x, y) and the right entity (a, b):
    (x·c − y·s − a)² + (x·s + y·c − b)² = (x² + y²)·(c² + s²) + (a² + b²) − 2·(x·(c·a + s·b) + y·(c·b − s·a)),
    and c² + s² = 1 turns the first term into |e|²: the rotation keeps the modulus of e. -/
theorem kerPo_eq_refPo {rre rim t ere eim : EReal} (h1 : ∃ r : ℝ, rre = (r : EReal)) (h2 : ∃ r : ℝ, rim = (r : EReal))
    (h3 : ∃ r : ℝ, t = (r : EReal)) (h4 : ∃ r : ℝ, ere = (r : EReal)) (h5 : ∃ r : ℝ, eim = (r : EReal)) :
    kerPo rre rim t ere eim = refPo rre rim t ere eim := by
  obtain ⟨a, rfl⟩ := h1
  obtain ⟨b, rfl⟩ := h2
  obtain ⟨τ, rfl⟩ := h3
  obtain ⟨x, rfl⟩ := h4
  obtain ⟨y, rfl⟩ := h5
  obtain ⟨p, hp⟩ := c2pi_real
  simp only [kerPo, kerCore, refPo, alpha, beta, sq2, cr, sr, hp, two_eq, ← EReal.coe_mul, ← EReal.coe_add,
    ← EReal.coe_sub, Ideal.cos_coe, Ideal.sin_coe]
  apply sqrt_guard
  · have h := Real.cos_sq_add_sin_sq (τ * p)
    linear_combination (-(x * x + y * y)) * h
  · exact add_nonneg (mul_self_nonneg _) (mul_self_nonneg _)

/-! ## The two results

At (b, n) both forms are minus a sum over the 200 ranks; rank by rank the kernel's summand is `kerSp` (or `kerPo`) of
five table entries — three of the gathered rows, which are entries of `E` and `R`, and two of `E` itself — all real under
the hypotheses, and the reference's summand is `refSp` (`refPo`) of the same five. -/

/-- The first launch result in the kernel's form is the reference's first result. -/
theorem kerOut_sp (x : IVec SX 32) (E : SE.Idx → EReal) (R : SR.Idx → EReal) (hE : AllReal E) (hR : AllReal R) :
    kerOut (embT E) (qreT x E R) (qimT x E R) (q2T x E R) = spOut x E R := by
  funext i
  unfold kerOut spOut
  congr 1
  refine Finset.sum_congr rfl fun r _ => ?_
  exact kerSp_eq_refSp (hE _) (hE _) (hR _) (hE _) (hE _)

/-- The second launch result in the kernel's form is the reference's second result. -/
theorem kerOut_po (x : IVec SX 32) (E : SE.Idx → EReal) (R : SR.Idx → EReal) (hE : AllReal E) (hR : AllReal R) :
    kerOut (embT E) (alphaT x E R) (betaT x E R) (r2T x E) = poOut x E R := by
  funext i
  unfold kerOut poOut
  congr 1
  refine Finset.sum_congr rfl fun r _ => ?_
  exact kerPo_eq_refPo (hE _) (hE _) (hR _) (hE _) (hE _)

end Cert.Rot

end
-- ==== Proof.PreFacts.lean ====
/- What the printed precondition says of the three argument arrays: every entity and relation entry is a real
   number, and every index word lies inside the table it indexes. -/
import proofs.«414217_j69312182222862_3_alg».proof.Pre_finite_inputs
import proofs.«414217_j69312182222862_3_alg».proof.Proof.Gen.Pre_finite_inputs
import proofs.«414217_j69312182222862_3_alg».proof.Proof.Spec
import Idealize.ShloMosaic.Lib.ReduceAll
import Idealize.ShloMosaic.Lib.StableHlo.Predicate
import Idealize.ShloMosaic.Lib.ValueLayout

noncomputable section

open scoped BigOperators

namespace Cert.Rot

open Idealize.ShloMosaic Idealize.ShloMosaic.ValueIdx

/-- The scalar shape has exactly one index. -/
instance scalarIdx_subsingleton : Subsingleton (⟨0, ![]⟩ : Shape).Idx := ⟨fun _ _ => funext fun d => d.elim0⟩

/-! ## One entry: a float below +∞ in absolute value is a real number -/

/-- An extended real whose absolute value `max e (-e)` is below `⊤` is neither infinity. -/
theorem real_of_abs_lt_top (e : EReal) (h : max e (-e) < ⊤) : ∃ r : ℝ, e = (r : EReal) := by
  induction e using EReal.rec with
  | bot => simp at h
  | coe r => exact ⟨r, rfl⟩
  | top => simp at h

/-- The printed test `|e| < +∞` (the word `0x7F800000` is +∞), answered 1, says `e` is a real number. -/
theorem real_of_finite_test (e : Ideal .f32)
    (h : FloatOps.cmpf .olt (FloatOps.hostAbsf e) (FloatOps.ofBits (F := Ideal) .f32 0x7F800000#32) = 1#1) :
    ∃ r : ℝ, e = (r : EReal) := by
  have htop : Ideal.ofBits .f32 0x7F800000#32 = ⊤ := by simp [Ideal.ofBits, Ideal.ieee]
  change Ideal.cmp .olt (max (e : EReal) (-(e : EReal))) (Ideal.ofBits .f32 0x7F800000#32) = 1#1 at h
  rw [htop] at h
  unfold Ideal.cmp at h
  exact real_of_abs_lt_top e (of_decide_eq_true ((StableHlo.Predicate.ofBool_eq_one_iff _).1 h))

/-! ## One index word: the two signed comparisons -/

/-- `w ≥ 0` signed, answered 1. -/
theorem nonneg_of_sge_zero (w : BitVec 32) (h : IntOp.cmpi .sge w 0#32 = 1#1) : 0 ≤ w.toInt := by
  unfold IntOp.cmpi at h
  have h' := BitVec.sle_iff_toInt_le.1 ((StableHlo.Predicate.ofBool_eq_one_iff _).1 h)
  simpa using h'

/-- `w < c` signed, answered 1. -/
theorem lt_of_slt (w c : BitVec 32) (h : IntOp.cmpi .slt w c = 1#1) : w.toInt < c.toInt := by
  unfold IntOp.cmpi at h
  exact BitVec.slt_iff_toInt_lt.1 ((StableHlo.Predicate.ofBool_eq_one_iff _).1 h)

/-! ## A column of the index table, as the predicate reads it -/

/-- A `[32, 1]` column flattened to `[32]` reads, at `b`, the column at `(b, 0)`. -/
theorem shapeCast_col_apply {α : Type} (v : (⟨2, ![32, 1]⟩ : Shape).Idx → α)
    (h : (⟨2, ![32, 1]⟩ : Shape).ShapeCasts ⟨1, ![32]⟩) (b : Fin 32) :
    shapeCast ⟨1, ![32]⟩ v h (ix1 b) = v (ix2 b (0 : Fin 1)) :=
  shapeCast_apply v h _ _ (by
    rw [Shape.rowMajor_val_two, Shape.rowMajor_val_one]
    show b.val * 1 + 0 = b.val
    omega)

/-- Column `c` of the index table, sliced out and flattened, reads at `b` the word `x (b, c)`. -/
theorem column_apply (x : IVec SX 32) (c : Nat) (hc : c < 3)
    (hs : (⟨2, ![32, 3]⟩ : Shape).Slices ![0, c] ⟨2, ![32, 1]⟩)
    (hr : (⟨2, ![32, 1]⟩ : Shape).ShapeCasts ⟨1, ![32]⟩) (b : Fin 32) :
    shapeCast ⟨1, ![32]⟩ (extractStridedSlice ⟨2, ![32, 1]⟩ ![0, c] x hs) hr (ix1 b) = x (ix2 b ⟨c, hc⟩) := by
  rw [shapeCast_col_apply]
  exact slice2_axis1_apply c x hs b (0 : Fin 1) ⟨c, hc⟩ rfl

theorem pre_facts (x : IVec SX 32) (E : SE.Idx → EReal) (R : SR.Idx → EReal)
    (h : Cert.Pre_finite_inputs.fn (F := Ideal) x E R = fun _ => 1#1) : InRange x ∧ AllReal E ∧ AllReal R := by
  have h0 := congrFun h ix0
  simp only [Cert.Pre_finite_inputs.fn, Cert.Pre_finite_inputs.fn_part1, andi, IntOp.andi_eq_one] at h0
  obtain ⟨⟨⟨⟨⟨hE, hR⟩, hx⟩, hc0⟩, hc1⟩, hc2⟩ := h0
  have e0 : (14541#32 : BitVec 32).toInt = 14541 := by decide
  have e1 : (237#32 : BitVec 32).toInt = 237 := by decide
  refine ⟨⟨?_, ?_, ?_, ?_⟩, ?_, ?_⟩
  · intro b k
    exact nonneg_of_sge_zero _ (Host.reduce_andi_all _ _ _ _ _ hx (ix2 b k))
  · intro b
    have hb := lt_of_slt _ _ (Host.reduce_andi_all _ _ _ _ _ hc0 (ix1 b))
    rw [column_apply x 0 (by omega)] at hb
    exact lt_of_lt_of_eq hb e0
  · intro b
    have hb := lt_of_slt _ _ (Host.reduce_andi_all _ _ _ _ _ hc1 (ix1 b))
    rw [column_apply x 1 (by omega)] at hb
    exact lt_of_lt_of_eq hb e1
  · intro b
    have hb := lt_of_slt _ _ (Host.reduce_andi_all _ _ _ _ _ hc2 (ix1 b))
    rw [column_apply x 2 (by omega)] at hb
    exact lt_of_lt_of_eq hb e0
  · intro i
    exact real_of_finite_test (E i) (Host.reduce_andi_all _ _ _ _ _ hE i)
  · intro i
    exact real_of_finite_test (R i) (Host.reduce_andi_all _ _ _ _ _ hR i)

end Cert.Rot

end
-- ==== Proof.lean ====
/-
  The certificate's five claims.

  The kernel scores 32 queries against all 14541 entities of a rotation model: sp(b, n) = −∑ᵣ |rot(lhs_b) − e_n| and
  po(b, n) = −∑ᵣ |rot(e_n) − rhs_b|, the sums over 200 complex ranks. It computes each modulus through the expansion
  |u − v|² = |u|² + |v|² − 2·Re(u·conj v), guarded by a maximum with zero, one launch over tiles of 512 entities with
  the ranks on the rows; the reference computes the differences directly over broadcast rank-3 arrays. Over the real
  numbers the expansion is an identity, its value is a sum of two squares (so the guard is the identity), and a
  rotation keeps a modulus because cos² + sin² = 1: the two programs compute the same extended reals wherever the
  tables' entries are finite. The kernel's three row takes fill with a not-a-number pattern outside the table where
  the reference's indexing clamps: the precondition keeps every index word inside its table, where both read the
  row the word names.

  The frames: each kernel program runs its host lines, then the launch (the body's run is found by symbolic
  execution; the last entity tile runs past the table's end, so the three clipped windows' buffers are stated on the
  columns inside the table only), and the arguments are buffers no window stages. The reference's frame is its
  generated run with the results dropped.
-/
import proofs.«414217_j69312182222862_3_alg».proof.Defs
import proofs.«414217_j69312182222862_3_alg».proof.Proof.Gen.Kernel
import proofs.«414217_j69312182222862_3_alg».proof.Proof.Gen.Kernel.Skeleton
import proofs.«414217_j69312182222862_3_alg».proof.Proof.Gen.Kernel.Launch
import proofs.«414217_j69312182222862_3_alg».proof.Proof.Gen.Kernel.Points
import proofs.«414217_j69312182222862_3_alg».proof.Proof.Gen.Kernel.Frame
import proofs.«414217_j69312182222862_3_alg».proof.Proof.Gen.KernelIdeal
import proofs.«414217_j69312182222862_3_alg».proof.Proof.Gen.KernelIdeal.Skeleton
import proofs.«414217_j69312182222862_3_alg».proof.Proof.Gen.KernelIdeal.Launch
import proofs.«414217_j69312182222862_3_alg».proof.Proof.Gen.KernelIdeal.Points
import proofs.«414217_j69312182222862_3_alg».proof.Proof.Gen.KernelIdeal.Frame
import proofs.«414217_j69312182222862_3_alg».proof.Proof.Gen.ReferenceIdeal
import proofs.«414217_j69312182222862_3_alg».proof.Proof.Gen.Pre_finite_inputs
import proofs.«414217_j69312182222862_3_alg».proof.Proof.Gen.ReferenceIdeal.Run
import proofs.«414217_j69312182222862_3_alg».proof.Proof.Gen.ReferenceIdeal.Read
import proofs.«414217_j69312182222862_3_alg».proof.Proof.KFrameBits
import proofs.«414217_j69312182222862_3_alg».proof.Proof.KFrameIdeal
import proofs.«414217_j69312182222862_3_alg».proof.Proof.KFinal
import proofs.«414217_j69312182222862_3_alg».proof.Proof.HostValue
import proofs.«414217_j69312182222862_3_alg».proof.Proof.RefValue
import proofs.«414217_j69312182222862_3_alg».proof.Proof.Algebra
import proofs.«414217_j69312182222862_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

/-- The reference has no launch: its frame is its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

set_option maxHeartbeats 1000000 in
/-- Both programs end with the specification's four arrays: the kernel's two launch results in its own form, which is
    the reference's on real entries; the two moduli arrays by the same host lines on both sides. -/
theorem algebraic : Cert.algebraic_KernelIdeal_ReferenceIdeal := by
  intro m ρ m' ρ' hpre hagree
  have hP : ∀ c : Dev Cert.KernelIdeal.nD,
      Cert.Rot.InRange (m ((c.tc : Thread Cert.KernelIdeal.nD Cert.KernelIdeal.τ).loc Cert.KernelIdeal.main_arg0))
      ∧ Cert.Rot.AllReal (m ((c.tc : Thread Cert.KernelIdeal.nD Cert.KernelIdeal.τ).loc Cert.KernelIdeal.main_arg1))
      ∧ Cert.Rot.AllReal (m ((c.tc : Thread Cert.KernelIdeal.nD Cert.KernelIdeal.τ).loc Cert.KernelIdeal.main_arg2)) :=
    fun c => Cert.Rot.pre_facts _ _ _ (hpre c)
  refine ⟨fun c => Cert.Rot.spOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Rot.poOut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => Cert.Rot.normOut 0 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => Cert.Rot.normOut 2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · -- the kernel program
    refine (θ_run Cert.KernelIdeal.defs _ _).mono (fun r h c => ?_) (Cert.KernelIdeal.Body.vrun_main m ρ)
    obtain ⟨hw, hrest⟩ := h c
    have hv := Cert.Rot.KHost.V_ops m c (hP c).1
    dsimp only at hv
    obtain ⟨e0, e1, e2, e3, e4, e5, e6, e38, e42⟩ := hv
    refine ⟨?_, ?_, ?_, ?_, ?_, ?_, ?_⟩
    · refine (hw 7).trans ?_
      rw [Cert.KernelIdeal.Body.final7]
      show Cert.Rot.kerOut (Cert.KernelIdeal.Gen.V m c (Pipeline.arrRef Cert.KernelIdeal.spec0 0)) (Cert.KernelIdeal.Gen.V m c (Pipeline.arrRef Cert.KernelIdeal.spec0 1))
        (Cert.KernelIdeal.Gen.V m c (Pipeline.arrRef Cert.KernelIdeal.spec0 2)) (Cert.KernelIdeal.Gen.V m c (Pipeline.arrRef Cert.KernelIdeal.spec0 3)) = _
      rw [e0, e1, e2, e3]
      exact Cert.Rot.kerOut_sp _ _ _ (hP c).2.1 (hP c).2.2
    · refine (hw 8).trans ?_
      rw [Cert.KernelIdeal.Body.final8]
      show Cert.Rot.kerOut (Cert.KernelIdeal.Gen.V m c (Pipeline.arrRef Cert.KernelIdeal.spec0 0)) (Cert.KernelIdeal.Gen.V m c (Pipeline.arrRef Cert.KernelIdeal.spec0 4))
        (Cert.KernelIdeal.Gen.V m c (Pipeline.arrRef Cert.KernelIdeal.spec0 5)) (Cert.KernelIdeal.Gen.V m c (Pipeline.arrRef Cert.KernelIdeal.spec0 6)) = _
      rw [e0, e4, e5, e6]
      exact Cert.Rot.kerOut_po _ _ _ (hP c).2.1 (hP c).2.2
    · exact (hrest Cert.KernelIdeal.main_v38 (Pipeline.mem_restRefs_of Cert.KernelIdeal.main_v38 (by decide) (by decide))).trans e38
    · exact (hrest Cert.KernelIdeal.main_v42 (Pipeline.mem_restRefs_of Cert.KernelIdeal.main_v42 (by decide) (by decide))).trans e42
    · exact (hrest Cert.KernelIdeal.main_arg0 (Pipeline.mem_restRefs_of Cert.KernelIdeal.main_arg0 (by decide) (by decide))).trans (Cert.KernelIdeal.Gen.V_main_arg0 m c)
    · exact (hrest Cert.KernelIdeal.main_arg1 (Pipeline.mem_restRefs_of Cert.KernelIdeal.main_arg1 (by decide) (by decide))).trans (Cert.KernelIdeal.Gen.V_main_arg1 m c)
    · exact (hrest Cert.KernelIdeal.main_arg2 (Pipeline.mem_restRefs_of Cert.KernelIdeal.main_arg2 (by decide) (by decide))).trans (Cert.KernelIdeal.Gen.V_main_arg2 m c)
  · -- the reference
    refine (θ_run Cert.ReferenceIdeal.defs _ _).mono (fun r h c => ?_)
      (Cert.Rot.Ref.run m' ρ' (fun c => by rw [(hagree c).1]; exact (hP c).1))
    obtain ⟨h0, h1, h2, h3, h4, h5, h6⟩ := h c
    rw [(hagree c).1, (hagree c).2.1, (hagree c).2.2] at h0 h1
    rw [(hagree c).1, (hagree c).2.1] at h2 h3
    exact ⟨h0, h1, h2, h3, h4, h5, h6⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
